-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S2047x64 : Shape := ⟨2, ![2047, 64]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel
  bcast_S_S2047x64 : S_.BroadcastsInDim S2047x64 (![] : Fin 0 → Fin S2047x64.rank)
  reducesTo_S2047x64_S_d0_1 : S2047x64.ReducesTo [0, 1] S_

variable [Facts]

def fn_part1 {F : FTy → Type} [FloatOps F] (main_arg4 : FVec F S2047x64 .f32) (main_v13 : IVec S_ 1) (main_v16 : IVec S4x16x1024x64 1) : IVec S_ 1 :=
  let main_c_5 : IVec S_ 1 := constantI S_ 1 1#1
  let main_v17 : IVec S_ 1 := (fun x v => Host.reduce IntOp.andi x v reducesTo_S4x16x1024x64_S_d0_1_2_3 h_S_) main_v16 main_c_5
  let main_v18 : IVec S_ 1 := andi main_v13 main_v17
  let main_v19 : FVec F S2047x64 .f32 := Host.absf main_arg4
  let main_cst_6 : FVec F S_ .f32 := constant S_ .f32 0x7F800000#32
  let main_v20 : FVec F S2047x64 .f32 := broadcastInDim S2047x64 ![] bcast_S_S2047x64 main_cst_6
  let main_v21 : IVec S2047x64 1 := cmpf .olt main_v19 main_v20
  let main_c_7 : IVec S_ 1 := constantI S_ 1 1#1
  let main_v22 : IVec S_ 1 := (fun x v => Host.reduce IntOp.andi x v reducesTo_S2047x64_S_d0_1 h_S_) main_v21 main_c_7
  let main_v23 : IVec S_ 1 := andi main_v18 main_v22
  main_v23

def fn {F : FTy → Type} [FloatOps F] (main_arg0 : FVec F S4x16x1024x64 .f32) (main_arg1 : FVec F S4x16x1024x64 .f32) (main_arg2 : FVec F S4x16x1024x64 .f32) (main_arg3 : FVec F S4x16x1024x64 .f32) (main_arg4 : FVec F S2047x64 .f32) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  let main_v14 : FVec F S4x16x1024x64 .f32 := Host.absf main_arg3
  let main_cst_4 : FVec F S_ .f32 := constant S_ .f32 0x7F800000#32
  let main_v15 : FVec F S4x16x1024x64 .f32 := broadcastInDim S4x16x1024x64 ![] bcast_S_S4x16x1024x64 main_cst_4
  let main_v16 : IVec S4x16x1024x64 1 := cmpf .olt main_v14 main_v15
  fn_part1 (F := F) main_arg4 main_v13 main_v16
-- ==== Kernel.lean ====
abbrev S4x16x1024x64 : Shape := ⟨4, ![4, 16, 1024, 64]⟩
abbrev S2047x64 : Shape := ⟨2, ![2047, 64]⟩
abbrev S_ : Shape := ⟨0, ![]⟩
abbrev S2048x64 : Shape := ⟨2, ![2048, 64]⟩
abbrev S64x1024x64 : Shape := ⟨3, ![64, 1024, 64]⟩
abbrev S4x16x1024 : Shape := ⟨3, ![4, 16, 1024]⟩
abbrev S4x16x1024x1 : Shape := ⟨4, ![4, 16, 1024, 1]⟩
abbrev S1x256x64 : Shape := ⟨3, ![1, 256, 64]⟩
abbrev S1x1024x64 : Shape := ⟨3, ![1, 1024, 64]⟩
abbrev S256x64 : Shape := ⟨2, ![256, 64]⟩
abbrev S1024x64 : Shape := ⟨2, ![1024, 64]⟩
abbrev S1280x64 : Shape := ⟨2, ![1280, 64]⟩
abbrev S256 : Shape := ⟨1, ![256]⟩
abbrev S256x1 : Shape := ⟨2, ![256, 1]⟩
abbrev S256x1024 : Shape := ⟨2, ![256, 1024]⟩
abbrev S256x1280 : Shape := ⟨2, ![256, 1280]⟩

abbrev nBuf : Space → Nat
  | .hbm => 26
  | .vmem => 9
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x64, .f32⟩
  | .hbm, ⟨4, _⟩ => ⟨S2047x64, .f32⟩
  | .hbm, ⟨5, _⟩ => ⟨S_, .i32⟩
  | .hbm, ⟨6, _⟩ => ⟨S_, .f32⟩
  | .hbm, ⟨7, _⟩ => ⟨S2048x64, .f32⟩
  | .hbm, ⟨8, _⟩ => ⟨S64x1024x64, .f32⟩
  | .hbm, ⟨9, _⟩ => ⟨S4x16x1024x64, .f32⟩
  | .hbm, ⟨10, _⟩ => ⟨S_, .f32⟩
  | .hbm, ⟨11, _⟩ => ⟨S4x16x1024, .f32⟩
  | .hbm, ⟨12, _⟩ => ⟨S4x16x1024x1, .f32⟩
  | .hbm, ⟨13, _⟩ => ⟨S4x16x1024x1, .f32⟩
  | .hbm, ⟨14, _⟩ => ⟨S4x16x1024x64, .f32⟩
  | .hbm, ⟨15, _⟩ => ⟨S4x16x1024x64, .f32⟩
  | .hbm, ⟨16, _⟩ => ⟨S_, .f32⟩
  | .hbm, ⟨17, _⟩ => ⟨S4x16x1024x64, .f32⟩
  | .hbm, ⟨18, _⟩ => ⟨S4x16x1024x64, .f32⟩
  | .hbm, ⟨19, _⟩ => ⟨S4x16x1024x64, .f32⟩
  | .hbm, ⟨20, _⟩ => ⟨S64x1024x64, .f32⟩
  | .hbm, ⟨21, _⟩ => ⟨S64x1024x64, .f32⟩
  | .hbm, ⟨22, _⟩ => ⟨S64x1024x64, .f32⟩
  | .hbm, ⟨23, _⟩ => ⟨S64x1024x64, .f32⟩
  | .hbm, ⟨24, _⟩ => ⟨S64x1024x64, .f32⟩
  | .hbm, ⟨25, _⟩ => ⟨S4x16x1024x64, .f32⟩
  | .local _ .vmem, ⟨0, _⟩ => ⟨S1x256x64, .f32⟩
  | .local _ .vmem, ⟨1, _⟩ => ⟨S1x256x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S2048x64, .f32⟩
  | .local _ .vmem, ⟨7, _⟩ => ⟨S1x256x64, .f32⟩
  | .local _ .vmem, ⟨8, _⟩ => ⟨S1x256x64, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v8 : Index := Scalar.indexCast v1
  let c0_8 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S2047x64_S2048x64_010_000 : S2047x64.Pads (![0, 0] : Fin 2 → Nat) ![1, 0] ![0, 0] S2048x64
  h_S_ : 0 < S_.numel
  shapeCasts_S4x16x1024x64_S64x1024x64 : S4x16x1024x64.ShapeCasts S64x1024x64
  reducesTo_S4x16x1024x64_S4x16x1024_d3 : S4x16x1024x64.ReducesTo [3] S4x16x1024
  bcast_S4x16x1024_S4x16x1024x1_0_1_2 : S4x16x1024.BroadcastsInDim S4x16x1024x1 (![0, 1, 2] : Fin 3 → Fin S4x16x1024x1.rank)
  bcast_S4x16x1024x1_S4x16x1024x64_0_1_2_3 : S4x16x1024x1.BroadcastsInDim S4x16x1024x64 (![0, 1, 2, 3] : Fin 4 → Fin S4x16x1024x64.rank)
  bcast_S_S4x16x1024x64 : S_.BroadcastsInDim S4x16x1024x64 (![] : Fin 0 → Fin S4x16x1024x64.rank)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  h_S1280x64 : 0 < S1280x64.numel
  shapeCasts_S1280x64_S1280x64 : S1280x64.ShapeCasts S1280x64
  reduces_S256x64_S256 : S256x64.Reduces [1] S256
  shapeCasts_S256_S256x1 : S256.ShapeCasts S256x1
  broadcasts_S256x1_S256x64 : S256x1.Broadcasts S256x64
  bitsLt_bf16_f32 : FTy.bits .bf16 < FTy.bits .f32
  iota_S256x1280_d0_w32 : S256x1280.Iotas .tc 32 [0]
  rotates_S256x1280_d1 : S256x1280.Rotates 1 none
  slices_S256x1280_o0_0_S256x1024 : S256x1280.Slices ![0, 0] S256x1024
  iota_S256x1024_d0_w32 : S256x1024.Iotas .tc 32 [0]
  iota_S256x1024_d1_w32 : S256x1024.Iotas .tc 32 [1]
  reduces_S256x1024_S256 : S256x1024.Reduces [1] S256
  shapeCasts_S256x64_S1x256x64 : S256x64.ShapeCasts S1x256x64
  shapeCasts_S64x1024x64_S4x16x1024x64 : S64x1024x64.ShapeCasts S4x16x1024x64
  dot_S256x64_S1024x64_S256x1024_1_1_0_0_n_n_wf : DotDims.WF S256x64 S1024x64 S256x1024 [1] [1] [0] [0] [] []
  dot_S256x64_S1280x64_S256x1280_1_1_0_0_n_n_wf : DotDims.WF S256x64 S1280x64 S256x1280 [1] [1] [0] [0] [] []
  dot_S256x1024_S1024x64_S256x64_1_0_0_1_n_n_wf : DotDims.WF S256x1024 S1024x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1280x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S64x1024x64.size a
  hwx0_0 : ∀ i : grid0.Coords, EltTy.bits .f32 = 32 ∨ (Rect.block (s := S64x1024x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S64x1024x64.size a
  hwx0_4 : ∀ i : grid0.Coords, EltTy.bits .f32 = 32 ∨ (Rect.block (s := S64x1024x64) S1x256x64.size (cc0_transform_4 i) (hinb0_4 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x64_S1280x64_S256x1280_1_1_0_0_n_n : DotDims S256x64 S1280x64 S256x1280 where
  lhsContracting := [1]
  rhsContracting := [1]
  lhsNonContracting := [0]
  rhsNonContracting := [0]
  lhsBatch := []
  rhsBatch := []
  wf := dot_S256x64_S1280x64_S256x1280_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_v1) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S2047x64 : Shape := ⟨2, ![2047, 64]⟩
abbrev S_ : Shape := ⟨0, ![]⟩
abbrev S4x16x1024 : Shape := ⟨3, ![4, 16, 1024]⟩
abbrev S4x16x1024x1 : Shape := ⟨4, ![4, 16, 1024, 1]⟩
abbrev S4x16x1024x1024 : Shape := ⟨4, ![4, 16, 1024, 1024]⟩
abbrev S4x16x1024x2047 : Shape := ⟨4, ![4, 16, 1024, 2047]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S4x16x1024x1024x1 : Shape := ⟨5, ![4, 16, 1024, 1024, 1]⟩
abbrev S1 : Shape := ⟨1, ![1]⟩
abbrev S1x1x1x1x1 : Shape := ⟨5, ![1, 1, 1, 1, 1]⟩
abbrev S1x1x1024x1024 : Shape := ⟨4, ![1, 1, 1024, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x64, .f32⟩
  | .hbm, ⟨4, _⟩ => ⟨S2047x64, .f32⟩
  | .hbm, ⟨5, _⟩ => ⟨S4x16x1024x64, .f32⟩
  | .hbm, ⟨6, _⟩ => ⟨S_, .f32⟩
  | .hbm, ⟨7, _⟩ => ⟨S4x16x1024, .f32⟩
  | .hbm, ⟨8, _⟩ => ⟨S4x16x1024x1, .f32⟩
  | .hbm, ⟨9, _⟩ => ⟨S4x16x1024x1, .f32⟩
  | .hbm, ⟨10, _⟩ => ⟨S4x16x1024x64, .f32⟩
  | .hbm, ⟨11, _⟩ => ⟨S4x16x1024x64, .f32⟩
  | .hbm, ⟨12, _⟩ => ⟨S4x16x1024x64, .f32⟩
  | .hbm, ⟨13, _⟩ => ⟨S_, .f32⟩
  | .hbm, ⟨14, _⟩ => ⟨S4x16x1024, .f32⟩
  | .hbm, ⟨15, _⟩ => ⟨S4x16x1024x1, .f32⟩
  | .hbm, ⟨16, _⟩ => ⟨S4x16x1024x1, .f32⟩
  | .hbm, ⟨17, _⟩ => ⟨S4x16x1024x64, .f32⟩
  | .hbm, ⟨18, _⟩ => ⟨S4x16x1024x64, .f32⟩
  | .hbm, ⟨19, _⟩ => ⟨S_, .f32⟩
  | .hbm, ⟨20, _⟩ => ⟨S4x16x1024x64, .f32⟩
  | .hbm, ⟨21, _⟩ => ⟨S4x16x1024x64, .f32⟩
  | .hbm, ⟨22, _⟩ => ⟨S4x16x1024x64, .f32⟩
  | .hbm, ⟨23, _⟩ => ⟨S4x16x1024x1024, .f32⟩
  | .hbm, ⟨24, _⟩ => ⟨S_, .f32⟩
  | .hbm, ⟨25, _⟩ => ⟨S4x16x1024x1024, .f32⟩
  | .hbm, ⟨26, _⟩ => ⟨S4x16x1024x1024, .f32⟩
  | .hbm, ⟨27, _⟩ => ⟨S_, .f32⟩
  | .hbm, ⟨28, _⟩ => ⟨S4x16x1024x1024, .f32⟩
  | .hbm, ⟨29, _⟩ => ⟨S4x16x1024x1024, .f32⟩
  | .hbm, ⟨30, _⟩ => ⟨S4x16x1024x2047, .f32⟩
  | .hbm, ⟨31, _⟩ => ⟨S1024, .i32⟩
  | .hbm, ⟨32, _⟩ => ⟨S1024x1, .i32⟩
  | .hbm, ⟨33, _⟩ => ⟨S1x1024, .i32⟩
  | .hbm, ⟨34, _⟩ => ⟨S1024x1024, .i32⟩
  | .hbm, ⟨35, _⟩ => ⟨S1024x1024, .i32⟩
  | .hbm, ⟨36, _⟩ => ⟨S1024x1024, .i32⟩
  | .hbm, ⟨37, _⟩ => ⟨S_, .i32⟩
  | .hbm, ⟨38, _⟩ => ⟨S1024x1024, .i32⟩
  | .hbm, ⟨39, _⟩ => ⟨S1024x1024, .i32⟩
  | .hbm, ⟨40, _⟩ => ⟨S4x16x1024x1024, .i32⟩
  | .hbm, ⟨41, _⟩ => ⟨S_, .i32⟩
  | .hbm, ⟨42, _⟩ => ⟨S4x16x1024x1024, .i32⟩
  | .hbm, ⟨43, _⟩ => ⟨S4x16x1024x1024, .i1⟩
  | .hbm, ⟨44, _⟩ => ⟨S_, .i32⟩
  | .hbm, ⟨45, _⟩ => ⟨S4x16x1024x1024, .i32⟩
  | .hbm, ⟨46, _⟩ => ⟨S4x16x1024x1024, .i32⟩
  | .hbm, ⟨47, _⟩ => ⟨S4x16x1024x1024, .i32⟩
  | .hbm, ⟨48, _⟩ => ⟨S4x16x1024x1024x1, .i32⟩
  | .hbm, ⟨49, _⟩ => ⟨S1, .i32⟩
  | .hbm, ⟨50, _⟩ => ⟨S_, .i32⟩
  | .hbm, ⟨51, _⟩ => ⟨S4x16x1024x1024x1, .i32⟩
  | .hbm, ⟨52, _⟩ => ⟨S4x16x1024x1024x1, .i1⟩
  | .hbm, ⟨53, _⟩ => ⟨S1x1x1x1x1, .i32⟩
  | .hbm, ⟨54, _⟩ => ⟨S4x16x1024x1024x1, .i32⟩
  | .hbm, ⟨55, _⟩ => ⟨S4x16x1024x1024x1, .i1⟩
  | .hbm, ⟨56, _⟩ => ⟨S4x16x1024x1024x1, .i1⟩
  | .hbm, ⟨57, _⟩ => ⟨S_, .i1⟩
  | .hbm, ⟨58, _⟩ => ⟨S4x16x1024x1024, .i1⟩
  | .hbm, ⟨59, _⟩ => ⟨S4x16x1024x1024, .f32⟩
  | .hbm, ⟨60, _⟩ => ⟨S_, .f32⟩
  | .hbm, ⟨61, _⟩ => ⟨S4x16x1024x1024, .f32⟩
  | .hbm, ⟨62, _⟩ => ⟨S4x16x1024x1024, .f32⟩
  | .hbm, ⟨63, _⟩ => ⟨S_, .f32⟩
  | .hbm, ⟨64, _⟩ => ⟨S4x16x1024x1024, .f32⟩
  | .hbm, ⟨65, _⟩ => ⟨S4x16x1024x1024, .f32⟩
  | .hbm, ⟨66, _⟩ => ⟨S4x16x1024x1024, .f32⟩
  | .hbm, ⟨67, _⟩ => ⟨S1024x1, .i32⟩
  | .hbm, ⟨68, _⟩ => ⟨S1x1024, .i32⟩
  | .hbm, ⟨69, _⟩ => ⟨S1024x1024, .i32⟩
  | .hbm, ⟨70, _⟩ => ⟨S1024x1024, .i32⟩
  | .hbm, ⟨71, _⟩ => ⟨S1024x1024, .i1⟩
  | .hbm, ⟨72, _⟩ => ⟨S1024x1024, .f32⟩
  | .hbm, ⟨73, _⟩ => ⟨S1x1x1024x1024, .f32⟩
  | .hbm, ⟨74, _⟩ => ⟨S4x16x1024x1024, .f32⟩
  | .hbm, ⟨75, _⟩ => ⟨S4x16x1024x1024, .f32⟩
  | .hbm, ⟨76, _⟩ => ⟨S_, .f32⟩
  | .hbm, ⟨77, _⟩ => ⟨S4x16x1024, .f32⟩
  | .hbm, ⟨78, _⟩ => ⟨S4x16x1024x1, .f32⟩
  | .hbm, ⟨79, _⟩ => ⟨S4x16x1024x64, .f32⟩
  | .hbm, ⟨80, _⟩ => ⟨S4x16x1024x64, .f32⟩
  | .hbm, ⟨81, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v24 : Ref sig .tc := ⟨.hbm, 62, rfl⟩
abbrev main_cst_2 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_3 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩

abbrev nD : Nat := 1
abbrev τ : Topo := Topo.v7x

variable {F : FTy → Type} [FloatOps F]

class Facts₀ : Prop where
  reducesTo_S4x16x1024x64_S4x16x1024_d3 : S4x16x1024x64.ReducesTo [3] S4x16x1024
  h_S_ : 0 < S_.numel
  bcast_S4x16x1024_S4x16x1024x1_0_1_2 : S4x16x1024.BroadcastsInDim S4x16x1024x1 (![0, 1, 2] : Fin 3 → Fin S4x16x1024x1.rank)
  bcast_S4x16x1024x1_S4x16x1024x64_0_1_2_3 : S4x16x1024x1.BroadcastsInDim S4x16x1024x64 (![0, 1, 2, 3] : Fin 4 → Fin S4x16x1024x64.rank)
  bcast_S_S4x16x1024x64 : S_.BroadcastsInDim S4x16x1024x64 (![] : Fin 0 → Fin S4x16x1024x64.rank)
  bcast_S_S4x16x1024x1024 : S_.BroadcastsInDim S4x16x1024x1024 (![] : Fin 0 → Fin S4x16x1024x1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1024x1024_S4x16x1024x1024_2_3 : S1024x1024.BroadcastsInDim S4x16x1024x1024 (![2, 3] : Fin 2 → Fin S4x16x1024x1024.rank)
  shapeCasts_S4x16x1024x1024_S4x16x1024x1024x1 : S4x16x1024x1024.ShapeCasts S4x16x1024x1024x1
  bcast_S_S4x16x1024x1024x1 : S_.BroadcastsInDim S4x16x1024x1024x1 (![] : Fin 0 → Fin S4x16x1024x1024x1.rank)
  bcast_S1_S1x1x1x1x1_4 : S1.BroadcastsInDim S1x1x1x1x1 (![4] : Fin 1 → Fin S1x1x1x1x1.rank)
  bcast_S1x1x1x1x1_S4x16x1024x1024x1_0_1_2_3_4 : S1x1x1x1x1.BroadcastsInDim S4x16x1024x1024x1 (![0, 1, 2, 3, 4] : Fin 5 → Fin S4x16x1024x1024x1.rank)
  reducesTo_S4x16x1024x1024x1_S4x16x1024x1024_d4 : S4x16x1024x1024x1.ReducesTo [4] S4x16x1024x1024
  bcast_S1024x1024_S1x1x1024x1024_2_3 : S1024x1024.BroadcastsInDim S1x1x1024x1024 (![2, 3] : Fin 2 → Fin S1x1x1024x1024.rank)
  bcast_S1x1x1024x1024_S4x16x1024x1024_0_1_2_3 : S1x1x1024x1024.BroadcastsInDim S4x16x1024x1024 (![0, 1, 2, 3] : Fin 4 → Fin S4x16x1024x1024.rank)
  reducesTo_S4x16x1024x1024_S4x16x1024_d3 : S4x16x1024x1024.ReducesTo [3] S4x16x1024
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x64_S2047x64_S4x16x1024x2047_3_1_012_0_n_n_wf : DotDims.WF S4x16x1024x64 S2047x64 S4x16x1024x2047 [3] [1] [0, 1, 2] [0] [] []
  gather_S4x16x1024x2047_S4x16x1024x1024x1_S4x16x1024x1024_n_3_012_012_3_4_1111_wf : GatherDims.WF S4x16x1024x2047 S4x16x1024x1024x1 S4x16x1024x1024 [] [3] [0, 1, 2] [3] [0, 1, 2] 4 ![1, 1, 1, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x64_S2047x64_S4x16x1024x2047_3_1_012_0_n_n : DotDims S4x16x1024x64 S2047x64 S4x16x1024x2047 where
  lhsContracting := [3]
  rhsContracting := [1]
  lhsNonContracting := [0, 1, 2]
  rhsNonContracting := [0]
  lhsBatch := []
  rhsBatch := []
  wf := dot_S4x16x1024x64_S2047x64_S4x16x1024x2047_3_1_012_0_n_n_wf
def gather_S4x16x1024x2047_S4x16x1024x1024x1_S4x16x1024x1024_n_3_012_012_3_4_1111 : GatherDims S4x16x1024x2047 S4x16x1024x1024x1 S4x16x1024x1024 where
  offsetDims := []
  collapsedSliceDims := [3]
  operandBatchingDims := [0, 1, 2]
  startIndicesBatchingDims := [0, 1, 2]
  startIndexMap := [3]
  indexVectorDim := 4
  sliceSizes := ![1, 1, 1, 1]
  wf := gather_S4x16x1024x2047_S4x16x1024x1024x1_S4x16x1024x1024_n_3_012_012_3_4_1111_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.Roll.lean ====
/-
  The shift network. The kernel multiplies the unit query tile by a window of 1280 table rows, giving
  `M[a, r]` for tile row `a` and window row `r`, and needs `M[a, a + c]`: row `a` shifted left by `a`. It gets it with
  eight uniform rotations of the whole [256, 1280] tile by 1, 2, 4, …, 128 columns, keeping the rotated version of
  a row exactly where the matching binary digit of the row number is set; after the digit for `2^k` row `a` has been
  shifted by `a mod 2^(k+1)`, so after all eight by `a` itself, and columns `c < 1024` never wrap because
  `a + c < 1280`.
-/
import proofs.«400248_j71940702208678_3_alg».proof.Proof.Gen.KernelIdeal.Skeleton
import Idealize.ShloMosaic.Lib.ValueIdx
import Idealize.ShloMosaic.PureOps.Ideal.Laws

noncomputable section

open scoped BigOperators

namespace Cert.KernelIdeal.Roll

open Idealize.ShloMosaic Idealize.ShloMosaic.ValueIdx Cert.KernelIdeal Cert.KernelIdeal.Gen

variable {F : FTy → Type} [FloatOps F]

/-- The products of the unit query tile with the table window, before any shift: what the first rotation rotates. -/
abbrev tableProducts (xq : Vec F S1x256x64 .f32) (xr : Vec F S1280x64 .f32) : FVec F S256x1280 .f32 :=
  matmul dot_S256x64_S1280x64_S256x1280_1_1_0_0_n_n none (k0_pay3 xq)
    (truncf .bf16 (shapeCast S1280x64 xr shapeCasts_S1280x64_S1280x64) bitsLt_bf16_f32)
    (constant S256x1280 .f32 0x00000000#32)

/-- The word `a AND 2^k` is nonzero exactly when binary digit `k` of `a` is set. -/
theorem bit_test (a k : Nat) (ha : a < 256) (hk : k < 8) :
    (BitVec.ofNat 32 a &&& BitVec.ofNat 32 (2 ^ k) != 0#32) = decide (a / 2 ^ k % 2 = 1) := by
  have h2k : 2 ^ k < 2 ^ 32 := Nat.pow_lt_pow_right (by decide) (by omega)
  have htn : (BitVec.ofNat 32 a &&& BitVec.ofNat 32 (2 ^ k)).toNat = a &&& 2 ^ k := by
    rw [BitVec.toNat_and, BitVec.toNat_ofNat, BitVec.toNat_ofNat, Nat.mod_eq_of_lt (by omega), Nat.mod_eq_of_lt h2k]
  rw [← Nat.testBit_eq_decide_div_mod_eq]
  cases hb : a.testBit k with
  | true =>
    have hne : a &&& 2 ^ k ≠ 0 := by
      intro h0
      have := congrArg (fun n => Nat.testBit n k) h0
      simp [Nat.testBit_and, Nat.testBit_two_pow_self, hb] at this
    have : BitVec.ofNat 32 a &&& BitVec.ofNat 32 (2 ^ k) ≠ 0#32 := by
      intro h0
      apply hne
      rw [← htn, h0]; rfl
    simpa using this
  | false =>
    have h0 : a &&& 2 ^ k = 0 := by
      apply Nat.eq_of_testBit_eq
      intro i
      rw [Nat.testBit_and, Nat.testBit_two_pow, Nat.zero_testBit]
      by_cases hki : k = i
      · subst hki; simp [hb]
      · simp [hki]
    have : BitVec.ofNat 32 a &&& BitVec.ofNat 32 (2 ^ k) = 0#32 := by
      apply BitVec.eq_of_toNat_eq
      rw [htn, h0]; rfl
    simp [this]

variable {α : Type}

/-- One conditional rotation of the whole tile: every row whose number has a nonzero AND with `mk` is replaced by its
    rotation by `sh` columns. -/
def condRot (sh mk : BitVec 32) (X : S256x1280.Idx → α) : S256x1280.Idx → α :=
  select (cmpi .ne (andi (iota .tc S256x1280 32 [0] iota_S256x1280_d0_w32) (broadcast S256x1280 mk)) (broadcast S256x1280 0#32))
    (dynamicRotate 1 sh none X rotates_S256x1280_d1) X

/-- The row test at an entry is the test of the row number's word. -/
theorem cond_apply (mk : BitVec 32) (a : Fin 256) (c : Fin 1280) :
    cmpi .ne (andi (iota .tc S256x1280 32 [0] iota_S256x1280_d0_w32) (broadcast S256x1280 mk)) (broadcast S256x1280 0#32) (ix2 a c)
      = BitVec.ofBool (BitVec.ofNat 32 a.val &&& mk != 0#32) := by
  show BitVec.ofBool (BitVec.ofNat 32 (0 * 256 + a.val) &&& mk != 0#32) = _
  rw [Nat.zero_mul, Nat.zero_add]

/-- A rotation by `1280 - t` columns reads `t` columns to the right, around the end. -/
theorem rot_apply (sh : BitVec 32) (t : Nat) (hsh : sh.toNat = 1280 - t) (ht0 : 0 < t) (ht : t ≤ 1280)
    (X : S256x1280.Idx → α) (a : Fin 256) (c : Fin 1280) :
    dynamicRotate 1 sh none X rotates_S256x1280_d1 (ix2 a c)
      = X (ix2 a (⟨(c.val + t) % 1280, Nat.mod_lt _ (by decide)⟩ : Fin 1280)) := by
  unfold dynamicRotate
  refine congrArg X (funext fun b => ?_)
  match b with
  | ⟨0, _⟩ => rfl
  | ⟨1, _⟩ =>
    refine Fin.ext ?_
    show (c.val + 1280 - (sh.toNat + 0) % 1280) % 1280 = (c.val + t) % 1280
    rw [hsh]
    omega

/-- The step of the network: if every row `a` of `X` is row `a` of `M` shifted left by `a mod 2^k`, then after the
    conditional rotation by `2^k` on digit `k` it is that row shifted left by `a mod 2^(k+1)`. -/
theorem condRot_step (M X : S256x1280.Idx → α) (k : Nat) (hk : k < 8) (sh mk : BitVec 32)
    (hsh : sh.toNat = 1280 - 2 ^ k) (hmk : mk = BitVec.ofNat 32 (2 ^ k))
    (hX : ∀ (a : Fin 256) (c : Fin 1280),
      X (ix2 a c) = M (ix2 a (⟨(c.val + a.val % 2 ^ k) % 1280, Nat.mod_lt _ (by decide)⟩ : Fin 1280)))
    (a : Fin 256) (c : Fin 1280) :
    condRot sh mk X (ix2 a c)
      = M (ix2 a (⟨(c.val + a.val % 2 ^ (k + 1)) % 1280, Nat.mod_lt _ (by decide)⟩ : Fin 1280)) := by
  have hp0 : 0 < 2 ^ k := Nat.two_pow_pos k
  have hp : 2 ^ k ≤ 128 := by
    calc 2 ^ k ≤ 2 ^ 7 := Nat.pow_le_pow_right (by decide) (by omega)
      _ = 128 := by decide
  have hmod : a.val % 2 ^ (k + 1) = a.val % 2 ^ k + 2 ^ k * (a.val / 2 ^ k % 2) := by
    rw [Nat.pow_succ, Nat.mod_mul]
  have hr : a.val % 2 ^ k < 2 ^ k := Nat.mod_lt _ hp0
  unfold condRot
  rw [select_apply, cond_apply, hmk, bit_test a.val k a.isLt hk,
    rot_apply sh (2 ^ k) hsh hp0 (by omega) X a c, hX, hX]
  unfold Scalar.select
  by_cases hbit : a.val / 2 ^ k % 2 = 1
  · rw [if_pos (by simp [hbit])]
    refine congrArg M (congrArg (ix2 a) (Fin.ext ?_))
    show ((c.val + 2 ^ k) % 1280 + a.val % 2 ^ k) % 1280 = (c.val + a.val % 2 ^ (k + 1)) % 1280
    rw [hmod, hbit, Nat.mul_one]
    generalize 2 ^ k = p at *
    generalize a.val % p = r at *
    omega
  · have hbit0 : a.val / 2 ^ k % 2 = 0 := by omega
    rw [if_neg (by simp [hbit])]
    refine congrArg M (congrArg (ix2 a) (Fin.ext ?_))
    show (c.val + a.val % 2 ^ k) % 1280 = (c.val + a.val % 2 ^ (k + 1)) % 1280
    rw [hmod, hbit0, Nat.mul_zero, Nat.add_zero]

/-- The cut to the first 1024 columns reads the same entry of the uncut tile. -/
theorem cut_apply (Y : S256x1280.Idx → α) (a : Fin 256) (c : Fin 1024) :
    extractStridedSlice S256x1024 ![0, 0] Y slices_S256x1280_o0_0_S256x1024 (ix2 a c)
      = Y (ix2 a (⟨c.val, by omega⟩ : Fin 1280)) := by
  unfold extractStridedSlice
  refine congrArg Y (funext fun b => ?_)
  match b with
  | ⟨0, _⟩ => exact Fin.ext (Nat.zero_add _)
  | ⟨1, _⟩ => exact Fin.ext (Nat.zero_add _)

/-- The eight conditional rotations by 1, 2, 4, …, 128 on the eight binary digits of the row number shift row `a`
    left by `a`, around the end. -/
theorem network_apply (M : S256x1280.Idx → α) (a : Fin 256) (c : Fin 1280) :
    condRot 1152#32 128#32 (condRot 1216#32 64#32 (condRot 1248#32 32#32 (condRot 1264#32 16#32
      (condRot 1272#32 8#32 (condRot 1276#32 4#32 (condRot 1278#32 2#32 (condRot 1279#32 1#32 M))))))) (ix2 a c)
      = M (ix2 a (⟨(c.val + a.val) % 1280, Nat.mod_lt _ (by decide)⟩ : Fin 1280)) := by
  have s0 : ∀ (a : Fin 256) (c : Fin 1280),
      M (ix2 a c) = M (ix2 a (⟨(c.val + a.val % 2 ^ 0) % 1280, Nat.mod_lt _ (by decide)⟩ : Fin 1280)) := fun a c =>
    congrArg M (congrArg (ix2 a) (Fin.ext (by
      show c.val = (c.val + a.val % 2 ^ 0) % 1280
      have := c.isLt
      omega)))
  have s1 := condRot_step M M 0 (by decide) 1279#32 1#32 rfl rfl s0
  have s2 := condRot_step M _ 1 (by decide) 1278#32 2#32 rfl rfl s1
  have s3 := condRot_step M _ 2 (by decide) 1276#32 4#32 rfl rfl s2
  have s4 := condRot_step M _ 3 (by decide) 1272#32 8#32 rfl rfl s3
  have s5 := condRot_step M _ 4 (by decide) 1264#32 16#32 rfl rfl s4
  have s6 := condRot_step M _ 5 (by decide) 1248#32 32#32 rfl rfl s5
  have s7 := condRot_step M _ 6 (by decide) 1216#32 64#32 rfl rfl s6
  have s8 := condRot_step M _ 7 (by decide) 1152#32 128#32 rfl rfl s7
  refine (s8 a c).trans (congrArg M (congrArg (ix2 a) (Fin.ext ?_)))
  show (c.val + a.val % 2 ^ (7 + 1)) % 1280 = (c.val + a.val) % 1280
  have := a.isLt
  omega

/-- After the eight conditional rotations and the cut to 1024 columns, entry `(a, c)` is the product matrix at
    `(a, a + c)`. -/
theorem shifted_apply (xq : Vec F S1x256x64 .f32) (xr : Vec F S1280x64 .f32) (a : Fin 256) (c : Fin 1024) :
    k0_pay7 (iota .tc S256x1280 32 [0] iota_S256x1280_d0_w32) (k0_pay5 xq xr) (k0_pay6 xq xr) 4#32 (ix2 a c)
      = tableProducts xq xr (ix2 a (⟨a.val + c.val, by omega⟩ : Fin 1280)) := by
  have h7 : k0_pay7 (iota .tc S256x1280 32 [0] iota_S256x1280_d0_w32) (k0_pay5 xq xr) (k0_pay6 xq xr) 4#32
      = extractStridedSlice S256x1024 ![0, 0]
          (condRot 1152#32 128#32 (condRot 1216#32 64#32 (condRot 1248#32 32#32 (condRot 1264#32 16#32
            (condRot 1272#32 8#32 (condRot 1276#32 4#32 (condRot 1278#32 2#32 (condRot 1279#32 1#32
              (tableProducts xq xr)))))))))
          slices_S256x1280_o0_0_S256x1024 := rfl
  rw [h7, cut_apply, network_apply]
  refine congrArg (tableProducts xq xr) (congrArg (ix2 a) (Fin.ext ?_))
  show (c.val + a.val) % 1280 = a.val + c.val
  have := a.isLt
  have := c.isLt
  omega

end Cert.KernelIdeal.Roll

end
-- ==== Proof.KSpec.lean ====
/-
  What one grid point of the kernel computes, as a function of the four blocks it is handed, and the array the
  grid points assemble; stated over the extended reals and over plain arrays, naming no program.

  A grid point `(bh, qi)` sees: a tile of 256 query rows (`xq`, rows `256·qi …` of batch-head `bh`), all 1024 key rows
  and all 1024 value rows of that batch-head (`xk`, `xv`: already normalised / noise-added, and in REVERSED row
  order), and a window of 1280 rows of the zero-padded relative-position table starting at row `256·qi` (`xr`).
  Row `a` of the tile is divided by its norm; its score against reversed key row `j` is
  `(1 + q̂ₐ · xkⱼ) + q̂ₐ · xr[a + j]` where `256·qi + a + j ≥ 1023` and `0` elsewhere; the output row is the
  score-weighted sum of the value rows divided by the sum of the scores.
-/
import Idealize.ShloMosaic.PureOps.Ideal
import Idealize.ShloMosaic.Lib.ValueIdx

noncomputable section

open scoped BigOperators

namespace Cert.Fastmax

open Idealize.ShloMosaic Idealize.ShloMosaic.ValueIdx

/-- A tile of 256 rows. -/
abbrev B256 : Shape := ⟨3, ![1, 256, 64]⟩
/-- A block of 1024 rows. -/
abbrev B1024 : Shape := ⟨3, ![1, 1024, 64]⟩
/-- A window of 1280 table rows. -/
abbrev W1280 : Shape := ⟨2, ![1280, 64]⟩
/-- The arrays with batch and head merged. -/
abbrev A3 : Shape := ⟨3, ![64, 1024, 64]⟩
/-- The zero-padded table. -/
abbrev APad : Shape := ⟨2, ![2048, 64]⟩

/-- The batch of merged index `bh = 16·b + h`. -/
def batchOf (bh : Fin 64) : Fin 4 := ⟨bh.val / 16, by omega⟩
/-- The head of merged index `bh = 16·b + h`. -/
def headOf (bh : Fin 64) : Fin 16 := ⟨bh.val % 16, by omega⟩
/-- Row `j` counted from the other end. -/
def flipRow (j : Fin 1024) : Fin 1024 := ⟨1023 - j.val, by omega⟩

/-- Entry `d` of tile row `a` divided by the row's Euclidean norm. -/
def tileUnit (xq : B256.Idx → EReal) (a : Fin 256) (d : Fin 64) : EReal :=
  Ideal.div (xq (ix3 0 a d)) (Ideal.sqrt (∑ e : Fin 64, xq (ix3 0 a e) * xq (ix3 0 a e)))

/-- The score of tile row `a` against (reversed) key row `j`, for a tile that starts at query row `base`. -/
def tileScore (base : ℕ) (xq : B256.Idx → EReal) (xk : B1024.Idx → EReal) (xr : W1280.Idx → EReal)
    (a : Fin 256) (j : Fin 1024) : EReal :=
  if 1023 ≤ base + a.val + j.val then
    (1 + ∑ d : Fin 64, tileUnit xq a d * xk (ix3 0 j d))
      + ∑ d : Fin 64, tileUnit xq a d * xr (ix2 (⟨a.val + j.val, by omega⟩ : Fin 1280) d)
  else 0

/-- Entry `(a, d)` of what the grid point writes. -/
def tileOut (base : ℕ) (xq : B256.Idx → EReal) (xk xv : B1024.Idx → EReal) (xr : W1280.Idx → EReal)
    (a : Fin 256) (d : Fin 64) : EReal :=
  Ideal.div (∑ j : Fin 1024, tileScore base xq xk xr a j * xv (ix3 0 j d)) (∑ j : Fin 1024, tileScore base xq xk xr a j)

/-- Rows `256·qi …` of batch-head `bh` of a merged array, as a tile. -/
def tileOf (A : A3.Idx → EReal) (bh : Fin 64) (qi : Fin 4) : B256.Idx → EReal :=
  fun y => A (ix3 bh (⟨256 * qi.val + (y 1).val, by have : (y 1).val < 256 := (y 1).isLt; omega⟩ : Fin 1024) (y 2))

/-- All rows of batch-head `bh` of a merged array, as a block. -/
def blockOf (A : A3.Idx → EReal) (bh : Fin 64) : B1024.Idx → EReal :=
  fun y => A (ix3 bh (y 1) (y 2))

/-- Rows `256·qi … 256·qi + 1279` of the padded table. -/
def windowOf (R : APad.Idx → EReal) (qi : Fin 4) : W1280.Idx → EReal :=
  fun y => R (ix2 (⟨256 * qi.val + (y 0).val, by have : (y 0).val < 1280 := (y 0).isLt; omega⟩ : Fin 2048) (y 1))

/-- The array the grid assembles from the merged queries `Aq`, the reversed unit keys `Ak`, the reversed values `Av`
    and the padded table `R`: row `i` of batch-head `bh` is written by grid point `(bh, i / 256)` as its row `i % 256`. -/
def tileArr (Aq Ak Av : A3.Idx → EReal) (R : APad.Idx → EReal) : A3.Idx → EReal :=
  fun y =>
    have hi : (y 1).val < 1024 := (y 1).isLt
    tileOut (256 * ((y 1).val / 256)) (tileOf Aq (y 0) ⟨(y 1).val / 256, by omega⟩) (blockOf Ak (y 0)) (blockOf Av (y 0))
      (windowOf R ⟨(y 1).val / 256, by omega⟩) ⟨(y 1).val % 256, by omega⟩ (y 2)

end Cert.Fastmax

end
-- ==== Proof.Body.lean ====
/-
  One grid point's stored block, read at an entry: the kernel body's arithmetic — the tile's rows divided by their
  norms, the two products with the keys and with the table window, the shift of the latter, the causal mask, the row
  sums and the product with the values, the final division — is `tileOut` of the four blocks the body loads.
-/
import proofs.«400248_j71940702208678_3_alg».proof.Proof.Roll
import proofs.«400248_j71940702208678_3_alg».proof.Proof.KSpec
import Idealize.ShloMosaic.Lib.IdealHost
import Idealize.ShloMosaic.Lib.ValueLayout
import Idealize.ShloMosaic.Lib.StableHlo.Predicate

noncomputable section

open scoped BigOperators

namespace Cert.KernelIdeal.Body

open Idealize.ShloMosaic Idealize.ShloMosaic.ValueIdx Cert.KernelIdeal Cert.KernelIdeal.Gen Cert.Fastmax

/-- The source index a sum over the 64 lanes of row `a` reads at lane `k`. -/
theorem lift_lane (a : Fin 256) (k : Fin 64) : reduces_S256x64_S256.lift (ix1 a) k = ix2 a k := by
  funext ax; refine Fin.ext ?_
  match ax with
  | ⟨0, _⟩ => rfl
  | ⟨1, _⟩ => rfl

/-- The source index a sum over the 1024 columns of row `a` reads at column `k`. -/
theorem lift_col (a : Fin 256) (k : Fin 1024) : reduces_S256x1024_S256.lift (ix1 a) k = ix2 a k := by
  funext ax; refine Fin.ext ?_
  match ax with
  | ⟨0, _⟩ => rfl
  | ⟨1, _⟩ => rfl

/-- A column of 256 row values read at `(a, 0)` is the value of row `a`. -/
theorem col_apply {α : Type} (x : S256.Idx → α) (a : Fin 256) (u : Fin 1) :
    shapeCast S256x1 x shapeCasts_S256_S256x1 (ix2 a u) = x (ix1 a) :=
  shapeCast_apply x _ _ _ (by
    have hu : u.val = 0 := by omega
    rw [Shape.rowMajor_val_two, Shape.rowMajor_val_one]
    show a.val = a.val * 1 + u.val
    omega)

/-- A column broadcast along 64 lanes reads, at `(a, e)`, the column at `(a, 0)`. -/
theorem bcast_apply {α : Type} (x : S256x1.Idx → α) (a : Fin 256) (e : Fin 64) :
    broadcastTo S256x64 x broadcasts_S256x1_S256x64 (ix2 a e) = x (ix2 a (0 : Fin 1)) := by
  refine broadcastTo_apply x _ (ix2 a e) (ix2 a (0 : Fin 1)) fun ax => ?_
  match ax with
  | ⟨0, _⟩ => rfl
  | ⟨1, _⟩ => rfl

/-- Row `a` of the tile divided by its norm. -/
theorem unit_apply (xq : Vec Ideal S1x256x64 .f32) (a : Fin 256) (e : Fin 64) :
    k0_pay3 (F := Ideal) xq (ix2 a e) = tileUnit xq a e := by
  unfold k0_pay3 tileUnit
  show Ideal.div (shapeCast S256x64 xq shapeCasts_S1x256x64_S256x64 (ix2 a e)) (broadcastTo S256x64 _ broadcasts_S256x1_S256x64 (ix2 a e)) = _
  rw [bcast_apply, shapeCast_1ab_ab_apply]
  show Ideal.div _ (Ideal.sqrt (shapeCast S256x1 _ shapeCasts_S256_S256x1 (ix2 a (0 : Fin 1)))) = _
  rw [col_apply]
  refine congrArg (fun z => Ideal.div _ (Ideal.sqrt z)) ?_
  refine (Ideal.multiReduction_add_single _ 0x00000000#32 reduces_S256x64_S256 (.inl rfl) rfl (ix1 a)).trans ?_
  show ∑ k : Fin 64, _ = ∑ k : Fin 64, _
  refine Finset.sum_congr rfl fun k _ => ?_
  rw [lift_lane a k]
  show shapeCast S256x64 xq shapeCasts_S1x256x64_S256x64 (ix2 a k) * shapeCast S256x64 xq shapeCasts_S1x256x64_S256x64 (ix2 a k) = _
  rw [shapeCast_1ab_ab_apply]

theorem lhsK_0 (i : S256x1024.Idx) (q : dot_S256x64_S1024x64_S256x1024_1_1_0_0_n_n.contr.Idx) :
    (dot_S256x64_S1024x64_S256x1024_1_1_0_0_n_n.lhsIdx i q 0).val = (i 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem lhsK_1 (i : S256x1024.Idx) (q : dot_S256x64_S1024x64_S256x1024_1_1_0_0_n_n.contr.Idx) :
    (dot_S256x64_S1024x64_S256x1024_1_1_0_0_n_n.lhsIdx i q 1).val = (q ⟨0, by decide⟩).val :=
  dot_S256x64_S1024x64_S256x1024_1_1_0_0_n_n.lhsIdx_val_of_single rfl i q
theorem rhsK_0 (i : S256x1024.Idx) (q : dot_S256x64_S1024x64_S256x1024_1_1_0_0_n_n.contr.Idx) :
    (dot_S256x64_S1024x64_S256x1024_1_1_0_0_n_n.rhsIdx i q 0).val = (i 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem rhsK_1 (i : S256x1024.Idx) (q : dot_S256x64_S1024x64_S256x1024_1_1_0_0_n_n.contr.Idx) :
    (dot_S256x64_S1024x64_S256x1024_1_1_0_0_n_n.rhsIdx i q 1).val = (q ⟨0, by decide⟩).val :=
  dot_S256x64_S1024x64_S256x1024_1_1_0_0_n_n.rhsIdx_val_of_single rfl i q

/-- The product of the [256, 64] tile with the transpose of a [1024, 64] block into zero, at `(a, j)`: the sum over the 64 lanes. -/
theorem dotK_apply (l : FVec Ideal S256x64 .bf16) (r : FVec Ideal S1024x64 .bf16) (a : Fin 256) (j : Fin 1024) :
    matmul dot_S256x64_S1024x64_S256x1024_1_1_0_0_n_n none l r (constant S256x1024 .f32 0x00000000#32) (ix2 a j)
      = ∑ e : Fin 64, l (ix2 a e) * r (ix2 j e) := by
  simp only [matmul]
  rw [Ideal.matmul_constant_zero_apply, ← Equiv.sum_comp (contrEquiv1 dot_S256x64_S1024x64_S256x1024_1_1_0_0_n_n 64 rfl rfl).symm]
  refine Finset.sum_congr rfl fun k _ => ?_
  have hk := contrEquiv1_symm_val dot_S256x64_S1024x64_S256x1024_1_1_0_0_n_n 64 rfl rfl k
  have el : dot_S256x64_S1024x64_S256x1024_1_1_0_0_n_n.lhsIdx (ix2 a j) ((contrEquiv1 dot_S256x64_S1024x64_S256x1024_1_1_0_0_n_n 64 rfl rfl).symm k) = ix2 a k := funext fun ax => Fin.ext (by
    match ax with
    | ⟨0, _⟩ => exact lhsK_0 _ _
    | ⟨1, _⟩ => exact (lhsK_1 _ _).trans hk)
  have er : dot_S256x64_S1024x64_S256x1024_1_1_0_0_n_n.rhsIdx (ix2 a j) ((contrEquiv1 dot_S256x64_S1024x64_S256x1024_1_1_0_0_n_n 64 rfl rfl).symm k) = ix2 j k := funext fun ax => Fin.ext (by
    match ax with
    | ⟨0, _⟩ => exact rhsK_0 _ _
    | ⟨1, _⟩ => exact (rhsK_1 _ _).trans hk)
  rw [el, er]

theorem lhsR_0 (i : S256x1280.Idx) (q : dot_S256x64_S1280x64_S256x1280_1_1_0_0_n_n.contr.Idx) :
    (dot_S256x64_S1280x64_S256x1280_1_1_0_0_n_n.lhsIdx i q 0).val = (i 0).val := by
  unfold DotDims.lhsIdx
  rw [dif_neg (show ¬(0 : Fin S256x64.rank) ∈ dot_S256x64_S1280x64_S256x1280_1_1_0_0_n_n.lhsBatch by decide), dif_pos (show (0 : Fin S256x64.rank) ∈ dot_S256x64_S1280x64_S256x1280_1_1_0_0_n_n.lhsNonContracting by decide)]
  rfl
theorem lhsR_1 (i : S256x1280.Idx) (q : dot_S256x64_S1280x64_S256x1280_1_1_0_0_n_n.contr.Idx) :
    (dot_S256x64_S1280x64_S256x1280_1_1_0_0_n_n.lhsIdx i q 1).val = (q ⟨0, by decide⟩).val :=
  dot_S256x64_S1280x64_S256x1280_1_1_0_0_n_n.lhsIdx_val_of_single rfl i q
theorem rhsR_0 (i : S256x1280.Idx) (q : dot_S256x64_S1280x64_S256x1280_1_1_0_0_n_n.contr.Idx) :
    (dot_S256x64_S1280x64_S256x1280_1_1_0_0_n_n.rhsIdx i q 0).val = (i 1).val := by
  unfold DotDims.rhsIdx
  rw [dif_neg (show ¬(0 : Fin S1280x64.rank) ∈ dot_S256x64_S1280x64_S256x1280_1_1_0_0_n_n.rhsBatch by decide), dif_pos (show (0 : Fin S1280x64.rank) ∈ dot_S256x64_S1280x64_S256x1280_1_1_0_0_n_n.rhsNonContracting by decide)]
  rfl
theorem rhsR_1 (i : S256x1280.Idx) (q : dot_S256x64_S1280x64_S256x1280_1_1_0_0_n_n.contr.Idx) :
    (dot_S256x64_S1280x64_S256x1280_1_1_0_0_n_n.rhsIdx i q 1).val = (q ⟨0, by decide⟩).val :=
  dot_S256x64_S1280x64_S256x1280_1_1_0_0_n_n.rhsIdx_val_of_single rfl i q

/-- The product of the [256, 64] tile with the transpose of a [1280, 64] window into zero, at `(a, r)`: the sum over the 64 lanes. -/
theorem dotR_apply (l : FVec Ideal S256x64 .bf16) (r : FVec Ideal S1280x64 .bf16) (a : Fin 256) (j : Fin 1280) :
    matmul dot_S256x64_S1280x64_S256x1280_1_1_0_0_n_n none l r (constant S256x1280 .f32 0x00000000#32) (ix2 a j)
      = ∑ e : Fin 64, l (ix2 a e) * r (ix2 j e) := by
  simp only [matmul]
  rw [Ideal.matmul_constant_zero_apply, ← Equiv.sum_comp (contrEquiv1 dot_S256x64_S1280x64_S256x1280_1_1_0_0_n_n 64 rfl rfl).symm]
  refine Finset.sum_congr rfl fun k _ => ?_
  have hk := contrEquiv1_symm_val dot_S256x64_S1280x64_S256x1280_1_1_0_0_n_n 64 rfl rfl k
  have el : dot_S256x64_S1280x64_S256x1280_1_1_0_0_n_n.lhsIdx (ix2 a j) ((contrEquiv1 dot_S256x64_S1280x64_S256x1280_1_1_0_0_n_n 64 rfl rfl).symm k) = ix2 a k := funext fun ax => Fin.ext (by
    match ax with
    | ⟨0, _⟩ => exact lhsR_0 _ _
    | ⟨1, _⟩ => exact (lhsR_1 _ _).trans hk)
  have er : dot_S256x64_S1280x64_S256x1280_1_1_0_0_n_n.rhsIdx (ix2 a j) ((contrEquiv1 dot_S256x64_S1280x64_S256x1280_1_1_0_0_n_n 64 rfl rfl).symm k) = ix2 j k := funext fun ax => Fin.ext (by
    match ax with
    | ⟨0, _⟩ => exact rhsR_0 _ _
    | ⟨1, _⟩ => exact (rhsR_1 _ _).trans hk)
  rw [el, er]

theorem lhsV_0 (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem lhsV_1 (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
theorem rhsV_0 (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q
theorem rhsV_1 (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- The product of a [256, 1024] matrix with a [1024, 64] one into zero, at `(a, d)`: the sum over the 1024 rows. -/
theorem dotV_apply (l : FVec Ideal S256x1024 .bf16) (r : FVec Ideal S1024x64 .bf16) (a : Fin 256) (d : Fin 64) :
    matmul dot_S256x1024_S1024x64_S256x64_1_0_0_1_n_n none l r (constant S256x64 .f32 0x00000000#32) (ix2 a d)
      = ∑ j : Fin 1024, l (ix2 a j) * r (ix2 j d) := by
  simp only [matmul]
  rw [Ideal.matmul_constant_zero_apply, ← Equiv.sum_comp (contrEquiv1 dot_S256x1024_S1024x64_S256x64_1_0_0_1_n_n 1024 rfl rfl).symm]
  refine Finset.sum_congr rfl fun k _ => ?_
  have hk := contrEquiv1_symm_val dot_S256x1024_S1024x64_S256x64_1_0_0_1_n_n 1024 rfl rfl k
  have el : dot_S256x1024_S1024x64_S256x64_1_0_0_1_n_n.lhsIdx (ix2 a d) ((contrEquiv1 dot_S256x1024_S1024x64_S256x64_1_0_0_1_n_n 1024 rfl rfl).symm k) = ix2 a k := funext fun ax => Fin.ext (by
    match ax with
    | ⟨0, _⟩ => exact lhsV_0 _ _
    | ⟨1, _⟩ => exact (lhsV_1 _ _).trans hk)
  have er : dot_S256x1024_S1024x64_S256x64_1_0_0_1_n_n.rhsIdx (ix2 a d) ((contrEquiv1 dot_S256x1024_S1024x64_S256x64_1_0_0_1_n_n 1024 rfl rfl).symm k) = ix2 k d := funext fun ax => Fin.ext (by
    match ax with
    | ⟨0, _⟩ => exact (rhsV_0 _ _).trans hk
    | ⟨1, _⟩ => exact rhsV_1 _ _)
  rw [el, er]

/-- The causal comparison at `(a, j)` of the tile that starts at query row `256 · qi`: the word sum does not wrap, so the
    signed test against 1023 is the test on the natural numbers. -/
theorem mask_apply (qi : Fin 4) (a : Fin 256) (j : Fin 1024) :
    IntOp.cmpi .sge (IntOp.addi (IntOp.addi (Scalar.muli (BitVec.ofNat 32 qi.val) 256#32) (BitVec.ofNat 32 (0 * 256 + a.val)))
        (BitVec.ofNat 32 (0 * 1024 + j.val))) 1023#32 = 1#1 ↔ 1023 ≤ 256 * qi.val + a.val + j.val := by
  have hq := qi.isLt; have ha := a.isLt; have hj := j.isLt
  have hx : (IntOp.addi (IntOp.addi (Scalar.muli (BitVec.ofNat 32 qi.val) 256#32) (BitVec.ofNat 32 (0 * 256 + a.val)))
      (BitVec.ofNat 32 (0 * 1024 + j.val))).toNat = 256 * qi.val + a.val + j.val := by
    simp only [IntOp.addi, Scalar.muli, IntOp.muli, BitVec.toNat_add, BitVec.toNat_mul, BitVec.toNat_ofNat]
    omega
  rw [StableHlo.Predicate.sge_iff_toNat (by rw [hx]; omega) (by decide), hx]
  rfl

/-- The masked scores as the body builds them from the tile's first row number `base`, the shifted table products `SH`,
    the biased key products `KK` and the all-ones factor `ONE`. -/
def maskedScores (base : BitVec 32) (SH KK ONE : FVec Ideal S256x1024 .f32) : FVec Ideal S256x1024 .f32 :=
  select (cmpi .sge (addi (addi (broadcast S256x1024 base) (iota .tc S256x1024 32 [0] iota_S256x1024_d0_w32))
      (iota .tc S256x1024 32 [1] iota_S256x1024_d1_w32)) (broadcast S256x1024 1023#32))
    (addf KK (mulf SH ONE)) (broadcast S256x1024 (Scalar.ofBits .f32 0x00000000#32))

/-- The stored block is the product of the masked scores with the values, divided row by row by the scores' sums. -/
theorem pay1_eq (base : BitVec 32) (v7 : FVec Ideal S1024x64 .f32) (SH KK ONE : FVec Ideal S256x1024 .f32) :
    k0_pay1 (F := Ideal) base v7 SH KK ONE
      = shapeCast S1x256x64
          (divf
            (matmul dot_S256x1024_S1024x64_S256x64_1_0_0_1_n_n none (truncf .bf16 (maskedScores base SH KK ONE) bitsLt_bf16_f32)
              (truncf .bf16 v7 bitsLt_bf16_f32) (constant S256x64 .f32 0x00000000#32))
            (broadcastTo S256x64
              (shapeCast S256x1
                (multiReduction .add [1] S256 (maskedScores base SH KK ONE) 0x00000000#32 reduces_S256x1024_S256 (.inl rfl) rfl)
                shapeCasts_S256_S256x1)
              broadcasts_S256x1_S256x64))
          shapeCasts_S256x64_S1x256x64 := rfl

/-- The masked scores at `(a, j)`. -/
theorem maskedScores_apply (qi : Fin 4) (SH KK ONE : FVec Ideal S256x1024 .f32) (a : Fin 256) (j : Fin 1024) :
    maskedScores (Scalar.muli (BitVec.ofNat 32 qi.val) 256#32) SH KK ONE (ix2 a j)
      = if 1023 ≤ 256 * qi.val + a.val + j.val then KK (ix2 a j) + SH (ix2 a j) * ONE (ix2 a j) else 0 := by
  unfold maskedScores
  show Scalar.select (IntOp.cmpi .sge (IntOp.addi (IntOp.addi (Scalar.muli (BitVec.ofNat 32 qi.val) 256#32)
      (BitVec.ofNat 32 (0 * 256 + a.val))) (BitVec.ofNat 32 (0 * 1024 + j.val))) 1023#32)
    (KK (ix2 a j) + SH (ix2 a j) * ONE (ix2 a j)) (Ideal.ofBits .f32 0x00000000#32) = _
  by_cases h : 1023 ≤ 256 * qi.val + a.val + j.val
  · rw [if_pos h, (mask_apply qi a j).mpr h, select_one]
  · rw [if_neg h, eq_zero_of_ne_one (fun e => h ((mask_apply qi a j).mp e)), select_zero, Ideal.ofBits_zero_f32]

/-- The biased key products at `(a, j)`: one plus the product. -/
theorem pay8_apply (K : FVec Ideal S256x1024 .f32) (a : Fin 256) (j : Fin 1024) :
    k0_pay8 (F := Ideal) K (ix2 a j) = 1 + K (ix2 a j) := by
  unfold k0_pay8
  show Ideal.ofBits .f32 0x3F800000#32 + K (ix2 a j) * Ideal.ofBits .f32 0x3F800000#32 = _
  rw [Ideal.ofBits_one_f32, mul_one]

/-- The all-ones factor. -/
theorem pay9_apply (a : Fin 256) (j : Fin 1024) : k0_pay9 (F := Ideal) (ix2 a j) = 1 := by
  unfold k0_pay9
  show Ideal.ofBits .f32 0x3F800000#32 = 1
  exact Ideal.ofBits_one_f32

/-- The key products at `(a, j)`. -/
theorem pay4_apply (xq : Vec Ideal S1x256x64 .f32) (xk : Vec Ideal S1x1024x64 .f32) (a : Fin 256) (j : Fin 1024) :
    k0_pay4 (F := Ideal) xq xk (ix2 a j) = ∑ e : Fin 64, tileUnit xq a e * xk (ix3 0 j e) := by
  unfold k0_pay4
  refine (dotK_apply _ _ a j).trans ?_
  refine Finset.sum_congr rfl fun e _ => ?_
  rw [unit_apply]
  show _ * shapeCast S1024x64 xk shapeCasts_S1x1024x64_S1024x64 (ix2 j e) = _
  rw [shapeCast_1ab_ab_apply]

/-- The table products at `(a, r)`. -/
theorem table_apply (xq : Vec Ideal S1x256x64 .f32) (xr : Vec Ideal S1280x64 .f32) (a : Fin 256) (r : Fin 1280) :
    Roll.tableProducts (F := Ideal) xq xr (ix2 a r) = ∑ e : Fin 64, tileUnit xq a e * xr (ix2 r e) := by
  refine (dotR_apply _ _ a r).trans ?_
  refine Finset.sum_congr rfl fun e _ => ?_
  rw [unit_apply]
  show _ * shapeCast S1280x64 xr shapeCasts_S1280x64_S1280x64 (ix2 r e) = _
  rw [shapeCast_self]

/-- The masked scores of the body at `(a, j)` are the specification's scores. -/
theorem score_apply (qi : Fin 4) (xq : Vec Ideal S1x256x64 .f32) (xk : Vec Ideal S1x1024x64 .f32)
    (xr : Vec Ideal S1280x64 .f32) (a : Fin 256) (j : Fin 1024) :
    maskedScores (Scalar.muli (BitVec.ofNat 32 qi.val) 256#32)
        (k0_pay7 (iota .tc S256x1280 32 [0] iota_S256x1280_d0_w32) (k0_pay5 xq xr) (k0_pay6 xq xr) 4#32)
        (k0_pay8 (k0_pay4 xq xk)) k0_pay9 (ix2 a j)
      = tileScore (256 * qi.val) xq xk xr a j := by
  rw [maskedScores_apply, pay8_apply, pay9_apply, pay4_apply, Roll.shifted_apply, table_apply, mul_one]
  rfl

/-- The value the body stores, as a function of the grid column `qi` and the four loaded blocks (the term the
    frame's run finds for the one store, with the loads named). -/
abbrev stored {F : FTy → Type} [FloatOps F] (qi : ℕ) (xq : Vec F S1x256x64 .f32) (xk xv : Vec F S1x1024x64 .f32)
    (xr : Vec F S1280x64 .f32) : FVec F S1x256x64 .f32 :=
  k0_pay1 (Scalar.muli (BitVec.ofNat 32 qi) 256#32) (k0_pay2 xv)
    (k0_pay7 (iota .tc S256x1280 32 [0] iota_S256x1280_d0_w32) (k0_pay5 xq xr) (k0_pay6 xq xr) 4#32)
    (k0_pay8 (k0_pay4 xq xk)) k0_pay9

/-- At the ideal instance entry `(0, a, d)` of the stored block is `tileOut` at `(a, d)` of the loaded blocks, for a
    tile starting at query row `256 · qi`. -/
theorem stored_apply (qi : Fin 4) (xq : Vec Ideal S1x256x64 .f32) (xk xv : Vec Ideal S1x1024x64 .f32)
    (xr : Vec Ideal S1280x64 .f32) (a : Fin 256) (d : Fin 64) :
    stored (F := Ideal) qi.val xq xk xv xr (ix3 0 a d) = tileOut (256 * qi.val) xq xk xv xr a d := by
  show k0_pay1 (F := Ideal) _ _ _ _ _ (ix3 0 a d) = _
  rw [pay1_eq, shapeCast_ab_1ab_apply]
  show Ideal.div (matmul (F := Ideal) dot_S256x1024_S1024x64_S256x64_1_0_0_1_n_n none _ _ _ (ix2 a d)) (broadcastTo S256x64 _ broadcasts_S256x1_S256x64 (ix2 a d)) = _
  rw [bcast_apply, col_apply, dotV_apply]
  unfold tileOut
  refine congrArg₂ Ideal.div ?_ ?_
  · refine Finset.sum_congr rfl fun j _ => ?_
    show maskedScores _ _ _ _ (ix2 a j) * shapeCast S1024x64 xv shapeCasts_S1x1024x64_S1024x64 (ix2 j d) = _
    rw [score_apply, shapeCast_1ab_ab_apply]
  · refine (Ideal.multiReduction_add_single _ 0x00000000#32 reduces_S256x1024_S256 (.inl rfl) rfl (ix1 a)).trans ?_
    show ∑ k : Fin 1024, _ = ∑ k : Fin 1024, _
    refine Finset.sum_congr rfl fun k _ => ?_
    rw [lift_col a k, score_apply]

end Cert.KernelIdeal.Body

end
-- ==== Proof.KFrame.lean ====
/-
  From the kernel's run to its result array. The run leaves, in the output's staging buffer at every grid point, one
  store's payload over the four blocks the point loaded; written back, the blocks tile the output array, so the
  array ends as `tileArr` of the four arrays the windows read; the one host line after the region reshapes it to
  [4, 16, 1024, 64].
-/
import proofs.«400248_j71940702208678_3_alg».proof.Proof.Gen.KernelIdeal.Frame
import proofs.«400248_j71940702208678_3_alg».proof.Proof.Body
import proofs.«400248_j71940702208678_3_alg».proof.Proof.KSpec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.KFrame

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen Cert.Fastmax

variable (m : (ℓ : Loc nD τ sig) → Buf (Elt Ideal) ℓ) (ρ : Dev nD → PrngReg)

theorem hz3 : (![0, 0, 0] : Fin 3 → Nat) = fun _ => 0 := funext fun a => by fin_cases a <;> rfl

/-- The table window a grid point loads: 1280 rows of the padded table from row `256 · (i 1)`. -/
abbrev loadedWindow (i : grid0.Coords) (x3 : Vec Ideal S2048x64 .f32) : Vec Ideal S1280x64 .f32 :=
  View.ld x3 (Rect.unit (s := S2048x64) (k0_off1 i) S1280x64.size (k0_off1_inb i))

/-- What the body leaves in the output's staging buffer: its one store's payload over the loaded blocks. -/
theorem out_eq (c : Dev nD) (i : grid0.Coords) (arg2 : Memref sig .tc .vmem S1x256x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S2048x64 .f32) (harg5 : arg5.IsWhole) (arg6 : Memref sig .tc .vmem S1x256x64 .f32) (harg6 : arg6.IsWhole)
    (x0 : Vec Ideal S1x256x64 .f32) (x1 : Vec Ideal S1x1024x64 .f32) (x2 : Vec Ideal S1x1024x64 .f32) (x3 : Vec Ideal S2048x64 .f32) :
    out0_A_4 (F := Ideal) c i arg2 harg2 arg3 harg3 arg4 harg4 arg5 harg5 arg6 harg6 x0 x1 x2 x3
      = Body.stored (F := Ideal) (i 1).val x0 x1 x2 (loadedWindow i x3) := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x256x64) hz3, View.ld_unit_zero (S := S1x1024x64) hz3]
  rfl

/-- The loaded window at row `r` is the padded table at row `256 · (i 1) + r`. -/
theorem loadedWindow_apply (i : grid0.Coords) (x3 : Vec Ideal S2048x64 .f32) (r : Fin 1280) (d : Fin 64) (h : 256 * (i 1).val + r.val < 2048) :
    loadedWindow i x3 (ix2 r d) = x3 (ix2 (⟨256 * (i 1).val + r.val, h⟩ : Fin 2048) d) := by
  show x3 _ = x3 _
  congr 1
  funext a
  apply Fin.ext
  have e := k0_off1_eq i
  match a with
  | ⟨0, _⟩ => show (k0_off1 i) 0 + 1 * r.val = 256 * (i 1).val + r.val; rw [e]; show 256 * (i 1).val + 1 * r.val = _; omega
  | ⟨1, _⟩ => show (k0_off1 i) 1 + 1 * d.val = d.val; rw [e]; show 0 + 1 * d.val = _; omega

/-! ## The grid: point `t` is batch-head `t / 4`, query tile `t % 4` -/

theorem lt256 (t : Fin cfg0.N) : t.val < 256 := lt_of_lt_of_eq t.isLt N_0

/-- The batch-head a grid point works on. -/
def bhOf (t : Fin cfg0.N) : Fin 64 := ⟨t.val / 4, by have := lt256 t; omega⟩
/-- The query tile a grid point works on. -/
def qiOf (t : Fin cfg0.N) : Fin 4 := ⟨t.val % 4, by omega⟩

/-- The printed index maps, decided over the grid. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ ((grid0.coords t) 1).val = t.val % 4 :=
  (by decide +kernel : ∀ t : Fin grid0.N, _)

/-! ## The blocks the windows hand to the body, as tiles of their arrays -/

/-- The query tile at point `t`. -/
abbrev qblk (c : Dev nD) (t : Fin cfg0.N) : Vec Ideal S1x256x64 .f32 := iblk m c 0 t
/-- The key block at point `t`. -/
abbrev kblk (c : Dev nD) (t : Fin cfg0.N) : Vec Ideal S1x1024x64 .f32 := iblk m c 1 t
/-- The value block at point `t`. -/
abbrev vblk (c : Dev nD) (t : Fin cfg0.N) : Vec Ideal S1x1024x64 .f32 := iblk m c 2 t
/-- The whole padded table, which every point is handed. -/
abbrev rblk (c : Dev nD) (t : Fin cfg0.N) : Vec Ideal S2048x64 .f32 := iblk m c 3 t

theorem qblk_eq (c : Dev nD) (t : Fin cfg0.N) : qblk m c t = tileOf (V m c main_v1) (bhOf t) (qiOf t) := by
  obtain ⟨e0, e1, e2, -⟩ := idx_facts t
  funext y
  unfold qblk iblk tileOf
  rw [View.read_apply]
  show V m c main_v1 _ = V m c main_v1 _
  congr 1
  funext a
  apply Fin.ext
  have h0 : (y 0).val < 1 := (y 0).isLt
  have h1 : (y 1).val < 256 := (y 1).isLt
  match a with
  | ⟨0, _⟩ => show win0_0.index t (0 : Fin 3) * 1 + 1 * (y 0).val = t.val / 4; omega
  | ⟨1, _⟩ => show win0_0.index t (1 : Fin 3) * 256 + 1 * (y 1).val = 256 * (t.val % 4) + (y 1).val; omega
  | ⟨2, _⟩ => show win0_0.index t (2 : Fin 3) * 64 + 1 * (y 2).val = (y 2).val; omega

theorem kblk_eq (c : Dev nD) (t : Fin cfg0.N) : kblk m c t = blockOf (V m c main_v10) (bhOf t) := by
  obtain ⟨-, -, -, e0, e1, e2, -⟩ := idx_facts t
  funext y
  unfold kblk iblk blockOf
  rw [View.read_apply]
  show V m c main_v10 _ = V m c main_v10 _
  congr 1
  funext a
  apply Fin.ext
  have h0 : (y 0).val < 1 := (y 0).isLt
  match a with
  | ⟨0, _⟩ => show win0_1.index t (0 : Fin 3) * 1 + 1 * (y 0).val = t.val / 4; omega
  | ⟨1, _⟩ => show win0_1.index t (1 : Fin 3) * 1024 + 1 * (y 1).val = (y 1).val; omega
  | ⟨2, _⟩ => show win0_1.index t (2 : Fin 3) * 64 + 1 * (y 2).val = (y 2).val; omega

theorem vblk_eq (c : Dev nD) (t : Fin cfg0.N) : vblk m c t = blockOf (V m c main_v11) (bhOf t) := by
  obtain ⟨-, -, -, -, -, -, e0, e1, e2, -⟩ := idx_facts t
  funext y
  unfold vblk iblk blockOf
  rw [View.read_apply]
  show V m c main_v11 _ = V m c main_v11 _
  congr 1
  funext a
  apply Fin.ext
  have h0 : (y 0).val < 1 := (y 0).isLt
  match a with
  | ⟨0, _⟩ => show win0_2.index t (0 : Fin 3) * 1 + 1 * (y 0).val = t.val / 4; omega
  | ⟨1, _⟩ => show win0_2.index t (1 : Fin 3) * 1024 + 1 * (y 1).val = (y 1).val; omega
  | ⟨2, _⟩ => show win0_2.index t (2 : Fin 3) * 64 + 1 * (y 2).val = (y 2).val; omega

theorem rblk_eq (c : Dev nD) (t : Fin cfg0.N) : rblk m c t = V m c main_v0 := by
  obtain ⟨-, -, -, -, -, -, -, -, -, e0, e1, -⟩ := idx_facts t
  funext y
  unfold rblk iblk
  rw [View.read_apply]
  show V m c main_v0 _ = V m c main_v0 _
  congr 1
  funext a
  apply Fin.ext
  match a with
  | ⟨0, _⟩ => show win0_3.index t (0 : Fin 2) * 2048 + 1 * (y 0).val = (y 0).val; omega
  | ⟨1, _⟩ => show win0_3.index t (1 : Fin 2) * 64 + 1 * (y 1).val = (y 1).val; omega

/-! ## What a grid point writes back -/

/-- The array the output window's blocks are blocks of. -/
abbrev outArr (c : Dev nD) : S64x1024x64.Idx → EReal :=
  tileArr (V m c main_v1) (V m c main_v10) (V m c main_v11) (V m c main_v0)

/-- The table window a point loads is the window of the padded table at its query tile. -/
theorem window_eq (c : Dev nD) (t : Fin cfg0.N) :
    loadedWindow (grid0.coords t) (V m c main_v0) = windowOf (V m c main_v0) (qiOf t) := by
  obtain ⟨-, -, -, -, -, -, -, -, -, -, -, -, -, -, eg⟩ := idx_facts t
  funext y
  obtain ⟨r, d, rfl⟩ : ∃ (r : Fin 1280) (d : Fin 64), y = ix2 r d := ⟨y 0, y 1, eq_ix2 y⟩
  have hr : 256 * ((grid0.coords t) 1).val + r.val < 2048 := by rw [eg]; have := r.isLt; omega
  rw [loadedWindow_apply (grid0.coords t) (V m c main_v0) r d hr]
  show V m c main_v0 _ = V m c main_v0 _
  congr 1
  funext a
  apply Fin.ext
  match a with
  | ⟨0, _⟩ => show 256 * ((grid0.coords t) 1).val + r.val = 256 * (t.val % 4) + r.val; rw [eg]
  | ⟨1, _⟩ => rfl

/-- Row `256·qi + a` of batch-head `bh` of the assembled array is row `a` of what grid point `(bh, qi)` computes. -/
theorem tileArr_tile (Aq Ak Av : A3.Idx → EReal) (R : APad.Idx → EReal) (bh : Fin 64) (qi : Fin 4) (a : Fin 256) (d : Fin 64) :
    tileArr Aq Ak Av R (ix3 bh (⟨256 * qi.val + a.val, by omega⟩ : Fin 1024) d)
      = tileOut (256 * qi.val) (tileOf Aq bh qi) (blockOf Ak bh) (blockOf Av bh) (windowOf R qi) a d := by
  have h1 : (256 * qi.val + a.val) / 256 = qi.val := by omega
  have h2 : (256 * qi.val + a.val) % 256 = a.val := by omega
  have e1 : ∀ h, (⟨(256 * qi.val + a.val) / 256, h⟩ : Fin 4) = qi := fun h => Fin.ext h1
  have e2 : ∀ h, (⟨(256 * qi.val + a.val) % 256, h⟩ : Fin 256) = a := fun h => Fin.ext h2
  show tileOut (256 * ((256 * qi.val + a.val) / 256)) (tileOf Aq bh ⟨(256 * qi.val + a.val) / 256, _⟩) (blockOf Ak bh) (blockOf Av bh)
      (windowOf R ⟨(256 * qi.val + a.val) / 256, _⟩) ⟨(256 * qi.val + a.val) % 256, _⟩ d = _
  rw [e1, e2, h1]

/-- Entry `(0, a, d)` of what the body leaves at point `t` is the assembled array at row `256·(t % 4) + a` of batch-head `t / 4`. -/
theorem stored_point (c : Dev nD) (t : Fin cfg0.N) (a : Fin 256) (d : Fin 64) :
    Body.stored (F := Ideal) ((grid0.coords t) 1).val (qblk m c t) (kblk m c t) (vblk m c t)
        (loadedWindow (grid0.coords t) (rblk m c t)) (ix3 0 a d)
      = outArr m c (ix3 (bhOf t) (⟨256 * (qiOf t).val + a.val, by have := (qiOf t).isLt; omega⟩ : Fin 1024) d) := by
  obtain ⟨-, -, -, -, -, -, -, -, -, -, -, -, -, -, eg⟩ := idx_facts t
  rw [qblk_eq, kblk_eq, vblk_eq, rblk_eq, window_eq, eg]
  exact (Body.stored_apply (qiOf t) _ _ _ _ a d).trans (tileArr_tile _ _ _ _ (bhOf t) (qiOf t) a d).symm

/-- WHAT POINT `t` WRITES BACK is its block of the assembled array. -/
theorem flushed_eq (c : Dev nD) (t : Fin cfg0.N) :
    (dats m 0 c).flushed 4 t = ((cfg0.win 4).blk t).view.read (Elt Ideal) (outArr m c) := by
  obtain ⟨-, -, -, -, -, -, -, -, -, -, -, e0, e1, e2, -⟩ := idx_facts t
  show (cfg0.win 4).cut (grid0.coords t) ((dats m 0 c).after 4 t) = _
  rw [after0_4]
  unfold outsAt0
  rw [out_eq]
  have key : Body.stored (F := Ideal) ((grid0.coords t) 1).val (qblk m c t) (kblk m c t) (vblk m c t)
        (loadedWindow (grid0.coords t) (rblk m c t))
      = fun y : S1x256x64.Idx => outArr m c (ix3 (bhOf t)
          (⟨256 * (qiOf t).val + (y 1).val, by have := (qiOf t).isLt; have : (y 1).val < 256 := (y 1).isLt; omega⟩ : Fin 1024) (y 2)) := by
    funext y
    obtain ⟨z, a, d, rfl⟩ : ∃ (z : Fin 1) (a : Fin 256) (d : Fin 64), y = ix3 z a d := ⟨y 0, y 1, y 2, eq_ix3 y⟩
    obtain rfl : z = 0 := Subsingleton.elim _ _
    exact stored_point m c t a d
  show Body.stored (F := Ideal) ((grid0.coords t) 1).val (qblk m c t) (kblk m c t) (vblk m c t)
        (loadedWindow (grid0.coords t) (rblk m c t)) = _
  rw [key]
  funext y
  rw [View.read_apply]
  show outArr m c _ = outArr m c _
  congr 1
  funext b
  apply Fin.ext
  have h0 : (y 0).val < 1 := (y 0).isLt
  match b with
  | ⟨0, _⟩ => show t.val / 4 = win0_4.index t (0 : Fin 3) * 1 + 1 * (y 0).val; omega
  | ⟨1, _⟩ => show 256 * (t.val % 4) + (y 1).val = win0_4.index t (1 : Fin 3) * 256 + 1 * (y 1).val; omega
  | ⟨2, _⟩ => show (y 2).val = win0_4.index t (2 : Fin 3) * 64 + 1 * (y 2).val; omega

/-! ## The output array after the run -/

/-- An index of the output array is in point `t`'s block iff each coordinate is in the block's range on its axis. -/
theorem mem_blk4 (t : Fin cfg0.N) (i : S64x1024x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v12).slice (win0_4.rect t)).set ↔ _
  rw [View.set_slice_whole, Rect.mem_set_unit]
  exact Iff.rfl

/-- The blocks tile the array (row `r` of batch-head `bh` is in the block of point `4·bh + r / 256`), so the array ends
    as the assembled one. -/
theorem final (c : Dev nD) : (dats m 0 c).arrAt 4 cfg0.N = outArr m c :=
  (dats m 0 c).arrAt_eq_of_cover 4 (outArr m c) (fun t _ => flushed_eq m c t) fun i => by
    have hi0 : (i 0).val < 64 := (i 0).isLt
    have hi1 : (i 1).val < 1024 := (i 1).isLt
    have hi2 : (i 2).val < 64 := (i 2).isLt
    have ht : 4 * (i 0).val + (i 1).val / 256 < cfg0.N := lt_of_lt_of_eq (by omega : _ < 256) N_0.symm
    obtain ⟨-, -, -, -, -, -, -, -, -, -, -, e0, e1, e2, -⟩ := idx_facts ⟨4 * (i 0).val + (i 1).val / 256, ht⟩
    have e0' : win0_4.index ⟨4 * (i 0).val + (i 1).val / 256, ht⟩ (0 : Fin 3) = (4 * (i 0).val + (i 1).val / 256) / 4 := e0
    have e1' : win0_4.index ⟨4 * (i 0).val + (i 1).val / 256, ht⟩ (1 : Fin 3) = (4 * (i 0).val + (i 1).val / 256) % 4 := e1
    refine ⟨⟨4 * (i 0).val + (i 1).val / 256, ht⟩, flush0_4 _, ?_⟩
    rw [mem_blk4]
    intro a
    match a with
    | ⟨0, _⟩ =>
      show win0_4.index _ (0 : Fin 3) * 1 ≤ (i 0).val ∧ (i 0).val < win0_4.index _ (0 : Fin 3) * 1 + 1
      omega
    | ⟨1, _⟩ =>
      show win0_4.index _ (1 : Fin 3) * 256 ≤ (i 1).val ∧ (i 1).val < win0_4.index _ (1 : Fin 3) * 256 + 256
      omega
    | ⟨2, _⟩ =>
      show win0_4.index _ (2 : Fin 3) * 64 ≤ (i 2).val ∧ (i 2).val < win0_4.index _ (2 : Fin 3) * 64 + 64
      omega

/-- The kernel program's result: the assembled array with batch and head split again. -/
abbrev kernelOut (c : Dev nD) : S4x16x1024x64.Idx → EReal :=
  shapeCast S4x16x1024x64 (outArr m c) shapeCasts_S64x1024x64_S4x16x1024x64

/-- The one host line after the region reshapes the output array. -/
theorem tail_eq (c : Dev nD) :
    Pipeline.afterTail₀ cfgs (dats m) 0 (V0 m) [hostOps1] c main_v13 = kernelOut m c := by
  unfold Pipeline.afterTail₀
  show StableHlo.after hostOps1 _ (Proc.devRef .tc main_v13) = _
  after_results
  have hw : Pipeline.withArrays (cfgs 0).spec c (V0 m c) (fun w => (dats m 0 c).arrAt w (cfgs 0).N)
      (Proc.devRef .tc main_v12) = outArr m c :=
    (Pipeline.withArrays_arr spec0 launch0.win.arr_inj c _ _ 4).trans (final m c)
  rw [hw]
  rfl

/-- The run, read: the result buffer at the reshaped assembled array, the arguments unchanged. -/
theorem run_value : θ_run defs (onTc (τ := τ) (main (F := Ideal))) ⟨m, fun _ => 0, ρ⟩ fun r => ∀ c : Dev nD,
      r.2.mem ((c.tc : Thread nD τ).loc main_v13) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v13 (Pipeline.mem_restRefs_of main_v13 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.KernelIdeal.KFrame

end
-- ==== Proof.Spec.lean ====
/-
  The function both programs compute, stated once over the extended reals.

  Inputs: queries, keys, values and a noise array of shape [4, 16, 1024, 64] and a table of 2047 relative-position
  rows of width 64. For batch `b`, head `h`:
    * every query row and every key row is divided by its Euclidean norm (`unitRow`);
    * the values are `v + c · noise` with `c` the float nearest one tenth (`vEff`);
    * the score of query `i` against key `j ≤ i` is `(1 + q̂ᵢ · k̂ⱼ) + q̂ᵢ · R[i − j + 1023]`, and `0` for `j > i`;
    * the result row `i` is `(∑ⱼ scoreᵢⱼ · vⱼ) / (∑ⱼ scoreᵢⱼ)`.
  Nothing here names a program: the two programs' results are each shown equal to `result` elsewhere.
-/
import Idealize.ShloMosaic.PureOps.Ideal
import Idealize.ShloMosaic.Lib.ValueIdx

noncomputable section

open scoped BigOperators

namespace Cert.Fastmax

open Idealize.ShloMosaic Idealize.ShloMosaic.ValueIdx

/-- The shape of the four big inputs and of the result. -/
abbrev T4 : Shape := ⟨4, ![4, 16, 1024, 64]⟩
/-- The shape of the relative-position table. -/
abbrev TR : Shape := ⟨2, ![2047, 64]⟩

/-- The Euclidean norm of row `(b, h, i)`: the square root of the sum of the squares of its 64 entries. -/
def rowNorm (x : T4.Idx → EReal) (b : Fin 4) (h : Fin 16) (i : Fin 1024) : EReal :=
  Ideal.sqrt (∑ d : Fin 64, x (ix4 b h i d) * x (ix4 b h i d))

/-- Entry `d` of row `(b, h, i)` divided by the row's norm. -/
def unitRow (x : T4.Idx → EReal) (b : Fin 4) (h : Fin 16) (i : Fin 1024) (d : Fin 64) : EReal :=
  Ideal.div (x (ix4 b h i d)) (rowNorm x b h i)

/-- The noise scale: the single-precision float nearest one tenth, as the extended real it denotes. -/
def tenth : EReal := Ideal.ofBits .f32 0x3DCCCCCD#32

/-- The values with the scaled noise added. -/
def vEff (v dn : T4.Idx → EReal) (b : Fin 4) (h : Fin 16) (j : Fin 1024) (d : Fin 64) : EReal :=
  v (ix4 b h j d) + tenth * dn (ix4 b h j d)

/-- The table row that query `i` uses against key `j`: `i − j + 1023`, between 0 and 2046. -/
def relRow (i j : Fin 1024) : Fin 2047 := ⟨i.val + 1023 - j.val, by omega⟩

/-- The inner product of the unit query row `i` with the unit key row `j`. -/
def qk (q k : T4.Idx → EReal) (b : Fin 4) (h : Fin 16) (i j : Fin 1024) : EReal :=
  ∑ d : Fin 64, unitRow q b h i d * unitRow k b h j d

/-- The inner product of the unit query row `i` with table row `t`. -/
def qr (q : T4.Idx → EReal) (r : TR.Idx → EReal) (b : Fin 4) (h : Fin 16) (i : Fin 1024) (t : Fin 2047) : EReal :=
  ∑ d : Fin 64, unitRow q b h i d * r (ix2 t d)

/-- The causal score of query `i` against key `j`. -/
def score (q k : T4.Idx → EReal) (r : TR.Idx → EReal) (b : Fin 4) (h : Fin 16) (i j : Fin 1024) : EReal :=
  if j.val ≤ i.val then (1 + qk q k b h i j) + qr q r b h i (relRow i j) else 0

/-- The normaliser of row `i`: the sum of its scores. -/
def denom (q k : T4.Idx → EReal) (r : TR.Idx → EReal) (b : Fin 4) (h : Fin 16) (i : Fin 1024) : EReal :=
  ∑ j : Fin 1024, score q k r b h i j

/-- The score-weighted sum of the value rows. -/
def numer (q k v dn : T4.Idx → EReal) (r : TR.Idx → EReal) (b : Fin 4) (h : Fin 16) (i : Fin 1024) (d : Fin 64) : EReal :=
  ∑ j : Fin 1024, score q k r b h i j * vEff v dn b h j d

/-- One entry of the result. -/
def resultAt (q k v dn : T4.Idx → EReal) (r : TR.Idx → EReal) (b : Fin 4) (h : Fin 16) (i : Fin 1024) (d : Fin 64) : EReal :=
  Ideal.div (numer q k v dn r b h i d) (denom q k r b h i)

/-- The whole result array. -/
def result (q k v dn : T4.Idx → EReal) (r : TR.Idx → EReal) : T4.Idx → EReal :=
  fun y => resultAt q k v dn r (y 0) (y 1) (y 2) (y 3)

theorem result_ix4 (q k v dn : T4.Idx → EReal) (r : TR.Idx → EReal) (b : Fin 4) (h : Fin 16) (i : Fin 1024) (d : Fin 64) :
    result q k v dn r (ix4 b h i d) = resultAt q k v dn r b h i d := rfl

/-! ## Small facts about extended reals used on both sides -/

/-- Dividing by one changes nothing. -/
theorem div_one' (x : EReal) : Ideal.div x 1 = x := by
  rw [Ideal.div, if_neg one_ne_zero, inv_one, mul_one]

end Cert.Fastmax

end
-- ==== Proof.KHost.lean ====
/-
  What the kernel's windows find in their arrays when the region is entered, entry by entry: the host lines before
  the region merge batch and head (row-major, `bh = 16·b + h`), divide the keys by their row norms, add the scaled
  noise to the values, reverse keys and values along the sequence axis, and pad the table with one zero row.
-/
import proofs.«400248_j71940702208678_3_alg».proof.Proof.Gen.KernelIdeal.Frame
import proofs.«400248_j71940702208678_3_alg».proof.Proof.Spec
import proofs.«400248_j71940702208678_3_alg».proof.Proof.KSpec
import Idealize.ShloMosaic.Lib.Pipeline.Value
import Idealize.ShloMosaic.Lib.StableHlo.Run
import Idealize.ShloMosaic.Lib.KernelVsHost
import Idealize.ShloMosaic.PureOps.Ideal.Laws

noncomputable section

open scoped BigOperators

namespace Cert.KernelIdeal.KHost

open Idealize.ShloMosaic Idealize.ShloMosaic.TcCoe Idealize.SL.Sem Idealize.ShloMosaic.ValueIdx
open Cert.KernelIdeal Cert.KernelIdeal.Gen Cert.Fastmax

variable (m : (ℓ : Loc nD τ sig) → Buf (Elt Ideal) ℓ)

/-! ## The host lines' terms, over plain arrays -/

/-- The Euclidean norms of the rows, kept on a unit last axis. -/
def normArr (x : FVec Ideal S4x16x1024x64 .f32) : FVec Ideal S4x16x1024x1 .f32 :=
  Host.sqrt (broadcastInDim S4x16x1024x1 ![0, 1, 2] bcast_S4x16x1024_S4x16x1024x1_0_1_2
    (Host.reduceAdd (mulf x x) (constant (F := Ideal) S_ .f32 0x00000000#32) reducesTo_S4x16x1024x64_S4x16x1024_d3 h_S_))

/-- Every entry divided by its row's norm, before batch and head are merged. -/
def unitArr (x : FVec Ideal S4x16x1024x64 .f32) : FVec Ideal S4x16x1024x64 .f32 :=
  Host.divf x (broadcastInDim S4x16x1024x64 ![0, 1, 2, 3] bcast_S4x16x1024x1_S4x16x1024x64_0_1_2_3 (normArr x))

/-- The values plus the scaled noise, before batch and head are merged. -/
def noisyArr (v dn : FVec Ideal S4x16x1024x64 .f32) : FVec Ideal S4x16x1024x64 .f32 :=
  addf v (mulf (broadcastInDim S4x16x1024x64 ![] bcast_S_S4x16x1024x64 (constant (F := Ideal) S_ .f32 0x3DCCCCCD#32)) dn)

/-- Batch and head merged, then the sequence axis reversed. -/
def mergeFlip (x : FVec Ideal S4x16x1024x64 .f32) : FVec Ideal S64x1024x64 .f32 :=
  Host.reverse [1] (shapeCast S64x1024x64 x shapeCasts_S4x16x1024x64_S64x1024x64)

/-- The table with one row of the padding value behind it. -/
def padArr (r : FVec Ideal S2047x64 .f32) : FVec Ideal S2048x64 .f32 :=
  pad S2048x64 ![0, 0] ![1, 0] ![0, 0] r (sitofp (F := Ideal) .f32 (constantI S_ 32 0#32)) pads_S2047x64_S2048x64_010_000 h_S_

/-! ## The layout operations read at an index -/

/-- Merging batch and head reads entry `(bh, i, d)` at `(bh / 16, bh % 16, i, d)`: the same row-major position. -/
theorem merge_apply (x : FVec Ideal S4x16x1024x64 .f32) (bh : Fin 64) (i : Fin 1024) (d : Fin 64) :
    shapeCast S64x1024x64 x shapeCasts_S4x16x1024x64_S64x1024x64 (ix3 bh i d) = x (ix4 (batchOf bh) (headOf bh) i d) :=
  shapeCast_apply x shapeCasts_S4x16x1024x64_S64x1024x64 (ix3 bh i d) (ix4 (batchOf bh) (headOf bh) i d) (by
    rw [Shape.rowMajor_val_four, Shape.rowMajor_val_three]
    show (((bh.val / 16) * 16 + bh.val % 16) * 1024 + i.val) * 64 + d.val = (bh.val * 1024 + i.val) * 64 + d.val
    omega)

/-- Reversing the sequence axis reads row `j` at row `1023 − j`. -/
theorem flip_apply (y : FVec Ideal S64x1024x64 .f32) (bh : Fin 64) (j : Fin 1024) (d : Fin 64) :
    Host.reverse [1] y (ix3 bh j d) = y (ix3 bh (flipRow j) d) := by
  unfold Host.reverse
  refine congrArg y (funext fun a => ?_)
  match a with
  | ⟨0, _⟩ => exact if_neg (by decide +revert)
  | ⟨1, _⟩ =>
    refine (if_pos (by decide +revert)).trans (Fin.ext ?_)
    show 1024 - (j.val + 1) = 1023 - j.val
    omega
  | ⟨2, _⟩ => exact if_neg (by decide +revert)

/-- Merged and reversed: entry `(bh, j, d)` is entry `(bh / 16, bh % 16, 1023 − j, d)`. -/
theorem mergeFlip_apply (x : FVec Ideal S4x16x1024x64 .f32) (bh : Fin 64) (j : Fin 1024) (d : Fin 64) :
    mergeFlip x (ix3 bh j d) = x (ix4 (batchOf bh) (headOf bh) (flipRow j) d) :=
  (flip_apply _ bh j d).trans (merge_apply x bh (flipRow j) d)

/-- The sum of the squares of a row, as the host's reduction over the last axis reads at `(b, h, i)`. -/
theorem sumsq_apply (x : FVec Ideal S4x16x1024x64 .f32) (b : Fin 4) (h : Fin 16) (i : Fin 1024) :
    Host.reduceAdd (mulf x x) (constant (F := Ideal) S_ .f32 0x00000000#32) reducesTo_S4x16x1024x64_S4x16x1024_d3 h_S_ (ix3 b h i)
      = ∑ d : Fin 64, x (ix4 b h i d) * x (ix4 b h i d) := by
  simp only [Host.reduceAdd, Ideal.hostReduceAdd_def]
  rw [Ideal.hostReduceAdd_single reducesTo_S4x16x1024x64_S4x16x1024_d3 (by decide)]
  have h0 : constant (F := Ideal) S_ .f32 0x00000000#32 (Shape.Idx.first h_S_) = 0 := Ideal.ofBits_zero_f32
  rw [h0, zero_add]
  refine Finset.sum_congr rfl fun k _ => ?_
  show x _ * x _ = _
  have hk : (Shape.Reduces.lift (s := S4x16x1024x64) (t := S4x16x1024) (a := 3) (by decide) (ix3 b h i) k : S4x16x1024x64.Idx) = ix4 b h i k :=
    funext fun a => Fin.ext (by match a with | ⟨0, _⟩ => rfl | ⟨1, _⟩ => rfl | ⟨2, _⟩ => rfl | ⟨3, _⟩ => rfl)
  rw [hk]
  rfl

/-- The norm array at `(b, h, i, 0)` is the row's Euclidean norm. -/
theorem normArr_apply (x : FVec Ideal S4x16x1024x64 .f32) (b : Fin 4) (h : Fin 16) (i : Fin 1024) :
    normArr x (ix4 b h i (0 : Fin 1)) = rowNorm x b h i := by
  unfold normArr rowNorm
  show Ideal.sqrt _ = Ideal.sqrt _
  refine congrArg Ideal.sqrt ?_
  refine (broadcastInDim_apply _ bcast_S4x16x1024_S4x16x1024x1_0_1_2 _ (ix4 b h i (0 : Fin 1)) (ix3 b h i) (fun a => match a with
    | ⟨0, _⟩ => by show b.val = if (4 : Nat) = 1 then 0 else b.val; rw [if_neg (by decide)]
    | ⟨1, _⟩ => by show h.val = if (16 : Nat) = 1 then 0 else h.val; rw [if_neg (by decide)]
    | ⟨2, _⟩ => by show i.val = if (1024 : Nat) = 1 then 0 else i.val; rw [if_neg (by decide)])).trans ?_
  exact sumsq_apply x b h i

/-- The unit rows at `(b, h, i, d)`. -/
theorem unitArr_apply (x : FVec Ideal S4x16x1024x64 .f32) (b : Fin 4) (h : Fin 16) (i : Fin 1024) (d : Fin 64) :
    unitArr x (ix4 b h i d) = unitRow x b h i d := by
  unfold unitArr unitRow
  show Ideal.div _ _ = Ideal.div _ _
  refine congrArg (Ideal.div _) ?_
  refine (broadcastInDim_apply _ bcast_S4x16x1024x1_S4x16x1024x64_0_1_2_3 (normArr x) (ix4 b h i d) (ix4 b h i (0 : Fin 1)) (fun a => match a with
    | ⟨0, _⟩ => by show b.val = if (4 : Nat) = 1 then 0 else b.val; rw [if_neg (by decide)]
    | ⟨1, _⟩ => by show h.val = if (16 : Nat) = 1 then 0 else h.val; rw [if_neg (by decide)]
    | ⟨2, _⟩ => by show i.val = if (1024 : Nat) = 1 then 0 else i.val; rw [if_neg (by decide)]
    | ⟨3, _⟩ => by show 0 = if (1 : Nat) = 1 then 0 else d.val; rw [if_pos rfl])).trans ?_
  exact normArr_apply x b h i

/-- The noise-added values at `(b, h, j, d)`. -/
theorem noisyArr_apply (v dn : FVec Ideal S4x16x1024x64 .f32) (b : Fin 4) (h : Fin 16) (j : Fin 1024) (d : Fin 64) :
    noisyArr v dn (ix4 b h j d) = vEff v dn b h j d := rfl

/-- The padded table at a row below 2047 is the table's row. -/
theorem padArr_apply (r : FVec Ideal S2047x64 .f32) (t : Fin 2047) (d : Fin 64) :
    padArr r (ix2 (⟨t.val, by omega⟩ : Fin 2048) d) = r (ix2 t d) :=
  pad_apply_of_inside _ _ _ r _ pads_S2047x64_S2048x64_010_000 h_S_ (ix2 (⟨t.val, by omega⟩ : Fin 2048) d) (ix2 t d) (fun a => match a with
    | ⟨0, _⟩ => by show t.val = 0 + t.val * (0 + 1); omega
    | ⟨1, _⟩ => by show d.val = 0 + d.val * (0 + 1); omega)

/-! ## The four arrays as whole-array terms of the launch memory -/

/-- The merged queries are the queries reshaped. -/
theorem v1_eq (c : Dev nD) : (V m c main_v1 : FVec Ideal S64x1024x64 .f32)
    = shapeCast S64x1024x64 (m ((c : Thread nD τ).loc main_arg0) : FVec Ideal S4x16x1024x64 .f32) shapeCasts_S4x16x1024x64_S64x1024x64 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The keys' array: unit rows, merged, reversed. -/
theorem v10_eq (c : Dev nD) : (V m c main_v10 : FVec Ideal S64x1024x64 .f32)
    = mergeFlip (unitArr (m ((c : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The values' array: noise added, merged, reversed. -/
theorem v11_eq (c : Dev nD) : (V m c main_v11 : FVec Ideal S64x1024x64 .f32)
    = mergeFlip (noisyArr (m ((c : Thread nD τ).loc main_arg2)) (m ((c : Thread nD τ).loc main_arg3))) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The table's array: the table padded. -/
theorem v0_eq (c : Dev nD) : (V m c main_v0 : FVec Ideal S2048x64 .f32) = padArr (m ((c : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-! ## Entry by entry -/

/-- The merged queries: entry `(bh, i, d)` is the query entry `(b, h, i, d)`. -/
theorem q_merged (c : Dev nD) (bh : Fin 64) (i : Fin 1024) (d : Fin 64) :
    V m c main_v1 (ix3 bh i d) = m ((c : Thread nD τ).loc main_arg0) (ix4 (batchOf bh) (headOf bh) i d) :=
  (congrFun (v1_eq m c) (ix3 bh i d)).trans (merge_apply _ bh i d)

/-- The reversed unit keys: entry `(bh, j, d)` is the unit key row `1023 − j`. -/
theorem k_flipped (c : Dev nD) (bh : Fin 64) (j : Fin 1024) (d : Fin 64) :
    V m c main_v10 (ix3 bh j d) = unitRow (m ((c : Thread nD τ).loc main_arg1)) (batchOf bh) (headOf bh) (flipRow j) d :=
  (congrFun (v10_eq m c) (ix3 bh j d)).trans ((mergeFlip_apply _ bh j d).trans (unitArr_apply _ _ _ _ d))

/-- The reversed noise-added values: entry `(bh, j, d)` is the value row `1023 − j`. -/
theorem v_flipped (c : Dev nD) (bh : Fin 64) (j : Fin 1024) (d : Fin 64) :
    V m c main_v11 (ix3 bh j d)
      = vEff (m ((c : Thread nD τ).loc main_arg2)) (m ((c : Thread nD τ).loc main_arg3)) (batchOf bh) (headOf bh) (flipRow j) d :=
  (congrFun (v11_eq m c) (ix3 bh j d)).trans ((mergeFlip_apply _ bh j d).trans (noisyArr_apply _ _ _ _ _ d))

/-- The padded table: its first 2047 rows are the table's. -/
theorem table_padded (c : Dev nD) (t : Fin 2047) (d : Fin 64) :
    V m c main_v0 (ix2 (⟨t.val, by omega⟩ : Fin 2048) d) = m ((c : Thread nD τ).loc main_arg4) (ix2 t d) :=
  (congrFun (v0_eq m c) (ix2 (⟨t.val, by omega⟩ : Fin 2048) d)).trans (padArr_apply _ t d)

end Cert.KernelIdeal.KHost

end
-- ==== Proof.Bridge.lean ====
/-
  The array the grid assembles is the specification, with batch and head merged. Given the merged queries, the
  reversed unit keys, the reversed noise-added values and the padded table, grid point `(bh, i / 256)` writes row
  `i % 256`: its tile row is query row `i`; summing over the reversed key index `j' = 1023 − j` is summing over `j`;
  the causal test `256·qi + a + j' ≥ 1023` is `j ≤ i`; and the window row `a + j'` of the table window starting at
  `256·qi` is table row `i − j + 1023`, below 2047, so the padding row is never read.
-/
import proofs.«400248_j71940702208678_3_alg».proof.Proof.Spec
import proofs.«400248_j71940702208678_3_alg».proof.Proof.KSpec

noncomputable section

open scoped BigOperators

namespace Cert.Fastmax

open Idealize.ShloMosaic Idealize.ShloMosaic.ValueIdx

namespace Bridge

/-- Counting a row from the other end twice gives the row back. -/
theorem flipRow_flipRow (j : Fin 1024) : flipRow (flipRow j) = j := by
  apply Fin.ext
  have hj : j.val < 1024 := j.isLt
  show 1023 - (1023 - j.val) = j.val
  omega

/-- Counting rows from the other end is a bijection of the 1024 rows. -/
theorem flipRow_bijective : Function.Bijective flipRow :=
  Function.Involutive.bijective flipRow_flipRow

/-- A sum over all rows may be taken in the reversed order. -/
theorem sum_flipRow (f g : Fin 1024 → EReal) (h : ∀ j, f j = g (flipRow j)) :
    ∑ j : Fin 1024, f j = ∑ j : Fin 1024, g j :=
  Fintype.sum_bijective flipRow flipRow_bijective f g h

/-- Row `a` of the tile that starts at row `256·qi` of batch-head `bh` is query row `256·qi + a`. -/
theorem tileOf_apply (q : T4.Idx → EReal) (Aq : A3.Idx → EReal)
    (hq : ∀ (bh : Fin 64) (i : Fin 1024) (d : Fin 64), Aq (ix3 bh i d) = q (ix4 (batchOf bh) (headOf bh) i d))
    (bh : Fin 64) (i : Fin 1024) (qi : Fin 4) (a : Fin 256) (hia : 256 * qi.val + a.val = i.val) (e : Fin 64) :
    tileOf Aq bh qi (ix3 0 a e) = q (ix4 (batchOf bh) (headOf bh) i e) := by
  have ha : a.val < 256 := a.isLt
  have hqi : qi.val < 4 := qi.isLt
  have h1 : tileOf Aq bh qi (ix3 0 a e) = Aq (ix3 bh (⟨256 * qi.val + a.val, by omega⟩ : Fin 1024) e) := rfl
  have h2 : (⟨256 * qi.val + a.val, by omega⟩ : Fin 1024) = i := Fin.ext hia
  rw [h1, h2, hq]

/-- The normalised tile row is the normalised query row. -/
theorem tileUnit_tileOf (q : T4.Idx → EReal) (Aq : A3.Idx → EReal)
    (hq : ∀ (bh : Fin 64) (i : Fin 1024) (d : Fin 64), Aq (ix3 bh i d) = q (ix4 (batchOf bh) (headOf bh) i d))
    (bh : Fin 64) (i : Fin 1024) (qi : Fin 4) (a : Fin 256) (hia : 256 * qi.val + a.val = i.val) (e : Fin 64) :
    tileUnit (tileOf Aq bh qi) a e = unitRow q (batchOf bh) (headOf bh) i e := by
  unfold tileUnit unitRow rowNorm
  simp only [tileOf_apply q Aq hq bh i qi a hia]

/-- The tile's score against reversed key row `j` is the causal score against key row `1023 − j`. -/
theorem tileScore_eq (q k : T4.Idx → EReal) (r : TR.Idx → EReal) (Aq Ak : A3.Idx → EReal) (R : APad.Idx → EReal)
    (hq : ∀ (bh : Fin 64) (i : Fin 1024) (d : Fin 64), Aq (ix3 bh i d) = q (ix4 (batchOf bh) (headOf bh) i d))
    (hk : ∀ (bh : Fin 64) (j : Fin 1024) (d : Fin 64), Ak (ix3 bh j d) = unitRow k (batchOf bh) (headOf bh) (flipRow j) d)
    (hr : ∀ (t : Fin 2047) (d : Fin 64), R (ix2 (⟨t.val, by omega⟩ : Fin 2048) d) = r (ix2 t d))
    (bh : Fin 64) (i : Fin 1024) (qi : Fin 4) (a : Fin 256) (hia : 256 * qi.val + a.val = i.val) (j : Fin 1024) :
    tileScore (256 * qi.val) (tileOf Aq bh qi) (blockOf Ak bh) (windowOf R qi) a j
      = score q k r (batchOf bh) (headOf bh) i (flipRow j) := by
  have ha : a.val < 256 := a.isLt
  have hqi : qi.val < 4 := qi.isLt
  have hj : j.val < 1024 := j.isLt
  have hi : i.val < 1024 := i.isLt
  have hflip : (flipRow j).val = 1023 - j.val := rfl
  unfold tileScore score
  by_cases hc : 1023 ≤ 256 * qi.val + a.val + j.val
  · have hc' : (flipRow j).val ≤ i.val := by rw [hflip]; omega
    rw [if_pos hc, if_pos hc']
    unfold qk qr
    congr 1
    · congr 1
      refine Finset.sum_congr rfl fun e _ => ?_
      rw [tileUnit_tileOf q Aq hq bh i qi a hia e]
      have hb : blockOf Ak bh (ix3 0 j e) = Ak (ix3 bh j e) := rfl
      rw [hb, hk]
    · refine Finset.sum_congr rfl fun e _ => ?_
      rw [tileUnit_tileOf q Aq hq bh i qi a hia e]
      have hrel : (relRow i (flipRow j)).val = i.val + j.val := by
        show i.val + 1023 - (1023 - j.val) = i.val + j.val
        omega
      have hw : windowOf R qi (ix2 (⟨a.val + j.val, by omega⟩ : Fin 1280) e)
          = R (ix2 (⟨256 * qi.val + (a.val + j.val), by omega⟩ : Fin 2048) e) := rfl
      have hidx : (⟨256 * qi.val + (a.val + j.val), by omega⟩ : Fin 2048)
          = (⟨(relRow i (flipRow j)).val, by omega⟩ : Fin 2048) := by
        apply Fin.ext
        show 256 * qi.val + (a.val + j.val) = (relRow i (flipRow j)).val
        rw [hrel]; omega
      rw [hw, hidx, hr]
  · have hc' : ¬ (flipRow j).val ≤ i.val := by rw [hflip]; omega
    rw [if_neg hc, if_neg hc']

end Bridge

open Bridge in
theorem tileArr_eq (q k v dn : T4.Idx → EReal) (r : TR.Idx → EReal) (Aq Ak Av : A3.Idx → EReal) (R : APad.Idx → EReal)
    (hq : ∀ (bh : Fin 64) (i : Fin 1024) (d : Fin 64), Aq (ix3 bh i d) = q (ix4 (batchOf bh) (headOf bh) i d))
    (hk : ∀ (bh : Fin 64) (j : Fin 1024) (d : Fin 64), Ak (ix3 bh j d) = unitRow k (batchOf bh) (headOf bh) (flipRow j) d)
    (hv : ∀ (bh : Fin 64) (j : Fin 1024) (d : Fin 64), Av (ix3 bh j d) = vEff v dn (batchOf bh) (headOf bh) (flipRow j) d)
    (hr : ∀ (t : Fin 2047) (d : Fin 64), R (ix2 (⟨t.val, by omega⟩ : Fin 2048) d) = r (ix2 t d))
    (bh : Fin 64) (i : Fin 1024) (d : Fin 64) :
    tileArr Aq Ak Av R (ix3 bh i d) = resultAt q k v dn r (batchOf bh) (headOf bh) i d := by
  have hi : i.val < 1024 := i.isLt
  have hqi : i.val / 256 < 4 := by omega
  have ha : i.val % 256 < 256 := by omega
  have hia : 256 * (⟨i.val / 256, hqi⟩ : Fin 4).val + (⟨i.val % 256, ha⟩ : Fin 256).val = i.val :=
    Nat.div_add_mod i.val 256
  have hsc := tileScore_eq q k r Aq Ak R hq hk hr bh i ⟨i.val / 256, hqi⟩ ⟨i.val % 256, ha⟩ hia
  show tileOut (256 * (⟨i.val / 256, hqi⟩ : Fin 4).val) (tileOf Aq bh ⟨i.val / 256, hqi⟩) (blockOf Ak bh) (blockOf Av bh)
      (windowOf R ⟨i.val / 256, hqi⟩) ⟨i.val % 256, ha⟩ d = _
  unfold tileOut resultAt numer denom
  congr 1
  · refine sum_flipRow _ _ fun j => ?_
    have hb : blockOf Av bh (ix3 0 j d) = Av (ix3 bh j d) := rfl
    rw [hsc j, hb, hv]
  · exact sum_flipRow _ _ fun j => hsc j

end Cert.Fastmax

end
-- ==== Proof.KOut.lean ====
/-
  The kernel program's result is the specification: the assembled array, read through the final reshape at
  `(b, h, i, d)`, is its entry `(16·b + h, i, d)`, and with the four arrays the windows read identified entry by entry
  that entry is `resultAt` of the five arguments.
-/
import proofs.«400248_j71940702208678_3_alg».proof.Proof.KFrame
import proofs.«400248_j71940702208678_3_alg».proof.Proof.KHost
import proofs.«400248_j71940702208678_3_alg».proof.Proof.Bridge

noncomputable section

open scoped BigOperators

namespace Cert.KernelIdeal.KOut

open Idealize.ShloMosaic Idealize.ShloMosaic.TcCoe Idealize.SL.Sem Idealize.ShloMosaic.ValueIdx
open Cert.KernelIdeal Cert.KernelIdeal.Gen Cert.KernelIdeal.KFrame Cert.Fastmax

variable (m : (ℓ : Loc nD τ sig) → Buf (Elt Ideal) ℓ)

/-- The merged index of batch `b`, head `h`. -/
def merge (b : Fin 4) (h : Fin 16) : Fin 64 := ⟨16 * b.val + h.val, by omega⟩

theorem batchOf_merge (b : Fin 4) (h : Fin 16) : batchOf (merge b h) = b := Fin.ext (by show (16 * b.val + h.val) / 16 = b.val; omega)
theorem headOf_merge (b : Fin 4) (h : Fin 16) : headOf (merge b h) = h := Fin.ext (by show (16 * b.val + h.val) % 16 = h.val; omega)

/-- The final reshape read at an index: both positions are `((16·b + h)·1024 + i)·64 + d` in row-major order. -/
theorem kernelOut_apply (c : Dev nD) (b : Fin 4) (h : Fin 16) (i : Fin 1024) (d : Fin 64) :
    kernelOut m c (ix4 b h i d) = outArr m c (ix3 (merge b h) i d) := by
  refine shapeCast_apply (outArr m c) shapeCasts_S64x1024x64_S4x16x1024x64 (ix4 b h i d) (ix3 (merge b h) i d) ?_
  rw [Shape.rowMajor_val_three, Shape.rowMajor_val_four]
  show ((16 * b.val + h.val) * 1024 + i.val) * 64 + d.val = ((b.val * 16 + h.val) * 1024 + i.val) * 64 + d.val
  omega

/-- The kernel program's result array is `result` of its five arguments. -/
theorem kernelOut_eq (c : Dev nD) :
    kernelOut m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  funext y
  obtain ⟨b, h, i, d, rfl⟩ : ∃ (b : Fin 4) (h : Fin 16) (i : Fin 1024) (d : Fin 64), y = ix4 b h i d :=
    ⟨y 0, y 1, y 2, y 3, eq_ix4 y⟩
  rw [result_ix4, kernelOut_apply]
  have e := tileArr_eq (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (V m c main_v1) (V m c main_v10) (V m c main_v11) (V m c main_v0)
    (KHost.q_merged m c) (KHost.k_flipped m c) (KHost.v_flipped m c) (KHost.table_padded m c) (merge b h) i d
  rw [batchOf_merge, headOf_merge] at e
  exact e

end Cert.KernelIdeal.KOut

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.RefRun.lean ====
/- GENERATED by `bun scratch/gen_refrun.js` (run in the unit's directory; it prints this module): laid out from one
   template each, over the table of the program's 77 operations (position, kind, buffers read, buffer written, the
   arguments its stage function takes): the list `W` of the written buffers; for each buffer that an operation of a
   called function names by a typed reference, the two identities `ofBuf_<buffer>` and `toBuf_<buffer>` (contents
   pass through the reference unchanged); and the 77 per-operation equations `st_<buffer>` (the buffer's final contents
   are its stage function of the arguments' starting contents). The operation list, the facts about it and the final
   theorem are written once.

  The reference program's run. Its 77 host operations form a straight line in which every buffer is written once,
  before anything reads it; so each buffer ends at its operation's function of the final contents of the buffers it
  reads, and, one operation after the other, at the stage function of the five arguments that the read-back module
  names for it. The run theorem states the result buffer at the last stage and the arguments unchanged.
-/
import proofs.«400248_j71940702208678_3_alg».proof.Proof.RefRead
import proofs.«400248_j71940702208678_3_alg».proof.Proof.LibSsa
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 77 operations, in order (a called function's operations stand in its call's place). -/
abbrev ops : List (HloOp τ sig (Elt F)) :=
  [ TRef.binary (TRef.of (T := ⟨S4x16x1024x64, .f32⟩) main_arg0) (TRef.of (T := ⟨S4x16x1024x64, .f32⟩) main_arg0) (TRef.of (T := ⟨S4x16x1024x64, .f32⟩) main_call0_v0) mulf,
    TRef.nullary (TRef.of (T := ⟨S_, .f32⟩) main_call0_cst) (constant S_ .f32 0x00000000#32),
    TRef.binary (TRef.of (T := ⟨S4x16x1024x64, .f32⟩) main_call0_v0) (TRef.of (T := ⟨S_, .f32⟩) main_call0_cst) (TRef.of (T := ⟨S4x16x1024, .f32⟩) main_call0_v1) (fun x v => Host.reduceAdd x v reducesTo_S4x16x1024x64_S4x16x1024_d3 h_S_),
    TRef.unary (TRef.of (T := ⟨S4x16x1024, .f32⟩) main_call0_v1) (TRef.of (T := ⟨S4x16x1024x1, .f32⟩) main_call0_v2) (broadcastInDim S4x16x1024x1 ![0, 1, 2] bcast_S4x16x1024_S4x16x1024x1_0_1_2),
    TRef.unary (TRef.of (T := ⟨S4x16x1024x1, .f32⟩) main_call0_v2) (TRef.of (T := ⟨S4x16x1024x1, .f32⟩) main_v0) Host.sqrt,
    unary main_v0 main_v1 (broadcastInDim S4x16x1024x64 ![0, 1, 2, 3] bcast_S4x16x1024x1_S4x16x1024x64_0_1_2_3 : (⟨S4x16x1024x1, .f32⟩ : BufTy).Contents (Elt F) → (⟨S4x16x1024x64, .f32⟩ : BufTy).Contents (Elt F)),
    binary main_arg0 main_v1 main_v2 (Host.divf : (⟨S4x16x1024x64, .f32⟩ : BufTy).Contents (Elt F) → (⟨S4x16x1024x64, .f32⟩ : BufTy).Contents (Elt F) → (⟨S4x16x1024x64, .f32⟩ : BufTy).Contents (Elt F)),
    TRef.binary (TRef.of (T := ⟨S4x16x1024x64, .f32⟩) main_arg1) (TRef.of (T := ⟨S4x16x1024x64, .f32⟩) main_arg1) (TRef.of (T := ⟨S4x16x1024x64, .f32⟩) main_call1_v0) mulf,
    TRef.nullary (TRef.of (T := ⟨S_, .f32⟩) main_call1_cst) (constant S_ .f32 0x00000000#32),
    TRef.binary (TRef.of (T := ⟨S4x16x1024x64, .f32⟩) main_call1_v0) (TRef.of (T := ⟨S_, .f32⟩) main_call1_cst) (TRef.of (T := ⟨S4x16x1024, .f32⟩) main_call1_v1) (fun x v => Host.reduceAdd x v reducesTo_S4x16x1024x64_S4x16x1024_d3 h_S_),
    TRef.unary (TRef.of (T := ⟨S4x16x1024, .f32⟩) main_call1_v1) (TRef.of (T := ⟨S4x16x1024x1, .f32⟩) main_call1_v2) (broadcastInDim S4x16x1024x1 ![0, 1, 2] bcast_S4x16x1024_S4x16x1024x1_0_1_2),
    TRef.unary (TRef.of (T := ⟨S4x16x1024x1, .f32⟩) main_call1_v2) (TRef.of (T := ⟨S4x16x1024x1, .f32⟩) main_v3) Host.sqrt,
    unary main_v3 main_v4 (broadcastInDim S4x16x1024x64 ![0, 1, 2, 3] bcast_S4x16x1024x1_S4x16x1024x64_0_1_2_3 : (⟨S4x16x1024x1, .f32⟩ : BufTy).Contents (Elt F) → (⟨S4x16x1024x64, .f32⟩ : BufTy).Contents (Elt F)),
    binary main_arg1 main_v4 main_v5 (Host.divf : (⟨S4x16x1024x64, .f32⟩ : BufTy).Contents (Elt F) → (⟨S4x16x1024x64, .f32⟩ : BufTy).Contents (Elt F) → (⟨S4x16x1024x64, .f32⟩ : BufTy).Contents (Elt F)),
    nullary main_cst (constant S_ .f32 0x3DCCCCCD#32),
    unary main_cst main_v6 (broadcastInDim S4x16x1024x64 ![] bcast_S_S4x16x1024x64 : (⟨S_, .f32⟩ : BufTy).Contents (Elt F) → (⟨S4x16x1024x64, .f32⟩ : BufTy).Contents (Elt F)),
    binary main_v6 main_arg3 main_v7 (mulf : (⟨S4x16x1024x64, .f32⟩ : BufTy).Contents (Elt F) → (⟨S4x16x1024x64, .f32⟩ : BufTy).Contents (Elt F) → (⟨S4x16x1024x64, .f32⟩ : BufTy).Contents (Elt F)),
    binary main_arg2 main_v7 main_v8 (addf : (⟨S4x16x1024x64, .f32⟩ : BufTy).Contents (Elt F) → (⟨S4x16x1024x64, .f32⟩ : BufTy).Contents (Elt F) → (⟨S4x16x1024x64, .f32⟩ : BufTy).Contents (Elt F)),
    binary main_v2 main_v5 main_v9 ((fun l r => Host.dotGeneral dot_S4x16x1024x64_S4x16x1024x64_S4x16x1024x1024_3_3_2_2_01_01 none l r) : (⟨S4x16x1024x64, .f32⟩ : BufTy).Contents (Elt F) → (⟨S4x16x1024x64, .f32⟩ : BufTy).Contents (Elt F) → (⟨S4x16x1024x1024, .f32⟩ : BufTy).Contents (Elt F)),
    nullary main_cst_0 (constant S_ .f32 0x3F800000#32),
    unary main_cst_0 main_v10 (broadcastInDim S4x16x1024x1024 ![] bcast_S_S4x16x1024x1024 : (⟨S_, .f32⟩ : BufTy).Contents (Elt F) → (⟨S4x16x1024x1024, .f32⟩ : BufTy).Contents (Elt F)),
    binary main_v9 main_v10 main_v11 (Host.divf : (⟨S4x16x1024x1024, .f32⟩ : BufTy).Contents (Elt F) → (⟨S4x16x1024x1024, .f32⟩ : BufTy).Contents (Elt F) → (⟨S4x16x1024x1024, .f32⟩ : BufTy).Contents (Elt F)),
    nullary main_cst_1 (constant S_ .f32 0x3F800000#32),
    unary main_cst_1 main_v12 (broadcastInDim S4x16x1024x1024 ![] bcast_S_S4x16x1024x1024 : (⟨S_, .f32⟩ : BufTy).Contents (Elt F) → (⟨S4x16x1024x1024, .f32⟩ : BufTy).Contents (Elt F)),
    binary main_v12 main_v11 main_v13 (addf : (⟨S4x16x1024x1024, .f32⟩ : BufTy).Contents (Elt F) → (⟨S4x16x1024x1024, .f32⟩ : BufTy).Contents (Elt F) → (⟨S4x16x1024x1024, .f32⟩ : BufTy).Contents (Elt F)),
    binary main_v2 main_arg4 main_v14 ((fun l r => Host.dotGeneral dot_S4x16x1024x64_S2047x64_S4x16x1024x2047_3_1_012_0_n_n none l r) : (⟨S4x16x1024x64, .f32⟩ : BufTy).Contents (Elt F) → (⟨S2047x64, .f32⟩ : BufTy).Contents (Elt F) → (⟨S4x16x1024x2047, .f32⟩ : BufTy).Contents (Elt F)),
    nullary main_v15 (iotaInDim S1024 32 0),
    unary main_v15 main_v16 (broadcastInDim S1024x1 ![0] bcast_S1024_S1024x1_0 : (⟨S1024, .i32⟩ : BufTy).Contents (Elt F) → (⟨S1024x1, .i32⟩ : BufTy).Contents (Elt F)),
    unary main_v15 main_v17 (broadcastInDim S1x1024 ![1] bcast_S1024_S1x1024_1 : (⟨S1024, .i32⟩ : BufTy).Contents (Elt F) → (⟨S1x1024, .i32⟩ : BufTy).Contents (Elt F)),
    unary main_v16 main_v18 (broadcastInDim S1024x1024 ![0, 1] bcast_S1024x1_S1024x1024_0_1 : (⟨S1024x1, .i32⟩ : BufTy).Contents (Elt F) → (⟨S1024x1024, .i32⟩ : BufTy).Contents (Elt F)),
    unary main_v17 main_v19 (broadcastInDim S1024x1024 ![0, 1] bcast_S1x1024_S1024x1024_0_1 : (⟨S1x1024, .i32⟩ : BufTy).Contents (Elt F) → (⟨S1024x1024, .i32⟩ : BufTy).Contents (Elt F)),
    binary main_v18 main_v19 main_v20 (subi : (⟨S1024x1024, .i32⟩ : BufTy).Contents (Elt F) → (⟨S1024x1024, .i32⟩ : BufTy).Contents (Elt F) → (⟨S1024x1024, .i32⟩ : BufTy).Contents (Elt F)),
    nullary main_c (constantI S_ 32 1023#32),
    unary main_c main_v21 (broadcastInDim S1024x1024 ![] bcast_S_S1024x1024 : (⟨S_, .i32⟩ : BufTy).Contents (Elt F) → (⟨S1024x1024, .i32⟩ : BufTy).Contents (Elt F)),
    binary main_v20 main_v21 main_v22 (addi : (⟨S1024x1024, .i32⟩ : BufTy).Contents (Elt F) → (⟨S1024x1024, .i32⟩ : BufTy).Contents (Elt F) → (⟨S1024x1024, .i32⟩ : BufTy).Contents (Elt F)),
    unary main_v22 main_v23 (broadcastInDim S4x16x1024x1024 ![2, 3] bcast_S1024x1024_S4x16x1024x1024_2_3 : (⟨S1024x1024, .i32⟩ : BufTy).Contents (Elt F) → (⟨S4x16x1024x1024, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4x16x1024x1024, .i32⟩) main_call2_v0) (broadcastInDim S4x16x1024x1024 ![] bcast_S_S4x16x1024x1024),
    TRef.binary (TRef.of (T := ⟨S4x16x1024x1024, .i32⟩) main_v23) (TRef.of (T := ⟨S4x16x1024x1024, .i32⟩) main_call2_v0) (TRef.of (T := ⟨S4x16x1024x1024, .i1⟩) main_call2_v1) (cmpi .slt),
    TRef.nullary (TRef.of (T := ⟨S_, .i32⟩) main_call2_c_0) (constantI S_ 32 2047#32),
    TRef.unary (TRef.of (T := ⟨S_, .i32⟩) main_call2_c_0) (TRef.of (T := ⟨S4x16x1024x1024, .i32⟩) main_call2_v2) (broadcastInDim S4x16x1024x1024 ![] bcast_S_S4x16x1024x1024),
    TRef.binary (TRef.of (T := ⟨S4x16x1024x1024, .i32⟩) main_v23) (TRef.of (T := ⟨S4x16x1024x1024, .i32⟩) main_call2_v2) (TRef.of (T := ⟨S4x16x1024x1024, .i32⟩) main_call2_v3) addi,
    TRef.ternary (TRef.of (T := ⟨S4x16x1024x1024, .i1⟩) main_call2_v1) (TRef.of (T := ⟨S4x16x1024x1024, .i32⟩) main_call2_v3) (TRef.of (T := ⟨S4x16x1024x1024, .i32⟩) main_v23) (TRef.of (T := ⟨S4x16x1024x1024, .i32⟩) main_call2_v4) select,
    TRef.reshape (TRef.of (T := ⟨S4x16x1024x1024, .i32⟩) main_call2_v4) (TRef.of (T := ⟨S4x16x1024x1024x1, .i32⟩) main_call2_v5) rfl shapeCasts_S4x16x1024x1024_S4x16x1024x1024x1,
    TRef.nullary (TRef.of (T := ⟨S1, .i32⟩) main_call2_c_1) (constantI S1 32 2046#32),
    TRef.nullary (TRef.of (T := ⟨S_, .i32⟩) main_call2_c_2) (constantI S_ 32 0#32),
    TRef.unary (TRef.of (T := ⟨S_, .i32⟩) main_call2_c_2) (TRef.of (T := ⟨S4x16x1024x1024x1, .i32⟩) main_call2_v6) (broadcastInDim S4x16x1024x1024x1 ![] bcast_S_S4x16x1024x1024x1),
    TRef.binary (TRef.of (T := ⟨S4x16x1024x1024x1, .i32⟩) main_call2_v5) (TRef.of (T := ⟨S4x16x1024x1024x1, .i32⟩) main_call2_v6) (TRef.of (T := ⟨S4x16x1024x1024x1, .i1⟩) main_call2_v7) (cmpi .sge),
    TRef.unary (TRef.of (T := ⟨S1, .i32⟩) main_call2_c_1) (TRef.of (T := ⟨S1x1x1x1x1, .i32⟩) main_call2_v8) (broadcastInDim S1x1x1x1x1 ![4] bcast_S1_S1x1x1x1x1_4),
    TRef.unary (TRef.of (T := ⟨S1x1x1x1x1, .i32⟩) main_call2_v8) (TRef.of (T := ⟨S4x16x1024x1024x1, .i32⟩) main_call2_v9) (broadcastInDim S4x16x1024x1024x1 ![0, 1, 2, 3, 4] bcast_S1x1x1x1x1_S4x16x1024x1024x1_0_1_2_3_4),
    TRef.binary (TRef.of (T := ⟨S4x16x1024x1024x1, .i32⟩) main_call2_v5) (TRef.of (T := ⟨S4x16x1024x1024x1, .i32⟩) main_call2_v9) (TRef.of (T := ⟨S4x16x1024x1024x1, .i1⟩) main_call2_v10) (cmpi .sle),
    TRef.binary (TRef.of (T := ⟨S4x16x1024x1024x1, .i1⟩) main_call2_v7) (TRef.of (T := ⟨S4x16x1024x1024x1, .i1⟩) main_call2_v10) (TRef.of (T := ⟨S4x16x1024x1024x1, .i1⟩) main_call2_v11) andi,
    TRef.nullary (TRef.of (T := ⟨S_, .i1⟩) main_call2_c_3) (constantI S_ 1 1#1),
    TRef.binary (TRef.of (T := ⟨S4x16x1024x1024x1, .i1⟩) main_call2_v11) (TRef.of (T := ⟨S_, .i1⟩) main_call2_c_3) (TRef.of (T := ⟨S4x16x1024x1024, .i1⟩) main_call2_v12) (fun x v => Host.reduce IntOp.andi x v reducesTo_S4x16x1024x1024x1_S4x16x1024x1024_d4 h_S_),
    TRef.binary (TRef.of (T := ⟨S4x16x1024x2047, .f32⟩) main_v14) (TRef.of (T := ⟨S4x16x1024x1024x1, .i32⟩) main_call2_v5) (TRef.of (T := ⟨S4x16x1024x1024, .f32⟩) main_call2_v13) (fun x i => Host.gather gather_S4x16x1024x2047_S4x16x1024x1024x1_S4x16x1024x1024_n_3_012_012_3_4_1111 x i),
    TRef.nullary (TRef.of (T := ⟨S_, .f32⟩) main_call2_cst) (constant S_ .f32 0x7FC00000#32),
    TRef.unary (TRef.of (T := ⟨S_, .f32⟩) main_call2_cst) (TRef.of (T := ⟨S4x16x1024x1024, .f32⟩) main_call2_v14) (broadcastInDim S4x16x1024x1024 ![] bcast_S_S4x16x1024x1024),
    TRef.ternary (TRef.of (T := ⟨S4x16x1024x1024, .i1⟩) main_call2_v12) (TRef.of (T := ⟨S4x16x1024x1024, .f32⟩) main_call2_v13) (TRef.of (T := ⟨S4x16x1024x1024, .f32⟩) main_call2_v14) (TRef.of (T := ⟨S4x16x1024x1024, .f32⟩) main_v24) select,
    nullary main_cst_2 (constant S_ .f32 0x3F800000#32),
    unary main_cst_2 main_v25 (broadcastInDim S4x16x1024x1024 ![] bcast_S_S4x16x1024x1024 : (⟨S_, .f32⟩ : BufTy).Contents (Elt F) → (⟨S4x16x1024x1024, .f32⟩ : BufTy).Contents (Elt F)),
    binary main_v24 main_v25 main_v26 (Host.divf : (⟨S4x16x1024x1024, .f32⟩ : BufTy).Contents (Elt F) → (⟨S4x16x1024x1024, .f32⟩ : BufTy).Contents (Elt F) → (⟨S4x16x1024x1024, .f32⟩ : BufTy).Contents (Elt F)),
    binary main_v13 main_v26 main_v27 (addf : (⟨S4x16x1024x1024, .f32⟩ : BufTy).Contents (Elt F) → (⟨S4x16x1024x1024, .f32⟩ : BufTy).Contents (Elt F) → (⟨S4x16x1024x1024, .f32⟩ : BufTy).Contents (Elt F)),
    unary main_v15 main_v28 (broadcastInDim S1024x1 ![0] bcast_S1024_S1024x1_0 : (⟨S1024, .i32⟩ : BufTy).Contents (Elt F) → (⟨S1024x1, .i32⟩ : BufTy).Contents (Elt F)),
    unary main_v15 main_v29 (broadcastInDim S1x1024 ![1] bcast_S1024_S1x1024_1 : (⟨S1024, .i32⟩ : BufTy).Contents (Elt F) → (⟨S1x1024, .i32⟩ : BufTy).Contents (Elt F)),
    unary main_v28 main_v30 (broadcastInDim S1024x1024 ![0, 1] bcast_S1024x1_S1024x1024_0_1 : (⟨S1024x1, .i32⟩ : BufTy).Contents (Elt F) → (⟨S1024x1024, .i32⟩ : BufTy).Contents (Elt F)),
    unary main_v29 main_v31 (broadcastInDim S1024x1024 ![0, 1] bcast_S1x1024_S1024x1024_0_1 : (⟨S1x1024, .i32⟩ : BufTy).Contents (Elt F) → (⟨S1024x1024, .i32⟩ : BufTy).Contents (Elt F)),
    binary main_v30 main_v31 main_v32 (cmpi .sge : (⟨S1024x1024, .i32⟩ : BufTy).Contents (Elt F) → (⟨S1024x1024, .i32⟩ : BufTy).Contents (Elt F) → (⟨S1024x1024, .i1⟩ : BufTy).Contents (Elt F)),
    unary main_v32 main_v33 (uitofp .f32 : (⟨S1024x1024, .i1⟩ : BufTy).Contents (Elt F) → (⟨S1024x1024, .f32⟩ : BufTy).Contents (Elt F)),
    unary main_v33 main_v34 (broadcastInDim S1x1x1024x1024 ![2, 3] bcast_S1024x1024_S1x1x1024x1024_2_3 : (⟨S1024x1024, .f32⟩ : BufTy).Contents (Elt F) → (⟨S1x1x1024x1024, .f32⟩ : BufTy).Contents (Elt F)),
    unary main_v34 main_v35 (broadcastInDim S4x16x1024x1024 ![0, 1, 2, 3] bcast_S1x1x1024x1024_S4x16x1024x1024_0_1_2_3 : (⟨S1x1x1024x1024, .f32⟩ : BufTy).Contents (Elt F) → (⟨S4x16x1024x1024, .f32⟩ : BufTy).Contents (Elt F)),
    binary main_v27 main_v35 main_v36 (mulf : (⟨S4x16x1024x1024, .f32⟩ : BufTy).Contents (Elt F) → (⟨S4x16x1024x1024, .f32⟩ : BufTy).Contents (Elt F) → (⟨S4x16x1024x1024, .f32⟩ : BufTy).Contents (Elt F)),
    nullary main_cst_3 (constant S_ .f32 0x00000000#32),
    binary main_v36 main_cst_3 main_v37 ((fun x v => Host.reduceAdd x v reducesTo_S4x16x1024x1024_S4x16x1024_d3 h_S_) : (⟨S4x16x1024x1024, .f32⟩ : BufTy).Contents (Elt F) → (⟨S_, .f32⟩ : BufTy).Contents (Elt F) → (⟨S4x16x1024, .f32⟩ : BufTy).Contents (Elt F)),
    unary main_v37 main_v38 (broadcastInDim S4x16x1024x1 ![0, 1, 2] bcast_S4x16x1024_S4x16x1024x1_0_1_2 : (⟨S4x16x1024, .f32⟩ : BufTy).Contents (Elt F) → (⟨S4x16x1024x1, .f32⟩ : BufTy).Contents (Elt F)),
    binary main_v36 main_v8 main_v39 ((fun l r => Host.dotGeneral dot_S4x16x1024x1024_S4x16x1024x64_S4x16x1024x64_3_2_2_3_01_01 none l r) : (⟨S4x16x1024x1024, .f32⟩ : BufTy).Contents (Elt F) → (⟨S4x16x1024x64, .f32⟩ : BufTy).Contents (Elt F) → (⟨S4x16x1024x64, .f32⟩ : BufTy).Contents (Elt F)),
    unary main_v38 main_v40 (broadcastInDim S4x16x1024x64 ![0, 1, 2, 3] bcast_S4x16x1024x1_S4x16x1024x64_0_1_2_3 : (⟨S4x16x1024x1, .f32⟩ : BufTy).Contents (Elt F) → (⟨S4x16x1024x64, .f32⟩ : BufTy).Contents (Elt F)),
    binary main_v39 main_v40 main_v41 (Host.divf : (⟨S4x16x1024x64, .f32⟩ : BufTy).Contents (Elt F) → (⟨S4x16x1024x64, .f32⟩ : BufTy).Contents (Elt F) → (⟨S4x16x1024x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., unary_bufs_sub .., binary_bufs_sub .., nullary_bufs_sub .., binary_bufs_sub .., unary_bufs_sub .., binary_bufs_sub .., unary_bufs_sub .., binary_bufs_sub ..⟩

/-- The buffer each operation writes, in program order. -/
def W : List (Ref sig .tc) :=
  [main_call0_v0, main_call0_cst, main_call0_v1, main_call0_v2, main_v0, main_v1, main_v2, main_call1_v0, main_call1_cst, main_call1_v1, main_call1_v2, main_v3, main_v4, main_v5, main_cst, main_v6, main_v7, main_v8, main_v9, main_cst_0, main_v10, main_v11, main_cst_1, main_v12, main_v13, main_v14, main_v15, main_v16, main_v17, main_v18, main_v19, main_v20, main_c, main_v21, main_v22, main_v23, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v24, main_cst_2, main_v25, main_v26, main_v27, main_v28, main_v29, main_v30, main_v31, main_v32, main_v33, main_v34, main_v35, main_v36, main_cst_3, main_v37, main_v38, main_v39, main_v40, main_v41]

/-- Each operation writes exactly the buffer named at its position. -/
theorem hW : Ssa.WritesOnly (ops (F := F)) W := by
  repeat' constructor

/-! A typed reference to a named buffer carries the buffer's own type (by computation), so contents pass through it
    unchanged, in both directions. -/

theorem ofBuf_main_arg0 (x : (⟨S4x16x1024x64, .f32⟩ : BufTy).Contents (Elt F)) :
    (TRef.of (T := ⟨S4x16x1024x64, .f32⟩) main_arg0).ofBuf (Val := Elt F) x = x := rfl
theorem ofBuf_main_arg1 (x : (⟨S4x16x1024x64, .f32⟩ : BufTy).Contents (Elt F)) :
    (TRef.of (T := ⟨S4x16x1024x64, .f32⟩) main_arg1).ofBuf (Val := Elt F) x = x := rfl
theorem ofBuf_main_call0_v0 (x : (⟨S4x16x1024x64, .f32⟩ : BufTy).Contents (Elt F)) :
    (TRef.of (T := ⟨S4x16x1024x64, .f32⟩) main_call0_v0).ofBuf (Val := Elt F) x = x := rfl
theorem toBuf_main_call0_v0 (x : (⟨S4x16x1024x64, .f32⟩ : BufTy).Contents (Elt F)) :
    (TRef.of (T := ⟨S4x16x1024x64, .f32⟩) main_call0_v0).toBuf (Val := Elt F) x = x := rfl
theorem ofBuf_main_call0_cst (x : (⟨S_, .f32⟩ : BufTy).Contents (Elt F)) :
    (TRef.of (T := ⟨S_, .f32⟩) main_call0_cst).ofBuf (Val := Elt F) x = x := rfl
theorem toBuf_main_call0_cst (x : (⟨S_, .f32⟩ : BufTy).Contents (Elt F)) :
    (TRef.of (T := ⟨S_, .f32⟩) main_call0_cst).toBuf (Val := Elt F) x = x := rfl
theorem ofBuf_main_call0_v1 (x : (⟨S4x16x1024, .f32⟩ : BufTy).Contents (Elt F)) :
    (TRef.of (T := ⟨S4x16x1024, .f32⟩) main_call0_v1).ofBuf (Val := Elt F) x = x := rfl
theorem toBuf_main_call0_v1 (x : (⟨S4x16x1024, .f32⟩ : BufTy).Contents (Elt F)) :
    (TRef.of (T := ⟨S4x16x1024, .f32⟩) main_call0_v1).toBuf (Val := Elt F) x = x := rfl
theorem ofBuf_main_call0_v2 (x : (⟨S4x16x1024x1, .f32⟩ : BufTy).Contents (Elt F)) :
    (TRef.of (T := ⟨S4x16x1024x1, .f32⟩) main_call0_v2).ofBuf (Val := Elt F) x = x := rfl
theorem toBuf_main_call0_v2 (x : (⟨S4x16x1024x1, .f32⟩ : BufTy).Contents (Elt F)) :
    (TRef.of (T := ⟨S4x16x1024x1, .f32⟩) main_call0_v2).toBuf (Val := Elt F) x = x := rfl
theorem toBuf_main_v0 (x : (⟨S4x16x1024x1, .f32⟩ : BufTy).Contents (Elt F)) :
    (TRef.of (T := ⟨S4x16x1024x1, .f32⟩) main_v0).toBuf (Val := Elt F) x = x := rfl
theorem ofBuf_main_call1_v0 (x : (⟨S4x16x1024x64, .f32⟩ : BufTy).Contents (Elt F)) :
    (TRef.of (T := ⟨S4x16x1024x64, .f32⟩) main_call1_v0).ofBuf (Val := Elt F) x = x := rfl
theorem toBuf_main_call1_v0 (x : (⟨S4x16x1024x64, .f32⟩ : BufTy).Contents (Elt F)) :
    (TRef.of (T := ⟨S4x16x1024x64, .f32⟩) main_call1_v0).toBuf (Val := Elt F) x = x := rfl
theorem ofBuf_main_call1_cst (x : (⟨S_, .f32⟩ : BufTy).Contents (Elt F)) :
    (TRef.of (T := ⟨S_, .f32⟩) main_call1_cst).ofBuf (Val := Elt F) x = x := rfl
theorem toBuf_main_call1_cst (x : (⟨S_, .f32⟩ : BufTy).Contents (Elt F)) :
    (TRef.of (T := ⟨S_, .f32⟩) main_call1_cst).toBuf (Val := Elt F) x = x := rfl
theorem ofBuf_main_call1_v1 (x : (⟨S4x16x1024, .f32⟩ : BufTy).Contents (Elt F)) :
    (TRef.of (T := ⟨S4x16x1024, .f32⟩) main_call1_v1).ofBuf (Val := Elt F) x = x := rfl
theorem toBuf_main_call1_v1 (x : (⟨S4x16x1024, .f32⟩ : BufTy).Contents (Elt F)) :
    (TRef.of (T := ⟨S4x16x1024, .f32⟩) main_call1_v1).toBuf (Val := Elt F) x = x := rfl
theorem ofBuf_main_call1_v2 (x : (⟨S4x16x1024x1, .f32⟩ : BufTy).Contents (Elt F)) :
    (TRef.of (T := ⟨S4x16x1024x1, .f32⟩) main_call1_v2).ofBuf (Val := Elt F) x = x := rfl
theorem toBuf_main_call1_v2 (x : (⟨S4x16x1024x1, .f32⟩ : BufTy).Contents (Elt F)) :
    (TRef.of (T := ⟨S4x16x1024x1, .f32⟩) main_call1_v2).toBuf (Val := Elt F) x = x := rfl
theorem toBuf_main_v3 (x : (⟨S4x16x1024x1, .f32⟩ : BufTy).Contents (Elt F)) :
    (TRef.of (T := ⟨S4x16x1024x1, .f32⟩) main_v3).toBuf (Val := Elt F) x = x := rfl
theorem ofBuf_main_v14 (x : (⟨S4x16x1024x2047, .f32⟩ : BufTy).Contents (Elt F)) :
    (TRef.of (T := ⟨S4x16x1024x2047, .f32⟩) main_v14).ofBuf (Val := Elt F) x = x := rfl
theorem ofBuf_main_v23 (x : (⟨S4x16x1024x1024, .i32⟩ : BufTy).Contents (Elt F)) :
    (TRef.of (T := ⟨S4x16x1024x1024, .i32⟩) main_v23).ofBuf (Val := Elt F) x = x := rfl
theorem ofBuf_main_call2_c (x : (⟨S_, .i32⟩ : BufTy).Contents (Elt F)) :
    (TRef.of (T := ⟨S_, .i32⟩) main_call2_c).ofBuf (Val := Elt F) x = x := rfl
theorem toBuf_main_call2_c (x : (⟨S_, .i32⟩ : BufTy).Contents (Elt F)) :
    (TRef.of (T := ⟨S_, .i32⟩) main_call2_c).toBuf (Val := Elt F) x = x := rfl
theorem ofBuf_main_call2_v0 (x : (⟨S4x16x1024x1024, .i32⟩ : BufTy).Contents (Elt F)) :
    (TRef.of (T := ⟨S4x16x1024x1024, .i32⟩) main_call2_v0).ofBuf (Val := Elt F) x = x := rfl
theorem toBuf_main_call2_v0 (x : (⟨S4x16x1024x1024, .i32⟩ : BufTy).Contents (Elt F)) :
    (TRef.of (T := ⟨S4x16x1024x1024, .i32⟩) main_call2_v0).toBuf (Val := Elt F) x = x := rfl
theorem ofBuf_main_call2_v1 (x : (⟨S4x16x1024x1024, .i1⟩ : BufTy).Contents (Elt F)) :
    (TRef.of (T := ⟨S4x16x1024x1024, .i1⟩) main_call2_v1).ofBuf (Val := Elt F) x = x := rfl
theorem toBuf_main_call2_v1 (x : (⟨S4x16x1024x1024, .i1⟩ : BufTy).Contents (Elt F)) :
    (TRef.of (T := ⟨S4x16x1024x1024, .i1⟩) main_call2_v1).toBuf (Val := Elt F) x = x := rfl
theorem ofBuf_main_call2_c_0 (x : (⟨S_, .i32⟩ : BufTy).Contents (Elt F)) :
    (TRef.of (T := ⟨S_, .i32⟩) main_call2_c_0).ofBuf (Val := Elt F) x = x := rfl
theorem toBuf_main_call2_c_0 (x : (⟨S_, .i32⟩ : BufTy).Contents (Elt F)) :
    (TRef.of (T := ⟨S_, .i32⟩) main_call2_c_0).toBuf (Val := Elt F) x = x := rfl
theorem ofBuf_main_call2_v2 (x : (⟨S4x16x1024x1024, .i32⟩ : BufTy).Contents (Elt F)) :
    (TRef.of (T := ⟨S4x16x1024x1024, .i32⟩) main_call2_v2).ofBuf (Val := Elt F) x = x := rfl
theorem toBuf_main_call2_v2 (x : (⟨S4x16x1024x1024, .i32⟩ : BufTy).Contents (Elt F)) :
    (TRef.of (T := ⟨S4x16x1024x1024, .i32⟩) main_call2_v2).toBuf (Val := Elt F) x = x := rfl
theorem ofBuf_main_call2_v3 (x : (⟨S4x16x1024x1024, .i32⟩ : BufTy).Contents (Elt F)) :
    (TRef.of (T := ⟨S4x16x1024x1024, .i32⟩) main_call2_v3).ofBuf (Val := Elt F) x = x := rfl
theorem toBuf_main_call2_v3 (x : (⟨S4x16x1024x1024, .i32⟩ : BufTy).Contents (Elt F)) :
    (TRef.of (T := ⟨S4x16x1024x1024, .i32⟩) main_call2_v3).toBuf (Val := Elt F) x = x := rfl
theorem toBuf_main_call2_v4 (x : (⟨S4x16x1024x1024, .i32⟩ : BufTy).Contents (Elt F)) :
    (TRef.of (T := ⟨S4x16x1024x1024, .i32⟩) main_call2_v4).toBuf (Val := Elt F) x = x := rfl
theorem ofBuf_main_call2_v5 (x : (⟨S4x16x1024x1024x1, .i32⟩ : BufTy).Contents (Elt F)) :
    (TRef.of (T := ⟨S4x16x1024x1024x1, .i32⟩) main_call2_v5).ofBuf (Val := Elt F) x = x := rfl
theorem ofBuf_main_call2_c_1 (x : (⟨S1, .i32⟩ : BufTy).Contents (Elt F)) :
    (TRef.of (T := ⟨S1, .i32⟩) main_call2_c_1).ofBuf (Val := Elt F) x = x := rfl
theorem toBuf_main_call2_c_1 (x : (⟨S1, .i32⟩ : BufTy).Contents (Elt F)) :
    (TRef.of (T := ⟨S1, .i32⟩) main_call2_c_1).toBuf (Val := Elt F) x = x := rfl
theorem ofBuf_main_call2_c_2 (x : (⟨S_, .i32⟩ : BufTy).Contents (Elt F)) :
    (TRef.of (T := ⟨S_, .i32⟩) main_call2_c_2).ofBuf (Val := Elt F) x = x := rfl
theorem toBuf_main_call2_c_2 (x : (⟨S_, .i32⟩ : BufTy).Contents (Elt F)) :
    (TRef.of (T := ⟨S_, .i32⟩) main_call2_c_2).toBuf (Val := Elt F) x = x := rfl
theorem ofBuf_main_call2_v6 (x : (⟨S4x16x1024x1024x1, .i32⟩ : BufTy).Contents (Elt F)) :
    (TRef.of (T := ⟨S4x16x1024x1024x1, .i32⟩) main_call2_v6).ofBuf (Val := Elt F) x = x := rfl
theorem toBuf_main_call2_v6 (x : (⟨S4x16x1024x1024x1, .i32⟩ : BufTy).Contents (Elt F)) :
    (TRef.of (T := ⟨S4x16x1024x1024x1, .i32⟩) main_call2_v6).toBuf (Val := Elt F) x = x := rfl
theorem ofBuf_main_call2_v7 (x : (⟨S4x16x1024x1024x1, .i1⟩ : BufTy).Contents (Elt F)) :
    (TRef.of (T := ⟨S4x16x1024x1024x1, .i1⟩) main_call2_v7).ofBuf (Val := Elt F) x = x := rfl
theorem toBuf_main_call2_v7 (x : (⟨S4x16x1024x1024x1, .i1⟩ : BufTy).Contents (Elt F)) :
    (TRef.of (T := ⟨S4x16x1024x1024x1, .i1⟩) main_call2_v7).toBuf (Val := Elt F) x = x := rfl
theorem ofBuf_main_call2_v8 (x : (⟨S1x1x1x1x1, .i32⟩ : BufTy).Contents (Elt F)) :
    (TRef.of (T := ⟨S1x1x1x1x1, .i32⟩) main_call2_v8).ofBuf (Val := Elt F) x = x := rfl
theorem toBuf_main_call2_v8 (x : (⟨S1x1x1x1x1, .i32⟩ : BufTy).Contents (Elt F)) :
    (TRef.of (T := ⟨S1x1x1x1x1, .i32⟩) main_call2_v8).toBuf (Val := Elt F) x = x := rfl
theorem ofBuf_main_call2_v9 (x : (⟨S4x16x1024x1024x1, .i32⟩ : BufTy).Contents (Elt F)) :
    (TRef.of (T := ⟨S4x16x1024x1024x1, .i32⟩) main_call2_v9).ofBuf (Val := Elt F) x = x := rfl
theorem toBuf_main_call2_v9 (x : (⟨S4x16x1024x1024x1, .i32⟩ : BufTy).Contents (Elt F)) :
    (TRef.of (T := ⟨S4x16x1024x1024x1, .i32⟩) main_call2_v9).toBuf (Val := Elt F) x = x := rfl
theorem ofBuf_main_call2_v10 (x : (⟨S4x16x1024x1024x1, .i1⟩ : BufTy).Contents (Elt F)) :
    (TRef.of (T := ⟨S4x16x1024x1024x1, .i1⟩) main_call2_v10).ofBuf (Val := Elt F) x = x := rfl
theorem toBuf_main_call2_v10 (x : (⟨S4x16x1024x1024x1, .i1⟩ : BufTy).Contents (Elt F)) :
    (TRef.of (T := ⟨S4x16x1024x1024x1, .i1⟩) main_call2_v10).toBuf (Val := Elt F) x = x := rfl
theorem ofBuf_main_call2_v11 (x : (⟨S4x16x1024x1024x1, .i1⟩ : BufTy).Contents (Elt F)) :
    (TRef.of (T := ⟨S4x16x1024x1024x1, .i1⟩) main_call2_v11).ofBuf (Val := Elt F) x = x := rfl
theorem toBuf_main_call2_v11 (x : (⟨S4x16x1024x1024x1, .i1⟩ : BufTy).Contents (Elt F)) :
    (TRef.of (T := ⟨S4x16x1024x1024x1, .i1⟩) main_call2_v11).toBuf (Val := Elt F) x = x := rfl
theorem ofBuf_main_call2_c_3 (x : (⟨S_, .i1⟩ : BufTy).Contents (Elt F)) :
    (TRef.of (T := ⟨S_, .i1⟩) main_call2_c_3).ofBuf (Val := Elt F) x = x := rfl
theorem toBuf_main_call2_c_3 (x : (⟨S_, .i1⟩ : BufTy).Contents (Elt F)) :
    (TRef.of (T := ⟨S_, .i1⟩) main_call2_c_3).toBuf (Val := Elt F) x = x := rfl
theorem ofBuf_main_call2_v12 (x : (⟨S4x16x1024x1024, .i1⟩ : BufTy).Contents (Elt F)) :
    (TRef.of (T := ⟨S4x16x1024x1024, .i1⟩) main_call2_v12).ofBuf (Val := Elt F) x = x := rfl
theorem toBuf_main_call2_v12 (x : (⟨S4x16x1024x1024, .i1⟩ : BufTy).Contents (Elt F)) :
    (TRef.of (T := ⟨S4x16x1024x1024, .i1⟩) main_call2_v12).toBuf (Val := Elt F) x = x := rfl
theorem ofBuf_main_call2_v13 (x : (⟨S4x16x1024x1024, .f32⟩ : BufTy).Contents (Elt F)) :
    (TRef.of (T := ⟨S4x16x1024x1024, .f32⟩) main_call2_v13).ofBuf (Val := Elt F) x = x := rfl
theorem toBuf_main_call2_v13 (x : (⟨S4x16x1024x1024, .f32⟩ : BufTy).Contents (Elt F)) :
    (TRef.of (T := ⟨S4x16x1024x1024, .f32⟩) main_call2_v13).toBuf (Val := Elt F) x = x := rfl
theorem ofBuf_main_call2_cst (x : (⟨S_, .f32⟩ : BufTy).Contents (Elt F)) :
    (TRef.of (T := ⟨S_, .f32⟩) main_call2_cst).ofBuf (Val := Elt F) x = x := rfl
theorem toBuf_main_call2_cst (x : (⟨S_, .f32⟩ : BufTy).Contents (Elt F)) :
    (TRef.of (T := ⟨S_, .f32⟩) main_call2_cst).toBuf (Val := Elt F) x = x := rfl
theorem ofBuf_main_call2_v14 (x : (⟨S4x16x1024x1024, .f32⟩ : BufTy).Contents (Elt F)) :
    (TRef.of (T := ⟨S4x16x1024x1024, .f32⟩) main_call2_v14).ofBuf (Val := Elt F) x = x := rfl
theorem toBuf_main_call2_v14 (x : (⟨S4x16x1024x1024, .f32⟩ : BufTy).Contents (Elt F)) :
    (TRef.of (T := ⟨S4x16x1024x1024, .f32⟩) main_call2_v14).toBuf (Val := Elt F) x = x := rfl
theorem toBuf_main_v24 (x : (⟨S4x16x1024x1024, .f32⟩ : BufTy).Contents (Elt F)) :
    (TRef.of (T := ⟨S4x16x1024x1024, .f32⟩) main_v24).toBuf (Val := Elt F) x = x := rfl

/-! Operation by operation, in program order: the buffer it writes ends at its stage function of the arguments' starting
    contents. Each is the operation's own equation (its function of the final contents of the buffers it reads), the
    equations already proved for those buffers (an argument keeps its starting contents), and the stage function's
    definition. -/

theorem st_main_call0_v0 (V : Valuation τ sig (Elt F)) :
    after ops V (Proc.devRef .tc main_call0_v0) = ReadP.val_main_call0_v0 (F := F) (V (Proc.devRef .tc main_arg0)) := by
  rw [Ssa.ssa_binary ops W hW V 0 main_arg0 main_arg0 main_call0_v0 _ _ _ _ rfl (by decide) (by decide) (by decide),
    Ssa.after_arg ops W hW V main_arg0 (by decide),
    toBuf_main_call0_v0,
    ofBuf_main_arg0]
  rfl

theorem st_main_call0_cst (V : Valuation τ sig (Elt F)) :
    after ops V (Proc.devRef .tc main_call0_cst) = ReadP.val_main_call0_cst (F := F) := by
  rw [Ssa.ssa_nullary ops W hW V 1 main_call0_cst _ _ rfl (by decide),
    toBuf_main_call0_cst]
  rfl

theorem st_main_call0_v1 (V : Valuation τ sig (Elt F)) :
    after ops V (Proc.devRef .tc main_call0_v1) = ReadP.val_main_call0_v1 (F := F) (V (Proc.devRef .tc main_arg0)) := by
  rw [Ssa.ssa_binary ops W hW V 2 main_call0_v0 main_call0_cst main_call0_v1 _ _ _ _ rfl (by decide) (by decide) (by decide),
    st_main_call0_v0,
    st_main_call0_cst,
    toBuf_main_call0_v1,
    ofBuf_main_call0_v0,
    ofBuf_main_call0_cst]
  rfl

theorem st_main_call0_v2 (V : Valuation τ sig (Elt F)) :
    after ops V (Proc.devRef .tc main_call0_v2) = ReadP.val_main_call0_v2 (F := F) (V (Proc.devRef .tc main_arg0)) := by
  rw [Ssa.ssa_unary ops W hW V 3 main_call0_v1 main_call0_v2 _ _ _ rfl (by decide) (by decide),
    st_main_call0_v1,
    toBuf_main_call0_v2,
    ofBuf_main_call0_v1]
  rfl

theorem st_main_v0 (V : Valuation τ sig (Elt F)) :
    after ops V (Proc.devRef .tc main_v0) = ReadP.val_main_v0 (F := F) (V (Proc.devRef .tc main_arg0)) := by
  rw [Ssa.ssa_unary ops W hW V 4 main_call0_v2 main_v0 _ _ _ rfl (by decide) (by decide),
    st_main_call0_v2,
    toBuf_main_v0,
    ofBuf_main_call0_v2]
  rfl

theorem st_main_v1 (V : Valuation τ sig (Elt F)) :
    after ops V (Proc.devRef .tc main_v1) = ReadP.val_main_v1 (F := F) (V (Proc.devRef .tc main_arg0)) := by
  rw [Ssa.ssa_unary ops W hW V 5 main_v0 main_v1 _ _ _ rfl (by decide) (by decide),
    st_main_v0]
  rfl

theorem st_main_v2 (V : Valuation τ sig (Elt F)) :
    after ops V (Proc.devRef .tc main_v2) = ReadP.val_main_v2 (F := F) (V (Proc.devRef .tc main_arg0)) := by
  rw [Ssa.ssa_binary ops W hW V 6 main_arg0 main_v1 main_v2 _ _ _ _ rfl (by decide) (by decide) (by decide),
    Ssa.after_arg ops W hW V main_arg0 (by decide),
    st_main_v1]
  rfl

theorem st_main_call1_v0 (V : Valuation τ sig (Elt F)) :
    after ops V (Proc.devRef .tc main_call1_v0) = ReadP.val_main_call1_v0 (F := F) (V (Proc.devRef .tc main_arg1)) := by
  rw [Ssa.ssa_binary ops W hW V 7 main_arg1 main_arg1 main_call1_v0 _ _ _ _ rfl (by decide) (by decide) (by decide),
    Ssa.after_arg ops W hW V main_arg1 (by decide),
    toBuf_main_call1_v0,
    ofBuf_main_arg1]
  rfl

theorem st_main_call1_cst (V : Valuation τ sig (Elt F)) :
    after ops V (Proc.devRef .tc main_call1_cst) = ReadP.val_main_call1_cst (F := F) := by
  rw [Ssa.ssa_nullary ops W hW V 8 main_call1_cst _ _ rfl (by decide),
    toBuf_main_call1_cst]
  rfl

theorem st_main_call1_v1 (V : Valuation τ sig (Elt F)) :
    after ops V (Proc.devRef .tc main_call1_v1) = ReadP.val_main_call1_v1 (F := F) (V (Proc.devRef .tc main_arg1)) := by
  rw [Ssa.ssa_binary ops W hW V 9 main_call1_v0 main_call1_cst main_call1_v1 _ _ _ _ rfl (by decide) (by decide) (by decide),
    st_main_call1_v0,
    st_main_call1_cst,
    toBuf_main_call1_v1,
    ofBuf_main_call1_v0,
    ofBuf_main_call1_cst]
  rfl

theorem st_main_call1_v2 (V : Valuation τ sig (Elt F)) :
    after ops V (Proc.devRef .tc main_call1_v2) = ReadP.val_main_call1_v2 (F := F) (V (Proc.devRef .tc main_arg1)) := by
  rw [Ssa.ssa_unary ops W hW V 10 main_call1_v1 main_call1_v2 _ _ _ rfl (by decide) (by decide),
    st_main_call1_v1,
    toBuf_main_call1_v2,
    ofBuf_main_call1_v1]
  rfl

theorem st_main_v3 (V : Valuation τ sig (Elt F)) :
    after ops V (Proc.devRef .tc main_v3) = ReadP.val_main_v3 (F := F) (V (Proc.devRef .tc main_arg1)) := by
  rw [Ssa.ssa_unary ops W hW V 11 main_call1_v2 main_v3 _ _ _ rfl (by decide) (by decide),
    st_main_call1_v2,
    toBuf_main_v3,
    ofBuf_main_call1_v2]
  rfl

theorem st_main_v4 (V : Valuation τ sig (Elt F)) :
    after ops V (Proc.devRef .tc main_v4) = ReadP.val_main_v4 (F := F) (V (Proc.devRef .tc main_arg1)) := by
  rw [Ssa.ssa_unary ops W hW V 12 main_v3 main_v4 _ _ _ rfl (by decide) (by decide),
    st_main_v3]
  rfl

theorem st_main_v5 (V : Valuation τ sig (Elt F)) :
    after ops V (Proc.devRef .tc main_v5) = ReadP.val_main_v5 (F := F) (V (Proc.devRef .tc main_arg1)) := by
  rw [Ssa.ssa_binary ops W hW V 13 main_arg1 main_v4 main_v5 _ _ _ _ rfl (by decide) (by decide) (by decide),
    Ssa.after_arg ops W hW V main_arg1 (by decide),
    st_main_v4]
  rfl

theorem st_main_cst (V : Valuation τ sig (Elt F)) :
    after ops V (Proc.devRef .tc main_cst) = ReadP.val_main_cst (F := F) := by
  rw [Ssa.ssa_nullary ops W hW V 14 main_cst _ _ rfl (by decide)]
  rfl

theorem st_main_v6 (V : Valuation τ sig (Elt F)) :
    after ops V (Proc.devRef .tc main_v6) = ReadP.val_main_v6 (F := F) := by
  rw [Ssa.ssa_unary ops W hW V 15 main_cst main_v6 _ _ _ rfl (by decide) (by decide),
    st_main_cst]
  rfl

theorem st_main_v7 (V : Valuation τ sig (Elt F)) :
    after ops V (Proc.devRef .tc main_v7) = ReadP.val_main_v7 (F := F) (V (Proc.devRef .tc main_arg3)) := by
  rw [Ssa.ssa_binary ops W hW V 16 main_v6 main_arg3 main_v7 _ _ _ _ rfl (by decide) (by decide) (by decide),
    st_main_v6,
    Ssa.after_arg ops W hW V main_arg3 (by decide)]
  rfl

theorem st_main_v8 (V : Valuation τ sig (Elt F)) :
    after ops V (Proc.devRef .tc main_v8) = ReadP.val_main_v8 (F := F) (V (Proc.devRef .tc main_arg2)) (V (Proc.devRef .tc main_arg3)) := by
  rw [Ssa.ssa_binary ops W hW V 17 main_arg2 main_v7 main_v8 _ _ _ _ rfl (by decide) (by decide) (by decide),
    Ssa.after_arg ops W hW V main_arg2 (by decide),
    st_main_v7]
  rfl

theorem st_main_v9 (V : Valuation τ sig (Elt F)) :
    after ops V (Proc.devRef .tc main_v9) = ReadP.val_main_v9 (F := F) (V (Proc.devRef .tc main_arg0)) (V (Proc.devRef .tc main_arg1)) := by
  rw [Ssa.ssa_binary ops W hW V 18 main_v2 main_v5 main_v9 _ _ _ _ rfl (by decide) (by decide) (by decide),
    st_main_v2,
    st_main_v5]
  rfl

theorem st_main_cst_0 (V : Valuation τ sig (Elt F)) :
    after ops V (Proc.devRef .tc main_cst_0) = ReadP.val_main_cst_0 (F := F) := by
  rw [Ssa.ssa_nullary ops W hW V 19 main_cst_0 _ _ rfl (by decide)]
  rfl

theorem st_main_v10 (V : Valuation τ sig (Elt F)) :
    after ops V (Proc.devRef .tc main_v10) = ReadP.val_main_v10 (F := F) := by
  rw [Ssa.ssa_unary ops W hW V 20 main_cst_0 main_v10 _ _ _ rfl (by decide) (by decide),
    st_main_cst_0]
  rfl

theorem st_main_v11 (V : Valuation τ sig (Elt F)) :
    after ops V (Proc.devRef .tc main_v11) = ReadP.val_main_v11 (F := F) (V (Proc.devRef .tc main_arg0)) (V (Proc.devRef .tc main_arg1)) := by
  rw [Ssa.ssa_binary ops W hW V 21 main_v9 main_v10 main_v11 _ _ _ _ rfl (by decide) (by decide) (by decide),
    st_main_v9,
    st_main_v10]
  rfl

theorem st_main_cst_1 (V : Valuation τ sig (Elt F)) :
    after ops V (Proc.devRef .tc main_cst_1) = ReadP.val_main_cst_1 (F := F) := by
  rw [Ssa.ssa_nullary ops W hW V 22 main_cst_1 _ _ rfl (by decide)]
  rfl

theorem st_main_v12 (V : Valuation τ sig (Elt F)) :
    after ops V (Proc.devRef .tc main_v12) = ReadP.val_main_v12 (F := F) := by
  rw [Ssa.ssa_unary ops W hW V 23 main_cst_1 main_v12 _ _ _ rfl (by decide) (by decide),
    st_main_cst_1]
  rfl

theorem st_main_v13 (V : Valuation τ sig (Elt F)) :
    after ops V (Proc.devRef .tc main_v13) = ReadP.val_main_v13 (F := F) (V (Proc.devRef .tc main_arg0)) (V (Proc.devRef .tc main_arg1)) := by
  rw [Ssa.ssa_binary ops W hW V 24 main_v12 main_v11 main_v13 _ _ _ _ rfl (by decide) (by decide) (by decide),
    st_main_v12,
    st_main_v11]
  rfl

theorem st_main_v14 (V : Valuation τ sig (Elt F)) :
    after ops V (Proc.devRef .tc main_v14) = ReadP.val_main_v14 (F := F) (V (Proc.devRef .tc main_arg0)) (V (Proc.devRef .tc main_arg4)) := by
  rw [Ssa.ssa_binary ops W hW V 25 main_v2 main_arg4 main_v14 _ _ _ _ rfl (by decide) (by decide) (by decide),
    st_main_v2,
    Ssa.after_arg ops W hW V main_arg4 (by decide)]
  rfl

theorem st_main_v15 (V : Valuation τ sig (Elt F)) :
    after ops V (Proc.devRef .tc main_v15) = ReadP.val_main_v15 (F := F) := by
  rw [Ssa.ssa_nullary ops W hW V 26 main_v15 _ _ rfl (by decide)]
  rfl

theorem st_main_v16 (V : Valuation τ sig (Elt F)) :
    after ops V (Proc.devRef .tc main_v16) = ReadP.val_main_v16 (F := F) := by
  rw [Ssa.ssa_unary ops W hW V 27 main_v15 main_v16 _ _ _ rfl (by decide) (by decide),
    st_main_v15]
  rfl

theorem st_main_v17 (V : Valuation τ sig (Elt F)) :
    after ops V (Proc.devRef .tc main_v17) = ReadP.val_main_v17 (F := F) := by
  rw [Ssa.ssa_unary ops W hW V 28 main_v15 main_v17 _ _ _ rfl (by decide) (by decide),
    st_main_v15]
  rfl

theorem st_main_v18 (V : Valuation τ sig (Elt F)) :
    after ops V (Proc.devRef .tc main_v18) = ReadP.val_main_v18 (F := F) := by
  rw [Ssa.ssa_unary ops W hW V 29 main_v16 main_v18 _ _ _ rfl (by decide) (by decide),
    st_main_v16]
  rfl

theorem st_main_v19 (V : Valuation τ sig (Elt F)) :
    after ops V (Proc.devRef .tc main_v19) = ReadP.val_main_v19 (F := F) := by
  rw [Ssa.ssa_unary ops W hW V 30 main_v17 main_v19 _ _ _ rfl (by decide) (by decide),
    st_main_v17]
  rfl

theorem st_main_v20 (V : Valuation τ sig (Elt F)) :
    after ops V (Proc.devRef .tc main_v20) = ReadP.val_main_v20 (F := F) := by
  rw [Ssa.ssa_binary ops W hW V 31 main_v18 main_v19 main_v20 _ _ _ _ rfl (by decide) (by decide) (by decide),
    st_main_v18,
    st_main_v19]
  rfl

theorem st_main_c (V : Valuation τ sig (Elt F)) :
    after ops V (Proc.devRef .tc main_c) = ReadP.val_main_c (F := F) := by
  rw [Ssa.ssa_nullary ops W hW V 32 main_c _ _ rfl (by decide)]
  rfl

theorem st_main_v21 (V : Valuation τ sig (Elt F)) :
    after ops V (Proc.devRef .tc main_v21) = ReadP.val_main_v21 (F := F) := by
  rw [Ssa.ssa_unary ops W hW V 33 main_c main_v21 _ _ _ rfl (by decide) (by decide),
    st_main_c]
  rfl

theorem st_main_v22 (V : Valuation τ sig (Elt F)) :
    after ops V (Proc.devRef .tc main_v22) = ReadP.val_main_v22 (F := F) := by
  rw [Ssa.ssa_binary ops W hW V 34 main_v20 main_v21 main_v22 _ _ _ _ rfl (by decide) (by decide) (by decide),
    st_main_v20,
    st_main_v21]
  rfl

theorem st_main_v23 (V : Valuation τ sig (Elt F)) :
    after ops V (Proc.devRef .tc main_v23) = ReadP.val_main_v23 (F := F) := by
  rw [Ssa.ssa_unary ops W hW V 35 main_v22 main_v23 _ _ _ rfl (by decide) (by decide),
    st_main_v22]
  rfl

theorem st_main_call2_c (V : Valuation τ sig (Elt F)) :
    after ops V (Proc.devRef .tc main_call2_c) = ReadP.val_main_call2_c (F := F) := by
  rw [Ssa.ssa_nullary ops W hW V 36 main_call2_c _ _ rfl (by decide),
    toBuf_main_call2_c]
  rfl

theorem st_main_call2_v0 (V : Valuation τ sig (Elt F)) :
    after ops V (Proc.devRef .tc main_call2_v0) = ReadP.val_main_call2_v0 (F := F) := by
  rw [Ssa.ssa_unary ops W hW V 37 main_call2_c main_call2_v0 _ _ _ rfl (by decide) (by decide),
    st_main_call2_c,
    toBuf_main_call2_v0,
    ofBuf_main_call2_c]
  rfl

theorem st_main_call2_v1 (V : Valuation τ sig (Elt F)) :
    after ops V (Proc.devRef .tc main_call2_v1) = ReadP.val_main_call2_v1 (F := F) := by
  rw [Ssa.ssa_binary ops W hW V 38 main_v23 main_call2_v0 main_call2_v1 _ _ _ _ rfl (by decide) (by decide) (by decide),
    st_main_v23,
    st_main_call2_v0,
    toBuf_main_call2_v1,
    ofBuf_main_v23,
    ofBuf_main_call2_v0]
  rfl

theorem st_main_call2_c_0 (V : Valuation τ sig (Elt F)) :
    after ops V (Proc.devRef .tc main_call2_c_0) = ReadP.val_main_call2_c_0 (F := F) := by
  rw [Ssa.ssa_nullary ops W hW V 39 main_call2_c_0 _ _ rfl (by decide),
    toBuf_main_call2_c_0]
  rfl

theorem st_main_call2_v2 (V : Valuation τ sig (Elt F)) :
    after ops V (Proc.devRef .tc main_call2_v2) = ReadP.val_main_call2_v2 (F := F) := by
  rw [Ssa.ssa_unary ops W hW V 40 main_call2_c_0 main_call2_v2 _ _ _ rfl (by decide) (by decide),
    st_main_call2_c_0,
    toBuf_main_call2_v2,
    ofBuf_main_call2_c_0]
  rfl

theorem st_main_call2_v3 (V : Valuation τ sig (Elt F)) :
    after ops V (Proc.devRef .tc main_call2_v3) = ReadP.val_main_call2_v3 (F := F) := by
  rw [Ssa.ssa_binary ops W hW V 41 main_v23 main_call2_v2 main_call2_v3 _ _ _ _ rfl (by decide) (by decide) (by decide),
    st_main_v23,
    st_main_call2_v2,
    toBuf_main_call2_v3,
    ofBuf_main_v23,
    ofBuf_main_call2_v2]
  rfl

theorem st_main_call2_v4 (V : Valuation τ sig (Elt F)) :
    after ops V (Proc.devRef .tc main_call2_v4) = ReadP.val_main_call2_v4 (F := F) := by
  rw [Ssa.ssa_ternary ops W hW V 42 main_call2_v1 main_call2_v3 main_v23 main_call2_v4 _ _ _ _ _ rfl (by decide) (by decide) (by decide) (by decide),
    st_main_call2_v1,
    st_main_call2_v3,
    st_main_v23,
    toBuf_main_call2_v4,
    ofBuf_main_call2_v1,
    ofBuf_main_call2_v3,
    ofBuf_main_v23]
  rfl

theorem st_main_call2_v5 (V : Valuation τ sig (Elt F)) :
    after ops V (Proc.devRef .tc main_call2_v5) = ReadP.val_main_call2_v5 (F := F) := by
  rw [Ssa.ssa_reshape ops W hW V 43 main_call2_v4 main_call2_v5 _ _ _ _ rfl (by decide) (by decide),
    st_main_call2_v4]
  rfl

theorem st_main_call2_c_1 (V : Valuation τ sig (Elt F)) :
    after ops V (Proc.devRef .tc main_call2_c_1) = ReadP.val_main_call2_c_1 (F := F) := by
  rw [Ssa.ssa_nullary ops W hW V 44 main_call2_c_1 _ _ rfl (by decide),
    toBuf_main_call2_c_1]
  rfl

theorem st_main_call2_c_2 (V : Valuation τ sig (Elt F)) :
    after ops V (Proc.devRef .tc main_call2_c_2) = ReadP.val_main_call2_c_2 (F := F) := by
  rw [Ssa.ssa_nullary ops W hW V 45 main_call2_c_2 _ _ rfl (by decide),
    toBuf_main_call2_c_2]
  rfl

theorem st_main_call2_v6 (V : Valuation τ sig (Elt F)) :
    after ops V (Proc.devRef .tc main_call2_v6) = ReadP.val_main_call2_v6 (F := F) := by
  rw [Ssa.ssa_unary ops W hW V 46 main_call2_c_2 main_call2_v6 _ _ _ rfl (by decide) (by decide),
    st_main_call2_c_2,
    toBuf_main_call2_v6,
    ofBuf_main_call2_c_2]
  rfl

theorem st_main_call2_v7 (V : Valuation τ sig (Elt F)) :
    after ops V (Proc.devRef .tc main_call2_v7) = ReadP.val_main_call2_v7 (F := F) := by
  rw [Ssa.ssa_binary ops W hW V 47 main_call2_v5 main_call2_v6 main_call2_v7 _ _ _ _ rfl (by decide) (by decide) (by decide),
    st_main_call2_v5,
    st_main_call2_v6,
    toBuf_main_call2_v7,
    ofBuf_main_call2_v5,
    ofBuf_main_call2_v6]
  rfl

theorem st_main_call2_v8 (V : Valuation τ sig (Elt F)) :
    after ops V (Proc.devRef .tc main_call2_v8) = ReadP.val_main_call2_v8 (F := F) := by
  rw [Ssa.ssa_unary ops W hW V 48 main_call2_c_1 main_call2_v8 _ _ _ rfl (by decide) (by decide),
    st_main_call2_c_1,
    toBuf_main_call2_v8,
    ofBuf_main_call2_c_1]
  rfl

theorem st_main_call2_v9 (V : Valuation τ sig (Elt F)) :
    after ops V (Proc.devRef .tc main_call2_v9) = ReadP.val_main_call2_v9 (F := F) := by
  rw [Ssa.ssa_unary ops W hW V 49 main_call2_v8 main_call2_v9 _ _ _ rfl (by decide) (by decide),
    st_main_call2_v8,
    toBuf_main_call2_v9,
    ofBuf_main_call2_v8]
  rfl

theorem st_main_call2_v10 (V : Valuation τ sig (Elt F)) :
    after ops V (Proc.devRef .tc main_call2_v10) = ReadP.val_main_call2_v10 (F := F) := by
  rw [Ssa.ssa_binary ops W hW V 50 main_call2_v5 main_call2_v9 main_call2_v10 _ _ _ _ rfl (by decide) (by decide) (by decide),
    st_main_call2_v5,
    st_main_call2_v9,
    toBuf_main_call2_v10,
    ofBuf_main_call2_v5,
    ofBuf_main_call2_v9]
  rfl

theorem st_main_call2_v11 (V : Valuation τ sig (Elt F)) :
    after ops V (Proc.devRef .tc main_call2_v11) = ReadP.val_main_call2_v11 (F := F) := by
  rw [Ssa.ssa_binary ops W hW V 51 main_call2_v7 main_call2_v10 main_call2_v11 _ _ _ _ rfl (by decide) (by decide) (by decide),
    st_main_call2_v7,
    st_main_call2_v10,
    toBuf_main_call2_v11,
    ofBuf_main_call2_v7,
    ofBuf_main_call2_v10]
  rfl

theorem st_main_call2_c_3 (V : Valuation τ sig (Elt F)) :
    after ops V (Proc.devRef .tc main_call2_c_3) = ReadP.val_main_call2_c_3 (F := F) := by
  rw [Ssa.ssa_nullary ops W hW V 52 main_call2_c_3 _ _ rfl (by decide),
    toBuf_main_call2_c_3]
  rfl

theorem st_main_call2_v12 (V : Valuation τ sig (Elt F)) :
    after ops V (Proc.devRef .tc main_call2_v12) = ReadP.val_main_call2_v12 (F := F) := by
  rw [Ssa.ssa_binary ops W hW V 53 main_call2_v11 main_call2_c_3 main_call2_v12 _ _ _ _ rfl (by decide) (by decide) (by decide),
    st_main_call2_v11,
    st_main_call2_c_3,
    toBuf_main_call2_v12,
    ofBuf_main_call2_v11,
    ofBuf_main_call2_c_3]
  rfl

theorem st_main_call2_v13 (V : Valuation τ sig (Elt F)) :
    after ops V (Proc.devRef .tc main_call2_v13) = ReadP.val_main_call2_v13 (F := F) (V (Proc.devRef .tc main_arg0)) (V (Proc.devRef .tc main_arg4)) := by
  rw [Ssa.ssa_binary ops W hW V 54 main_v14 main_call2_v5 main_call2_v13 _ _ _ _ rfl (by decide) (by decide) (by decide),
    st_main_v14,
    st_main_call2_v5,
    toBuf_main_call2_v13,
    ofBuf_main_v14,
    ofBuf_main_call2_v5]
  rfl

theorem st_main_call2_cst (V : Valuation τ sig (Elt F)) :
    after ops V (Proc.devRef .tc main_call2_cst) = ReadP.val_main_call2_cst (F := F) := by
  rw [Ssa.ssa_nullary ops W hW V 55 main_call2_cst _ _ rfl (by decide),
    toBuf_main_call2_cst]
  rfl

theorem st_main_call2_v14 (V : Valuation τ sig (Elt F)) :
    after ops V (Proc.devRef .tc main_call2_v14) = ReadP.val_main_call2_v14 (F := F) := by
  rw [Ssa.ssa_unary ops W hW V 56 main_call2_cst main_call2_v14 _ _ _ rfl (by decide) (by decide),
    st_main_call2_cst,
    toBuf_main_call2_v14,
    ofBuf_main_call2_cst]
  rfl

theorem st_main_v24 (V : Valuation τ sig (Elt F)) :
    after ops V (Proc.devRef .tc main_v24) = ReadP.val_main_v24 (F := F) (V (Proc.devRef .tc main_arg0)) (V (Proc.devRef .tc main_arg4)) := by
  rw [Ssa.ssa_ternary ops W hW V 57 main_call2_v12 main_call2_v13 main_call2_v14 main_v24 _ _ _ _ _ rfl (by decide) (by decide) (by decide) (by decide),
    st_main_call2_v12,
    st_main_call2_v13,
    st_main_call2_v14,
    toBuf_main_v24,
    ofBuf_main_call2_v12,
    ofBuf_main_call2_v13,
    ofBuf_main_call2_v14]
  rfl

theorem st_main_cst_2 (V : Valuation τ sig (Elt F)) :
    after ops V (Proc.devRef .tc main_cst_2) = ReadP.val_main_cst_2 (F := F) := by
  rw [Ssa.ssa_nullary ops W hW V 58 main_cst_2 _ _ rfl (by decide)]
  rfl

theorem st_main_v25 (V : Valuation τ sig (Elt F)) :
    after ops V (Proc.devRef .tc main_v25) = ReadP.val_main_v25 (F := F) := by
  rw [Ssa.ssa_unary ops W hW V 59 main_cst_2 main_v25 _ _ _ rfl (by decide) (by decide),
    st_main_cst_2]
  rfl

theorem st_main_v26 (V : Valuation τ sig (Elt F)) :
    after ops V (Proc.devRef .tc main_v26) = ReadP.val_main_v26 (F := F) (V (Proc.devRef .tc main_arg0)) (V (Proc.devRef .tc main_arg4)) := by
  rw [Ssa.ssa_binary ops W hW V 60 main_v24 main_v25 main_v26 _ _ _ _ rfl (by decide) (by decide) (by decide),
    st_main_v24,
    st_main_v25]
  rfl

theorem st_main_v27 (V : Valuation τ sig (Elt F)) :
    after ops V (Proc.devRef .tc main_v27) = ReadP.val_main_v27 (F := F) (V (Proc.devRef .tc main_arg0)) (V (Proc.devRef .tc main_arg1)) (V (Proc.devRef .tc main_arg4)) := by
  rw [Ssa.ssa_binary ops W hW V 61 main_v13 main_v26 main_v27 _ _ _ _ rfl (by decide) (by decide) (by decide),
    st_main_v13,
    st_main_v26]
  rfl

theorem st_main_v28 (V : Valuation τ sig (Elt F)) :
    after ops V (Proc.devRef .tc main_v28) = ReadP.val_main_v28 (F := F) := by
  rw [Ssa.ssa_unary ops W hW V 62 main_v15 main_v28 _ _ _ rfl (by decide) (by decide),
    st_main_v15]
  rfl

theorem st_main_v29 (V : Valuation τ sig (Elt F)) :
    after ops V (Proc.devRef .tc main_v29) = ReadP.val_main_v29 (F := F) := by
  rw [Ssa.ssa_unary ops W hW V 63 main_v15 main_v29 _ _ _ rfl (by decide) (by decide),
    st_main_v15]
  rfl

theorem st_main_v30 (V : Valuation τ sig (Elt F)) :
    after ops V (Proc.devRef .tc main_v30) = ReadP.val_main_v30 (F := F) := by
  rw [Ssa.ssa_unary ops W hW V 64 main_v28 main_v30 _ _ _ rfl (by decide) (by decide),
    st_main_v28]
  rfl

theorem st_main_v31 (V : Valuation τ sig (Elt F)) :
    after ops V (Proc.devRef .tc main_v31) = ReadP.val_main_v31 (F := F) := by
  rw [Ssa.ssa_unary ops W hW V 65 main_v29 main_v31 _ _ _ rfl (by decide) (by decide),
    st_main_v29]
  rfl

theorem st_main_v32 (V : Valuation τ sig (Elt F)) :
    after ops V (Proc.devRef .tc main_v32) = ReadP.val_main_v32 (F := F) := by
  rw [Ssa.ssa_binary ops W hW V 66 main_v30 main_v31 main_v32 _ _ _ _ rfl (by decide) (by decide) (by decide),
    st_main_v30,
    st_main_v31]
  rfl

theorem st_main_v33 (V : Valuation τ sig (Elt F)) :
    after ops V (Proc.devRef .tc main_v33) = ReadP.val_main_v33 (F := F) := by
  rw [Ssa.ssa_unary ops W hW V 67 main_v32 main_v33 _ _ _ rfl (by decide) (by decide),
    st_main_v32]
  rfl

theorem st_main_v34 (V : Valuation τ sig (Elt F)) :
    after ops V (Proc.devRef .tc main_v34) = ReadP.val_main_v34 (F := F) := by
  rw [Ssa.ssa_unary ops W hW V 68 main_v33 main_v34 _ _ _ rfl (by decide) (by decide),
    st_main_v33]
  rfl

theorem st_main_v35 (V : Valuation τ sig (Elt F)) :
    after ops V (Proc.devRef .tc main_v35) = ReadP.val_main_v35 (F := F) := by
  rw [Ssa.ssa_unary ops W hW V 69 main_v34 main_v35 _ _ _ rfl (by decide) (by decide),
    st_main_v34]
  rfl

theorem st_main_v36 (V : Valuation τ sig (Elt F)) :
    after ops V (Proc.devRef .tc main_v36) = ReadP.val_main_v36 (F := F) (V (Proc.devRef .tc main_arg0)) (V (Proc.devRef .tc main_arg1)) (V (Proc.devRef .tc main_arg4)) := by
  rw [Ssa.ssa_binary ops W hW V 70 main_v27 main_v35 main_v36 _ _ _ _ rfl (by decide) (by decide) (by decide),
    st_main_v27,
    st_main_v35]
  rfl

theorem st_main_cst_3 (V : Valuation τ sig (Elt F)) :
    after ops V (Proc.devRef .tc main_cst_3) = ReadP.val_main_cst_3 (F := F) := by
  rw [Ssa.ssa_nullary ops W hW V 71 main_cst_3 _ _ rfl (by decide)]
  rfl

theorem st_main_v37 (V : Valuation τ sig (Elt F)) :
    after ops V (Proc.devRef .tc main_v37) = ReadP.val_main_v37 (F := F) (V (Proc.devRef .tc main_arg0)) (V (Proc.devRef .tc main_arg1)) (V (Proc.devRef .tc main_arg4)) := by
  rw [Ssa.ssa_binary ops W hW V 72 main_v36 main_cst_3 main_v37 _ _ _ _ rfl (by decide) (by decide) (by decide),
    st_main_v36,
    st_main_cst_3]
  rfl

theorem st_main_v38 (V : Valuation τ sig (Elt F)) :
    after ops V (Proc.devRef .tc main_v38) = ReadP.val_main_v38 (F := F) (V (Proc.devRef .tc main_arg0)) (V (Proc.devRef .tc main_arg1)) (V (Proc.devRef .tc main_arg4)) := by
  rw [Ssa.ssa_unary ops W hW V 73 main_v37 main_v38 _ _ _ rfl (by decide) (by decide),
    st_main_v37]
  rfl

theorem st_main_v39 (V : Valuation τ sig (Elt F)) :
    after ops V (Proc.devRef .tc main_v39) = ReadP.val_main_v39 (F := F) (V (Proc.devRef .tc main_arg0)) (V (Proc.devRef .tc main_arg1)) (V (Proc.devRef .tc main_arg2)) (V (Proc.devRef .tc main_arg3)) (V (Proc.devRef .tc main_arg4)) := by
  rw [Ssa.ssa_binary ops W hW V 74 main_v36 main_v8 main_v39 _ _ _ _ rfl (by decide) (by decide) (by decide),
    st_main_v36,
    st_main_v8]
  rfl

theorem st_main_v40 (V : Valuation τ sig (Elt F)) :
    after ops V (Proc.devRef .tc main_v40) = ReadP.val_main_v40 (F := F) (V (Proc.devRef .tc main_arg0)) (V (Proc.devRef .tc main_arg1)) (V (Proc.devRef .tc main_arg4)) := by
  rw [Ssa.ssa_unary ops W hW V 75 main_v38 main_v40 _ _ _ rfl (by decide) (by decide),
    st_main_v38]
  rfl

theorem st_main_v41 (V : Valuation τ sig (Elt F)) :
    after ops V (Proc.devRef .tc main_v41) = ReadP.val_main_v41 (F := F) (V (Proc.devRef .tc main_arg0)) (V (Proc.devRef .tc main_arg1)) (V (Proc.devRef .tc main_arg2)) (V (Proc.devRef .tc main_arg3)) (V (Proc.devRef .tc main_arg4)) := by
  rw [Ssa.ssa_binary ops W hW V 76 main_v39 main_v40 main_v41 _ _ _ _ rfl (by decide) (by decide) (by decide),
    st_main_v39,
    st_main_v40]
  rfl

/-- Every weakly fair execution of the reference ends with the result buffer at the last stage function of the
    launch contents of the five arguments, and with the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = ReadP.val_main_v41 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v41).trans (st_main_v41 (launchContents m c)),
       (h c main_arg0).trans (Ssa.after_arg ops W hW (launchContents m c) main_arg0 (by decide)),
       (h c main_arg1).trans (Ssa.after_arg ops W hW (launchContents m c) main_arg1 (by decide)),
       (h c main_arg2).trans (Ssa.after_arg ops W hW (launchContents m c) main_arg2 (by decide)),
       (h c main_arg3).trans (Ssa.after_arg ops W hW (launchContents m c) main_arg3 (by decide)),
       (h c main_arg4).trans (Ssa.after_arg ops W hW (launchContents m c) main_arg4 (by decide))⟩)
    (run_seq scopedRefs_eq scopedSems_eq defs main (fun _ => ops) main_eq (fun _ => ops_sub) m ρ)

end Cert.ReferenceIdeal.RefRun

end
-- ==== Proof.RefSide.lean ====
/-
  The reference's last stage is the specification. Read index by index: the two normalisations, the noise-added
  values, the two inner products (against the keys, and against every table row followed by the pick of row
  `i − j + 1023`, which is always inside the table so the out-of-range fill is never chosen), the divisions by one,
  the 0/1 causal factor, the row sum and the product with the values, the final division.
-/
import proofs.«400248_j71940702208678_3_alg».proof.Proof.RefRead
import proofs.«400248_j71940702208678_3_alg».proof.Proof.Spec
import Idealize.ShloMosaic.Lib.IdealHost
import Idealize.ShloMosaic.Lib.StableHlo.Predicate

noncomputable section

open scoped BigOperators

namespace Cert.ReferenceIdeal.RefSide

open Cert.ReferenceIdeal Cert.ReferenceIdeal.Gen Idealize.ShloMosaic Idealize.ShloMosaic.ValueIdx Cert.Fastmax

/-- The type of the four big arguments. -/
abbrev A4 := (⟨S4x16x1024x64, .f32⟩ : BufTy).Contents (Elt Ideal)
/-- The type of the table argument. -/
abbrev AR := (⟨S2047x64, .f32⟩ : BufTy).Contents (Elt Ideal)

/-! ## The two normalisations and the noise-added values -/

theorem idx_norm0 (b : Fin 4) (h : Fin 16) (i : Fin 1024) (d : Fin 64) (k : Fin 64) :
    ReadP.idx_main_call0_v1 (ReadP.idx_main_call0_v2 (ReadP.idx_main_v1 (ix4 b h i d))) k = ix4 b h i k :=
  funext fun a => Fin.ext (by match a with | ⟨0, _⟩ => rfl | ⟨1, _⟩ => rfl | ⟨2, _⟩ => rfl | ⟨3, _⟩ => rfl)

theorem idx_norm1 (b : Fin 4) (h : Fin 16) (i : Fin 1024) (d : Fin 64) (k : Fin 64) :
    ReadP.idx_main_call1_v1 (ReadP.idx_main_call1_v2 (ReadP.idx_main_v4 (ix4 b h i d))) k = ix4 b h i k :=
  funext fun a => Fin.ext (by match a with | ⟨0, _⟩ => rfl | ⟨1, _⟩ => rfl | ⟨2, _⟩ => rfl | ⟨3, _⟩ => rfl)

theorem stage_v2 (x0 : A4) (b : Fin 4) (h : Fin 16) (i : Fin 1024) (d : Fin 64) :
    ReadP.val_main_v2 (F := Ideal) x0 (ix4 b h i d) = unitRow x0 b h i d := by
  rw [ReadP.val_main_v2_apply, ReadP.val_main_v1_apply, ReadP.val_main_v0_apply, ReadP.val_main_call0_v2_apply,
    ReadP.val_main_call0_v1_apply, ReadP.val_main_call0_cst_apply]
  simp only [Ideal.hostDivf_def, Ideal.hostUnary_sqrt_def, Ideal.ofBits_def, Ideal.ofBits_zero_f32, zero_add]
  unfold unitRow rowNorm
  refine congrArg (fun s => Ideal.div (x0 (ix4 b h i d)) (Ideal.sqrt s)) (Finset.sum_congr rfl fun k _ => ?_)
  rw [ReadP.val_main_call0_v0_apply, idx_norm0]
  rfl

theorem stage_v5 (x1 : A4) (b : Fin 4) (h : Fin 16) (i : Fin 1024) (d : Fin 64) :
    ReadP.val_main_v5 (F := Ideal) x1 (ix4 b h i d) = unitRow x1 b h i d := by
  rw [ReadP.val_main_v5_apply, ReadP.val_main_v4_apply, ReadP.val_main_v3_apply, ReadP.val_main_call1_v2_apply,
    ReadP.val_main_call1_v1_apply, ReadP.val_main_call1_cst_apply]
  simp only [Ideal.hostDivf_def, Ideal.hostUnary_sqrt_def, Ideal.ofBits_def, Ideal.ofBits_zero_f32, zero_add]
  unfold unitRow rowNorm
  refine congrArg (fun s => Ideal.div (x1 (ix4 b h i d)) (Ideal.sqrt s)) (Finset.sum_congr rfl fun k _ => ?_)
  rw [ReadP.val_main_call1_v0_apply, idx_norm1]
  rfl

theorem stage_v8 (x2 x3 : A4) (b : Fin 4) (h : Fin 16) (j : Fin 1024) (d : Fin 64) :
    ReadP.val_main_v8 (F := Ideal) x2 x3 (ix4 b h j d) = vEff x2 x3 b h j d := by
  rw [ReadP.val_main_v8_apply, ReadP.val_main_v7_apply, ReadP.val_main_v6_apply, ReadP.val_main_cst_apply]
  rfl

/-! ## The inner products against the keys -/

theorem lidx_v9 (b : Fin 4) (h : Fin 16) (i j : Fin 1024) (k : Fin 64) :
    ReadP.lidx_main_v9 (ix4 b h i j) k = ix4 b h i k :=
  funext fun a => Fin.ext (by match a with | ⟨0, _⟩ => rfl | ⟨1, _⟩ => rfl | ⟨2, _⟩ => rfl | ⟨3, _⟩ => rfl)

theorem ridx_v9 (b : Fin 4) (h : Fin 16) (i j : Fin 1024) (k : Fin 64) :
    ReadP.ridx_main_v9 (ix4 b h i j) k = ix4 b h j k :=
  funext fun a => Fin.ext (by match a with | ⟨0, _⟩ => rfl | ⟨1, _⟩ => rfl | ⟨2, _⟩ => rfl | ⟨3, _⟩ => rfl)

theorem stage_v9 (x0 x1 : A4) (b : Fin 4) (h : Fin 16) (i j : Fin 1024) :
    ReadP.val_main_v9 (F := Ideal) x0 x1 (ix4 b h i j) = qk x0 x1 b h i j := by
  rw [ReadP.val_main_v9_apply]
  unfold qk
  refine Finset.sum_congr rfl fun k _ => ?_
  rw [lidx_v9, ridx_v9, stage_v2, stage_v5]

theorem stage_v13 (x0 x1 : A4) (b : Fin 4) (h : Fin 16) (i j : Fin 1024) :
    ReadP.val_main_v13 (F := Ideal) x0 x1 (ix4 b h i j) = 1 + qk x0 x1 b h i j := by
  rw [ReadP.val_main_v13_apply, ReadP.val_main_v12_apply, ReadP.val_main_cst_1_apply, ReadP.val_main_v11_apply,
    ReadP.val_main_v10_apply, ReadP.val_main_cst_0_apply, stage_v9]
  simp only [Ideal.hostDivf_def, Ideal.addf_def, Ideal.ofBits_def, Ideal.ofBits_one_f32, div_one']

/-! ## The table row picked for a pair of positions: always inside the table -/

theorem word_v22 (i : S1024x1024.Idx) :
    ReadP.val_main_v22 (F := Ideal) i = BitVec.ofNat 32 ((i 0).val + 1023 - (i 1).val) := by
  rw [ReadP.val_main_v22_apply, ReadP.val_main_v20_apply, ReadP.val_main_v18_apply, ReadP.val_main_v16_apply,
    ReadP.val_main_v15_apply, ReadP.val_main_v19_apply, ReadP.val_main_v17_apply, ReadP.val_main_v15_apply,
    ReadP.val_main_v21_apply, ReadP.val_main_c_apply]
  have h0 : (i 0).val < 1024 := (i 0).isLt
  have h1 : (i 1).val < 1024 := (i 1).isLt
  show (BitVec.ofNat 32 (i 0).val - BitVec.ofNat 32 (i 1).val) + 1023#32 = _
  apply BitVec.eq_of_toNat_eq
  simp only [BitVec.toNat_add, BitVec.toNat_sub, BitVec.toNat_ofNat]
  omega

theorem word_v23 (i : S4x16x1024x1024.Idx) :
    ReadP.val_main_v23 (F := Ideal) i = BitVec.ofNat 32 ((i 2).val + 1023 - (i 3).val) := by
  rw [ReadP.val_main_v23_apply, word_v22]

/-- A word below 2³¹ is not negative … -/
theorem slt_zero (w : BitVec 32) (hw : w.toNat < 2 ^ 31) : IntOp.cmpi .slt w 0#32 = 0#1 :=
  eq_zero_of_ne_one fun e =>
    absurd ((StableHlo.Predicate.slt_iff_toNat hw (by decide)).1 e) (Nat.not_lt_zero _)

/-- … so it is at least zero … -/
theorem sge_zero (w : BitVec 32) (hw : w.toNat < 2 ^ 31) : IntOp.cmpi .sge w 0#32 = 1#1 :=
  (StableHlo.Predicate.sge_iff_toNat hw (by decide)).2 (Nat.zero_le _)

/-- … and a word that is at most 2046 compares so. -/
theorem sle_2046 (w : BitVec 32) (hw : w.toNat ≤ 2046) : IntOp.cmpi .sle w 2046#32 = 1#1 :=
  (StableHlo.Predicate.sle_iff_toNat (by omega) (by decide)).2 hw

theorem toNat_rel (p q : ℕ) (hp : p < 1024) (hq : q < 1024) : (BitVec.ofNat 32 (p + 1023 - q)).toNat = p + 1023 - q := by
  rw [BitVec.toNat_ofNat]; omega

theorem word_v4 (i : S4x16x1024x1024.Idx) :
    ReadP.val_main_call2_v4 (F := Ideal) i = BitVec.ofNat 32 ((i 2).val + 1023 - (i 3).val) := by
  have h2 : (i 2).val < 1024 := (i 2).isLt
  have h3 : (i 3).val < 1024 := (i 3).isLt
  rw [ReadP.val_main_call2_v4_apply, ReadP.val_main_call2_v1_apply, word_v23, ReadP.val_main_call2_v0_apply,
    ReadP.val_main_call2_c_apply, slt_zero _ (by rw [toNat_rel _ _ h2 h3]; omega), select_zero]

theorem word_v5 (i : S4x16x1024x1024x1.Idx) :
    ReadP.val_main_call2_v5 (F := Ideal) i
      = BitVec.ofNat 32 ((ReadP.idx_main_call2_v5 i 2).val + 1023 - (ReadP.idx_main_call2_v5 i 3).val) := by
  rw [ReadP.val_main_call2_v5_apply, word_v4]

/-- Every element of the in-range test is true. -/
theorem v11_one (i : S4x16x1024x1024x1.Idx) : ReadP.val_main_call2_v11 (F := Ideal) i = 1#1 := by
  have h2 : (ReadP.idx_main_call2_v5 i 2).val < 1024 := (ReadP.idx_main_call2_v5 i 2).isLt
  have h3 : (ReadP.idx_main_call2_v5 i 3).val < 1024 := (ReadP.idx_main_call2_v5 i 3).isLt
  have hn := toNat_rel _ _ h2 h3
  rw [ReadP.val_main_call2_v11_apply, ReadP.val_main_call2_v7_apply, ReadP.val_main_call2_v10_apply, word_v5,
    ReadP.val_main_call2_v6_apply, ReadP.val_main_call2_c_2_apply, ReadP.val_main_call2_v9_apply,
    ReadP.val_main_call2_v8_apply, ReadP.val_main_call2_c_1_apply,
    sge_zero _ (by rw [hn]; omega), sle_2046 _ (by rw [hn]; omega)]
  decide

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_ones f hf l

/-- The and-reduction over the unit axis of an all-true array is true everywhere. -/
theorem v12_one (i : S4x16x1024x1024.Idx) : ReadP.val_main_call2_v12 (F := Ideal) i = 1#1 := by
  unfold ReadP.val_main_call2_v12
  rw [Host.reduce_eq_foldl, ReadP.val_main_call2_c_3_apply]
  exact foldl_andi_ones _ v11_one _

/-! ## The gather: row `i − j + 1023` of the table products -/

section Gather
variable {α : Type} {w : Nat}

/-- The gather's dimension numbers. -/
abbrev GD : GatherDims S4x16x1024x2047 S4x16x1024x1024x1 S4x16x1024x1024 :=
  gather_S4x16x1024x2047_S4x16x1024x1024x1_S4x16x1024x1024_n_3_012_012_3_4_1111

theorem gd_coord0 (y : S4x16x1024x1024.Idx) (idx : IVec S4x16x1024x1024x1 w) :
    (GD.operandIdx y idx 0).val = (y 0).val := by
  show GD.start y idx 0 + GD.batchCoord y 0 + GD.offCoord y 0 = _
  rw [GatherDims.start_batching _ _ _ _ (show (0 : Fin S4x16x1024x2047.rank) ∈ GD.operandBatchingDims by decide),
    GatherDims.offCoord_eq_zero _ _ _ (show (0 : Fin S4x16x1024x2047.rank) ∉ GD.sKept by decide)]
  unfold GatherDims.batchCoord
  rw [dif_pos (show (0 : Fin S4x16x1024x2047.rank) ∈ GD.operandBatchingDims by decide), Nat.zero_add, Nat.add_zero]
  rfl

theorem gd_coord1 (y : S4x16x1024x1024.Idx) (idx : IVec S4x16x1024x1024x1 w) :
    (GD.operandIdx y idx 1).val = (y 1).val := by
  show GD.start y idx 1 + GD.batchCoord y 1 + GD.offCoord y 1 = _
  rw [GatherDims.start_batching _ _ _ _ (show (1 : Fin S4x16x1024x2047.rank) ∈ GD.operandBatchingDims by decide),
    GatherDims.offCoord_eq_zero _ _ _ (show (1 : Fin S4x16x1024x2047.rank) ∉ GD.sKept by decide)]
  unfold GatherDims.batchCoord
  rw [dif_pos (show (1 : Fin S4x16x1024x2047.rank) ∈ GD.operandBatchingDims by decide), Nat.zero_add, Nat.add_zero]
  rfl

theorem gd_coord2 (y : S4x16x1024x1024.Idx) (idx : IVec S4x16x1024x1024x1 w) :
    (GD.operandIdx y idx 2).val = (y 2).val := by
  show GD.start y idx 2 + GD.batchCoord y 2 + GD.offCoord y 2 = _
  rw [GatherDims.start_batching _ _ _ _ (show (2 : Fin S4x16x1024x2047.rank) ∈ GD.operandBatchingDims by decide),
    GatherDims.offCoord_eq_zero _ _ _ (show (2 : Fin S4x16x1024x2047.rank) ∉ GD.sKept by decide)]
  unfold GatherDims.batchCoord
  rw [dif_pos (show (2 : Fin S4x16x1024x2047.rank) ∈ GD.operandBatchingDims by decide), Nat.zero_add, Nat.add_zero]
  rfl

/-- The start-indices index a result index reads its one start component at. -/
abbrev startAt (y : S4x16x1024x1024.Idx) : S4x16x1024x1024x1.Idx := fun a => match a with
  | ⟨0, _⟩ => ⟨(y 0).val, (y 0).isLt⟩
  | ⟨1, _⟩ => ⟨(y 1).val, (y 1).isLt⟩
  | ⟨2, _⟩ => ⟨(y 2).val, (y 2).isLt⟩
  | ⟨3, _⟩ => ⟨(y 3).val, (y 3).isLt⟩
  | ⟨4, _⟩ => ⟨0, Nat.one_pos⟩

theorem gd_coord3 (y : S4x16x1024x1024.Idx) (idx : IVec S4x16x1024x1024x1 w) :
    (GD.operandIdx y idx 3).val = min (idx (startAt y)).toInt.toNat 2046 := by
  show GD.start y idx 3 + GD.batchCoord y 3 + GD.offCoord y 3 = _
  rw [GatherDims.batchCoord_eq_zero _ _ _ (show (3 : Fin S4x16x1024x2047.rank) ∉ GD.operandBatchingDims by decide),
    GatherDims.offCoord_eq_zero _ _ _ (show (3 : Fin S4x16x1024x2047.rank) ∉ GD.sKept by decide)]
  unfold GatherDims.start
  rw [dif_pos (show (3 : Fin S4x16x1024x2047.rank) ∈ GD.startIndexMap by decide)]
  have hsi : GD.siIdx y ⟨List.idxOf (3 : Fin S4x16x1024x2047.rank) GD.startIndexMap,
      List.idxOf_lt_length_iff.2 (show (3 : Fin S4x16x1024x2047.rank) ∈ GD.startIndexMap by decide)⟩ = startAt y := by
    funext c; refine Fin.ext ?_
    match c with
    | ⟨0, _⟩ => rfl
    | ⟨1, _⟩ => rfl
    | ⟨2, _⟩ => rfl
    | ⟨3, _⟩ => rfl
    | ⟨4, _⟩ => rfl
  rw [hsi]
  rfl

theorem gather_read (x : S4x16x1024x2047.Idx → α) (idx : IVec S4x16x1024x1024x1 32)
    (b : Fin 4) (h : Fin 16) (i j : Fin 1024) (t : Fin 2047)
    (ht : idx (ix5 b h i j (0 : Fin 1)) = BitVec.ofNat 32 t.val) :
    Host.gather GD x idx (ix4 b h i j) = x (ix4 b h i t) := by
  unfold Host.gather
  refine congrArg x (funext fun a => Fin.ext ?_)
  match a with
  | ⟨0, _⟩ => exact gd_coord0 _ _
  | ⟨1, _⟩ => exact gd_coord1 _ _
  | ⟨2, _⟩ => exact gd_coord2 _ _
  | ⟨3, _⟩ =>
    refine (gd_coord3 _ _).trans ?_
    have e : startAt (ix4 b h i j) = ix5 b h i j (0 : Fin 1) :=
      funext fun c => Fin.ext (by match c with | ⟨0, _⟩ => rfl | ⟨1, _⟩ => rfl | ⟨2, _⟩ => rfl | ⟨3, _⟩ => rfl | ⟨4, _⟩ => rfl)
    have ht' := t.isLt
    rw [e, ht, StableHlo.Predicate.toInt_ofNat_small _ (by omega), Int.toNat_natCast]
    show min t.val 2046 = t.val
    omega

end Gather

/-! ## The inner products against the table, and the picked row -/

theorem idx5_at (b : Fin 4) (h : Fin 16) (i j : Fin 1024) :
    ReadP.idx_main_call2_v5 (ix5 b h i j (0 : Fin 1)) = ix4 b h i j := by
  have hb := b.isLt
  have hh := h.isLt
  have hi := i.isLt
  have hj := j.isLt
  funext a
  refine Fin.ext ?_
  match a with
  | ⟨0, _⟩ => exact (show ((((b.val * 16 + h.val) * 1024 + i.val) * 1024 + j.val) * 1 + 0) / 16777216 = b.val by omega)
  | ⟨1, _⟩ => exact (show ((((b.val * 16 + h.val) * 1024 + i.val) * 1024 + j.val) * 1 + 0) / 1048576 % 16 = h.val by omega)
  | ⟨2, _⟩ => exact (show ((((b.val * 16 + h.val) * 1024 + i.val) * 1024 + j.val) * 1 + 0) / 1024 % 1024 = i.val by omega)
  | ⟨3, _⟩ => exact (show ((((b.val * 16 + h.val) * 1024 + i.val) * 1024 + j.val) * 1 + 0) % 1024 = j.val by omega)

theorem word_v5_at (b : Fin 4) (h : Fin 16) (i j : Fin 1024) :
    ReadP.val_main_call2_v5 (F := Ideal) (ix5 b h i j (0 : Fin 1)) = BitVec.ofNat 32 (relRow i j).val := by
  rw [ReadP.val_main_call2_v5_apply, idx5_at, word_v4]
  rfl

theorem lidx_v14 (b : Fin 4) (h : Fin 16) (i : Fin 1024) (t : Fin 2047) (k : Fin 64) :
    ReadP.lidx_main_v14 (ix4 b h i t) k = ix4 b h i k :=
  funext fun a => Fin.ext (by match a with | ⟨0, _⟩ => rfl | ⟨1, _⟩ => rfl | ⟨2, _⟩ => rfl | ⟨3, _⟩ => rfl)

theorem ridx_v14 (b : Fin 4) (h : Fin 16) (i : Fin 1024) (t : Fin 2047) (k : Fin 64) :
    ReadP.ridx_main_v14 (ix4 b h i t) k = ix2 t k :=
  funext fun a => Fin.ext (by match a with | ⟨0, _⟩ => rfl | ⟨1, _⟩ => rfl)

theorem stage_v14 (x0 : A4) (x4 : AR) (b : Fin 4) (h : Fin 16) (i : Fin 1024) (t : Fin 2047) :
    ReadP.val_main_v14 (F := Ideal) x0 x4 (ix4 b h i t) = qr x0 x4 b h i t := by
  rw [ReadP.val_main_v14_apply]
  unfold qr
  refine Finset.sum_congr rfl fun k _ => ?_
  rw [lidx_v14, ridx_v14, stage_v2]

theorem stage_v24 (x0 : A4) (x4 : AR) (b : Fin 4) (h : Fin 16) (i j : Fin 1024) :
    ReadP.val_main_v24 (F := Ideal) x0 x4 (ix4 b h i j) = qr x0 x4 b h i (relRow i j) := by
  rw [ReadP.val_main_v24_apply, v12_one, select_one]
  unfold ReadP.val_main_call2_v13
  rw [gather_read _ _ b h i j (relRow i j) (word_v5_at b h i j), stage_v14]

theorem stage_v27 (x0 x1 : A4) (x4 : AR) (b : Fin 4) (h : Fin 16) (i j : Fin 1024) :
    ReadP.val_main_v27 (F := Ideal) x0 x1 x4 (ix4 b h i j) = (1 + qk x0 x1 b h i j) + qr x0 x4 b h i (relRow i j) := by
  rw [ReadP.val_main_v27_apply, stage_v13, ReadP.val_main_v26_apply, stage_v24, ReadP.val_main_v25_apply,
    ReadP.val_main_cst_2_apply]
  simp only [Ideal.hostDivf_def, Ideal.addf_def, Ideal.ofBits_def, Ideal.ofBits_one_f32, div_one']

/-! ## The causal factor, the scores, the two sums and the quotient -/

theorem toNat_small (n : ℕ) (hn : n < 1024) : (BitVec.ofNat 32 n).toNat = n := by
  rw [BitVec.toNat_ofNat]; omega

theorem factor (b : Fin 4) (h : Fin 16) (i j : Fin 1024) :
    ReadP.val_main_v35 (F := Ideal) (ix4 b h i j) = if j.val ≤ i.val then 1 else 0 := by
  rw [ReadP.val_main_v35_apply, ReadP.val_main_v34_apply, ReadP.val_main_v33_apply, ReadP.val_main_v32_apply,
    ReadP.val_main_v30_apply, ReadP.val_main_v28_apply, ReadP.val_main_v15_apply, ReadP.val_main_v31_apply,
    ReadP.val_main_v29_apply, ReadP.val_main_v15_apply]
  show FloatOps.uitofp (F := Ideal) .f32 (IntOp.cmpi .sge (BitVec.ofNat 32 i.val) (BitVec.ofNat 32 j.val)) = _
  have hi := toNat_small i.val i.isLt
  have hj := toNat_small j.val j.isLt
  have hi' := i.isLt
  have hj' := j.isLt
  have hiff := StableHlo.Predicate.sge_iff_toNat (a := BitVec.ofNat 32 i.val) (b := BitVec.ofNat 32 j.val)
    (by rw [hi]; omega) (by rw [hj]; omega)
  rw [hi, hj] at hiff
  by_cases hij : j.val ≤ i.val
  · rw [hiff.2 hij, if_pos hij]
    show (((1#1 : BitVec 1).toNat : ℝ) : EReal) = 1
    rw [show (1#1 : BitVec 1).toNat = 1 from rfl]
    simp
  · rw [eq_zero_of_ne_one (fun e => hij (hiff.1 e)), if_neg hij]
    show (((0#1 : BitVec 1).toNat : ℝ) : EReal) = 0
    rw [show (0#1 : BitVec 1).toNat = 0 from rfl]
    simp

theorem stage_v36 (x0 x1 : A4) (x4 : AR) (b : Fin 4) (h : Fin 16) (i j : Fin 1024) :
    ReadP.val_main_v36 (F := Ideal) x0 x1 x4 (ix4 b h i j) = score x0 x1 x4 b h i j := by
  rw [ReadP.val_main_v36_apply, stage_v27, factor]
  unfold score
  simp only [Ideal.mulf_def]
  by_cases hij : j.val ≤ i.val
  · rw [if_pos hij, if_pos hij, mul_one]
  · rw [if_neg hij, if_neg hij, mul_zero]

theorem idx_v37 (b : Fin 4) (h : Fin 16) (i : Fin 1024) (d : Fin 64) (k : Fin 1024) :
    ReadP.idx_main_v37 (ReadP.idx_main_v38 (ReadP.idx_main_v40 (ix4 b h i d))) k = ix4 b h i k :=
  funext fun a => Fin.ext (by match a with | ⟨0, _⟩ => rfl | ⟨1, _⟩ => rfl | ⟨2, _⟩ => rfl | ⟨3, _⟩ => rfl)

theorem stage_v40 (x0 x1 : A4) (x4 : AR) (b : Fin 4) (h : Fin 16) (i : Fin 1024) (d : Fin 64) :
    ReadP.val_main_v40 (F := Ideal) x0 x1 x4 (ix4 b h i d) = denom x0 x1 x4 b h i := by
  rw [ReadP.val_main_v40_apply, ReadP.val_main_v38_apply, ReadP.val_main_v37_apply, ReadP.val_main_cst_3_apply]
  simp only [Ideal.ofBits_def, Ideal.ofBits_zero_f32, zero_add]
  unfold denom
  refine Finset.sum_congr rfl fun k _ => ?_
  rw [idx_v37, stage_v36]

theorem lidx_v39 (b : Fin 4) (h : Fin 16) (i : Fin 1024) (d : Fin 64) (k : Fin 1024) :
    ReadP.lidx_main_v39 (ix4 b h i d) k = ix4 b h i k :=
  funext fun a => Fin.ext (by match a with | ⟨0, _⟩ => rfl | ⟨1, _⟩ => rfl | ⟨2, _⟩ => rfl | ⟨3, _⟩ => rfl)

theorem ridx_v39 (b : Fin 4) (h : Fin 16) (i : Fin 1024) (d : Fin 64) (k : Fin 1024) :
    ReadP.ridx_main_v39 (ix4 b h i d) k = ix4 b h k d :=
  funext fun a => Fin.ext (by match a with | ⟨0, _⟩ => rfl | ⟨1, _⟩ => rfl | ⟨2, _⟩ => rfl | ⟨3, _⟩ => rfl)

theorem stage_v39 (x0 x1 x2 x3 : A4) (x4 : AR) (b : Fin 4) (h : Fin 16) (i : Fin 1024) (d : Fin 64) :
    ReadP.val_main_v39 (F := Ideal) x0 x1 x2 x3 x4 (ix4 b h i d) = numer x0 x1 x2 x3 x4 b h i d := by
  rw [ReadP.val_main_v39_apply]
  unfold numer
  refine Finset.sum_congr rfl fun k _ => ?_
  rw [lidx_v39, ridx_v39, stage_v36, stage_v8]

/-- The reference's result, as a function of its five arguments, is `result` of them. -/
theorem ref_eq (x0 x1 x2 x3 : (⟨S4x16x1024x64, .f32⟩ : BufTy).Contents (Elt Ideal)) (x4 : (⟨S2047x64, .f32⟩ : BufTy).Contents (Elt Ideal)) :
    ReadP.val_main_v41 (F := Ideal) x0 x1 x2 x3 x4 = result x0 x1 x2 x3 x4 := by
  funext y
  obtain ⟨b, h, i, d, rfl⟩ : ∃ b h i d, y = ix4 b h i d := ⟨y 0, y 1, y 2, y 3, eq_ix4 y⟩
  rw [result_ix4, ReadP.val_main_v41_apply, stage_v39, stage_v40]
  rfl

end Cert.ReferenceIdeal.RefSide

end
-- ==== Proof.lean ====
/-
  The kernel — a linear-attention forward pass with relative-position bias: unit query rows against reversed unit key
  rows and against a sliding window of the position table, the window's products shifted row by row, a causal mask, and
  the score-weighted mean of the noise-added values — and its plain reference compute one function of their five
  arguments over the extended reals, `Cert.Fastmax.result` (Proof/Spec.lean):

    * the kernel program's result array is `result` of its arguments: the body's arithmetic at one grid point
      (Proof/Roll.lean, Proof/Body.lean), the blocks written back tile the output (Proof/KFrame.lean), the arrays the
      windows read are the host lines' values (Proof/KHost.lean), and summing over the reversed key index is summing
      over the key index (Proof/Bridge.lean, Proof/KOut.lean);
    * the reference's result is `result` of its arguments: its run operation by operation (Proof/RefRun.lean) and its
      last stage read index by index (Proof/RefSide.lean).

  No algebraic law beyond `x · 1 = x`, `x / 1 = x`, `x · 0 = 0`, `0 + x = x` and the reordering of a finite sum is
  used, so the finiteness precondition is never opened. The idealization rewrote nothing, so `preserves` is `True`.
-/
import proofs.«400248_j71940702208678_3_alg».proof.Defs
import proofs.«400248_j71940702208678_3_alg».proof.Proof.Gen.Kernel
import proofs.«400248_j71940702208678_3_alg».proof.Proof.Gen.Kernel.Frame
import proofs.«400248_j71940702208678_3_alg».proof.Proof.Gen.KernelIdeal
import proofs.«400248_j71940702208678_3_alg».proof.Proof.Gen.KernelIdeal.Frame
import proofs.«400248_j71940702208678_3_alg».proof.Proof.Gen.ReferenceIdeal
import proofs.«400248_j71940702208678_3_alg».proof.Proof.Gen.Pre_finite_inputs
import proofs.«400248_j71940702208678_3_alg».proof.Proof.KOut
import proofs.«400248_j71940702208678_3_alg».proof.Proof.RefRun
import proofs.«400248_j71940702208678_3_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end at `result` of arguments that agree. -/
theorem algebraic : Cert.algebraic_KernelIdeal_ReferenceIdeal := by
  intro m ρ m' ρ' _ hagree
  refine ⟨fun c => Cert.KernelIdeal.KFrame.kernelOut m c, Cert.KernelIdeal.KFrame.run_value m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefSide.ref_eq, (hagree c).1, (hagree c).2.1, (hagree c).2.2.1, (hagree c).2.2.2.1,
    (hagree c).2.2.2.2]
  exact (Cert.KernelIdeal.KOut.kernelOut_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
